-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S8x512 : Shape := ⟨2, ![8, 512]⟩
abbrev S1677x1024 : Shape := ⟨2, ![1677, 1024]⟩
abbrev S1677 : Shape := ⟨1, ![1677]⟩
abbrev S256x1024 : Shape := ⟨2, ![256, 1024]⟩
abbrev S3350x256 : Shape := ⟨2, ![3350, 256]⟩
abbrev S64x1024 : Shape := ⟨2, ![64, 1024]⟩
abbrev S45232x64 : Shape := ⟨2, ![45232, 64]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S1677x1024 : S_.BroadcastsInDim S1677x1024 (![] : Fin 0 → Fin S1677x1024.rank)
  reducesTo_S1677x1024_S_d0_1 : S1677x1024.ReducesTo [0, 1] S_
  bcast_S_S1677 : S_.BroadcastsInDim S1677 (![] : Fin 0 → Fin S1677.rank)
  reducesTo_S1677_S_d0 : S1677.ReducesTo [0] S_
  bcast_S_S256x1024 : S_.BroadcastsInDim S256x1024 (![] : Fin 0 → Fin S256x1024.rank)
  reducesTo_S256x1024_S_d0_1 : S256x1024.ReducesTo [0, 1] S_
  bcast_S_S3350x256 : S_.BroadcastsInDim S3350x256 (![] : Fin 0 → Fin S3350x256.rank)
  reducesTo_S3350x256_S_d0_1 : S3350x256.ReducesTo [0, 1] S_
  bcast_S_S64x1024 : S_.BroadcastsInDim S64x1024 (![] : Fin 0 → Fin S64x1024.rank)
  reducesTo_S64x1024_S_d0_1 : S64x1024.ReducesTo [0, 1] S_
  bcast_S_S45232x64 : S_.BroadcastsInDim S45232x64 (![] : Fin 0 → Fin S45232x64.rank)
  reducesTo_S45232x64_S_d0_1 : S45232x64.ReducesTo [0, 1] S_
  bcast_S_S8x512 : S_.BroadcastsInDim S8x512 (![] : Fin 0 → Fin S8x512.rank)
  reducesTo_S8x512_S_d0_1 : S8x512.ReducesTo [0, 1] S_

variable [Facts]

def fn_part2 {F : FTy → Type} [FloatOps F] (main_arg1 : IVec S8x512 32) (main_v33 : IVec S_ 1) : IVec S_ 1 :=
  let main_c_12 : IVec S_ 32 := constantI S_ 32 0#32
  let main_v34 : IVec S8x512 32 := broadcastInDim S8x512 ![] bcast_S_S8x512 main_c_12
  let main_v35 : IVec S8x512 1 := cmpi .sge main_arg1 main_v34
  let main_c_13 : IVec S_ 1 := constantI S_ 1 1#1
  let main_v36 : IVec S_ 1 := (fun x v => Host.reduce IntOp.andi x v reducesTo_S8x512_S_d0_1 h_S_) main_v35 main_c_13
  let main_v37 : IVec S_ 1 := andi main_v33 main_v36
  let main_c_14 : IVec S_ 32 := constantI S_ 32 50257#32
  let main_v38 : IVec S8x512 32 := broadcastInDim S8x512 ![] bcast_S_S8x512 main_c_14
  let main_v39 : IVec S8x512 1 := cmpi .slt main_arg1 main_v38
  let main_c_15 : IVec S_ 1 := constantI S_ 1 1#1
  let main_v40 : IVec S_ 1 := (fun x v => Host.reduce IntOp.andi x v reducesTo_S8x512_S_d0_1 h_S_) main_v39 main_c_15
  let main_v41 : IVec S_ 1 := andi main_v37 main_v40
  main_v41

def fn_part1 {F : FTy → Type} [FloatOps F] (main_arg1 : IVec S8x512 32) (main_arg5 : FVec F S3350x256 .f32) (main_arg6 : FVec F S64x1024 .f32) (main_arg7 : FVec F S45232x64 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S3350x256 .f32 := Host.absf main_arg5
  let main_cst_6 : FVec F S_ .f32 := constant S_ .f32 0x7F800000#32
  let main_v20 : FVec F S3350x256 .f32 := broadcastInDim S3350x256 ![] bcast_S_S3350x256 main_cst_6
  let main_v21 : IVec S3350x256 1 := cmpf .olt main_v19 main_v20
  let main_c_7 : IVec S_ 1 := constantI S_ 1 1#1
  let main_v22 : IVec S_ 1 := (fun x v => Host.reduce IntOp.andi x v reducesTo_S3350x256_S_d0_1 h_S_) main_v21 main_c_7
  let main_v23 : IVec S_ 1 := andi main_v18 main_v22
  let main_v24 : FVec F S64x1024 .f32 := Host.absf main_arg6
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S45232x64 .f32 := Host.absf main_arg7
  let main_cst_10 : FVec F S_ .f32 := constant S_ .f32 0x7F800000#32
  let main_v30 : FVec F S45232x64 .f32 := broadcastInDim S45232x64 ![] bcast_S_S45232x64 main_cst_10
  let main_v31 : IVec S45232x64 1 := cmpf .olt main_v29 main_v30
  let main_c_11 : IVec S_ 1 := constantI S_ 1 1#1
  let main_v32 : IVec S_ 1 := (fun x v => Host.reduce IntOp.andi x v reducesTo_S45232x64_S_d0_1 h_S_) main_v31 main_c_11
  let main_v33 : IVec S_ 1 := andi main_v28 main_v32
  fn_part2 (F := F) main_arg1 main_v33

def fn {F : FTy → Type} [FloatOps F] (main_arg0 : FVec F S8x512x1024 .f32) (main_arg1 : IVec S8x512 32) (main_arg2 : FVec F S1677x1024 .f32) (main_arg3 : FVec F S1677 .f32) (main_arg4 : FVec F S256x1024 .f32) (main_arg5 : FVec F S3350x256 .f32) (main_arg6 : FVec F S64x1024 .f32) (main_arg7 : FVec F S45232x64 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S1677x1024 .f32 := Host.absf main_arg2
  let main_cst_0 : FVec F S_ .f32 := constant S_ .f32 0x7F800000#32
  let main_v5 : FVec F S1677x1024 .f32 := broadcastInDim S1677x1024 ![] bcast_S_S1677x1024 main_cst_0
  let main_v6 : IVec S1677x1024 1 := cmpf .olt main_v4 main_v5
  let main_c_1 : IVec S_ 1 := constantI S_ 1 1#1
  let main_v7 : IVec S_ 1 := (fun x v => Host.reduce IntOp.andi x v reducesTo_S1677x1024_S_d0_1 h_S_) main_v6 main_c_1
  let main_v8 : IVec S_ 1 := andi main_v3 main_v7
  let main_v9 : FVec F S1677 .f32 := Host.absf main_arg3
  let main_cst_2 : FVec F S_ .f32 := constant S_ .f32 0x7F800000#32
  let main_v10 : FVec F S1677 .f32 := broadcastInDim S1677 ![] bcast_S_S1677 main_cst_2
  let main_v11 : IVec S1677 1 := cmpf .olt main_v9 main_v10
  let main_c_3 : IVec S_ 1 := constantI S_ 1 1#1
  let main_v12 : IVec S_ 1 := (fun x v => Host.reduce IntOp.andi x v reducesTo_S1677_S_d0 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg1 main_arg5 main_arg6 main_arg7 main_v13 main_v16
-- ==== Kernel.lean ====
abbrev S8x512x1024 : Shape := ⟨3, ![8, 512, 1024]⟩
abbrev S8x512 : Shape := ⟨2, ![8, 512]⟩
abbrev S1677x1024 : Shape := ⟨2, ![1677, 1024]⟩
abbrev S1677 : Shape := ⟨1, ![1677]⟩
abbrev S256x1024 : Shape := ⟨2, ![256, 1024]⟩
abbrev S3350x256 : Shape := ⟨2, ![3350, 256]⟩
abbrev S64x1024 : Shape := ⟨2, ![64, 1024]⟩
abbrev S45232x64 : Shape := ⟨2, ![45232, 64]⟩
abbrev S4096x1024 : Shape := ⟨2, ![4096, 1024]⟩
abbrev S4096 : Shape := ⟨1, ![4096]⟩
abbrev S4096x1 : Shape := ⟨2, ![4096, 1]⟩
abbrev S1024x1677 : Shape := ⟨2, ![1024, 1677]⟩
abbrev S_ : Shape := ⟨0, ![]⟩
abbrev S1024x1792 : Shape := ⟨2, ![1024, 1792]⟩
abbrev S1x1677 : Shape := ⟨2, ![1, 1677]⟩
abbrev S1x1792 : Shape := ⟨2, ![1, 1792]⟩
abbrev S1024x256 : Shape := ⟨2, ![1024, 256]⟩
abbrev S256x3350 : Shape := ⟨2, ![256, 3350]⟩
abbrev S256x3456 : Shape := ⟨2, ![256, 3456]⟩
abbrev S1024x64 : Shape := ⟨2, ![1024, 64]⟩
abbrev S64x45232 : Shape := ⟨2, ![64, 45232]⟩
abbrev S64x49152 : Shape := ⟨2, ![64, 49152]⟩
abbrev S256x1 : Shape := ⟨2, ![256, 1]⟩
abbrev S256 : Shape := ⟨1, ![256]⟩
abbrev S256x1792 : Shape := ⟨2, ![256, 1792]⟩
abbrev S256x256 : Shape := ⟨2, ![256, 256]⟩
abbrev S256x64 : Shape := ⟨2, ![256, 64]⟩
abbrev S64x4096 : Shape := ⟨2, ![64, 4096]⟩
abbrev S256x4096 : Shape := ⟨2, ![256, 4096]⟩

abbrev nBuf : Space → Nat
  | .hbm => 42
  | .vmem => 12
  | .smem => 0
  | _ => 0

abbrev bufTy : (tb : Table) → Fin (tcTables nBuf tb) → BufTy
  | .hbm, ⟨0, _⟩ => ⟨S8x512x1024, .f32⟩
  | .hbm, ⟨1, _⟩ => ⟨S8x512, .i32⟩
  | .hbm, ⟨2, _⟩ => ⟨S1677x1024, .f32⟩
  | .hbm, ⟨3, _⟩ => ⟨S1677, .f32⟩
  | .hbm, ⟨4, _⟩ => ⟨S256x1024, .f32⟩
  | .hbm, ⟨5, _⟩ => ⟨S3350x256, .f32⟩
  | .hbm, ⟨6, _⟩ => ⟨S64x1024, .f32⟩
  | .hbm, ⟨7, _⟩ => ⟨S45232x64, .f32⟩
  | .hbm, ⟨8, _⟩ => ⟨S4096x1024, .f32⟩
  | .hbm, ⟨9, _⟩ => ⟨S4096x1024, .bf16⟩
  | .hbm, ⟨10, _⟩ => ⟨S4096, .i32⟩
  | .hbm, ⟨11, _⟩ => ⟨S4096x1, .i32⟩
  | .hbm, ⟨12, _⟩ => ⟨S1024x1677, .f32⟩
  | .hbm, ⟨13, _⟩ => ⟨S_, .i32⟩
  | .hbm, ⟨14, _⟩ => ⟨S_, .f32⟩
  | .hbm, ⟨15, _⟩ => ⟨S1024x1792, .f32⟩
  | .hbm, ⟨16, _⟩ => ⟨S1024x1792, .bf16⟩
  | .hbm, ⟨17, _⟩ => ⟨S1x1677, .f32⟩
  | .hbm, ⟨18, _⟩ => ⟨S_, .i32⟩
  | .hbm, ⟨19, _⟩ => ⟨S_, .f32⟩
  | .hbm, ⟨20, _⟩ => ⟨S1x1792, .f32⟩
  | .hbm, ⟨21, _⟩ => ⟨S1024x256, .f32⟩
  | .hbm, ⟨22, _⟩ => ⟨S1024x256, .bf16⟩
  | .hbm, ⟨23, _⟩ => ⟨S256x3350, .f32⟩
  | .hbm, ⟨24, _⟩ => ⟨S_, .i32⟩
  | .hbm, ⟨25, _⟩ => ⟨S_, .f32⟩
  | .hbm, ⟨26, _⟩ => ⟨S256x3456, .f32⟩
  | .hbm, ⟨27, _⟩ => ⟨S256x3456, .bf16⟩
  | .hbm, ⟨28, _⟩ => ⟨S1024x64, .f32⟩
  | .hbm, ⟨29, _⟩ => ⟨S1024x64, .bf16⟩
  | .hbm, ⟨30, _⟩ => ⟨S64x45232, .f32⟩
  | .hbm, ⟨31, _⟩ => ⟨S_, .i32⟩
  | .hbm, ⟨32, _⟩ => ⟨S_, .f32⟩
  | .hbm, ⟨33, _⟩ => ⟨S64x49152, .f32⟩
  | .hbm, ⟨34, _⟩ => ⟨S64x49152, .bf16⟩
  | .hbm, ⟨35, _⟩ => ⟨S4096x1, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S256x1024, .bf16⟩
  | .local _ .vmem, ⟨1, _⟩ => ⟨S256x1024, .bf16⟩
  | .local _ .vmem, ⟨2, _⟩ => ⟨S256x1, .i32⟩
  | .local _ .vmem, ⟨3, _⟩ => ⟨S256x1, .i32⟩
  | .local _ .vmem, ⟨4, _⟩ => ⟨S1024x1792, .bf16⟩
  | .local _ .vmem, ⟨5, _⟩ => ⟨S1x1792, .f32⟩
  | .local _ .vmem, ⟨6, _⟩ => ⟨S1024x256, .bf16⟩
  | .local _ .vmem, ⟨7, _⟩ => ⟨S256x3456, .bf16⟩
  | .local _ .vmem, ⟨8, _⟩ => ⟨S1024x64, .bf16⟩
  | .local _ .vmem, ⟨9, _⟩ => ⟨S64x49152, .bf16⟩
  | .local _ .vmem, ⟨10, _⟩ => ⟨S256x1, .f32⟩
  | .local _ .vmem, ⟨11, _⟩ => ⟨S256x1, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_call3_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_34 : BitVec 32 := 0#32
  let c11_i32 : BitVec 32 := 11#32
  let v102 : BitVec 32 := Scalar.addi c0_i32_34 c11_i32
  let c1_i32 : BitVec 32 := 1#32
  ⟨c0_i32_34, v102, c1_i32⟩
def k0_mult1 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c4096_i32 : BitVec 32 := 4096#32
  let v145 : BitVec 32 := Scalar.muli arg10 c4096_i32
  v145
def k0_off1 (k0_t1 : Fin k0_t1_loop.trips) : Fin 2 → Nat :=
  let c0_46 : Index := 0#32
  let c0_i32_34 : BitVec 32 := 0#32
  let c1_i32 : BitVec 32 := 1#32
  let arg10 : BitVec 32 := Scf.iv c0_i32_34 c1_i32 k0_t1
  let c4096_i32 : BitVec 32 := 4096#32
  let v145 : BitVec 32 := Scalar.muli arg10 c4096_i32
  let v146 : BitVec 32 := v145
  let v147 : Index := Scalar.indexCast v146
  ![0, v147.toNat]
def k0_mult2 : BitVec 32 :=
  let c45056_i32 : BitVec 32 := 45056#32
  c45056_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x49152 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x512x1024_S4096x1024 : S8x512x1024.ShapeCasts S4096x1024
  bitsLt_bf16_f32 : FTy.bits .bf16 < FTy.bits .f32
  shapeCasts_S8x512_S4096 : S8x512.ShapeCasts S4096
  shapeCasts_S4096_S4096x1 : S4096.ShapeCasts S4096x1
  transposes_S1677x1024_S1024x1677_1_0 : S1677x1024.Transposes [1, 0] S1024x1677
  pads_S1024x1677_S1024x1792_000_01150 : S1024x1677.Pads (![0, 0] : Fin 2 → Nat) ![0, 115] ![0, 0] S1024x1792
  h_S_ : 0 < S_.numel
  shapeCasts_S1677_S1x1677 : S1677.ShapeCasts S1x1677
  pads_S1x1677_S1x1792_000_01150 : S1x1677.Pads (![0, 0] : Fin 2 → Nat) ![0, 115] ![0, 0] S1x1792
  transposes_S256x1024_S1024x256_1_0 : S256x1024.Transposes [1, 0] S1024x256
  transposes_S3350x256_S256x3350_1_0 : S3350x256.Transposes [1, 0] S256x3350
  pads_S256x3350_S256x3456_000_01060 : S256x3350.Pads (![0, 0] : Fin 2 → Nat) ![0, 106] ![0, 0] S256x3456
  transposes_S64x1024_S1024x64_1_0 : S64x1024.Transposes [1, 0] S1024x64
  transposes_S45232x64_S64x45232_1_0 : S45232x64.Transposes [1, 0] S64x45232
  pads_S64x45232_S64x49152_000_039200 : S64x45232.Pads (![0, 0] : Fin 2 → Nat) ![0, 3920] ![0, 0] S64x49152
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S256 : S256x1.ShapeCasts S256
  inb_S1024x1792_S1024x1792_0_0 : ∀ a, (![0, 0] : Fin 2 → Nat) a + S1024x1792.size a ≤ S1024x1792.size a
  h_S1024x1792 : 0 < S1024x1792.numel
  shapeCasts_S1024x1792_S1024x1792 : S1024x1792.ShapeCasts S1024x1792
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S256x1792 : S1x1792.Broadcasts S256x1792
  iota_S256x1792_d1_w32 : S256x1792.Iotas .tc 32 [1]
  reduces_S256x1792_S256 : S256x1792.Reduces [1] S256
  shapeCasts_S256_S256x1 : S256.ShapeCasts S256x1
  broadcasts_S256x1_S256x1792 : S256x1.Broadcasts S256x1792
  slices_S256x1792_o0_1675_S256x1 : S256x1792.Slices ![0, 1675] S256x1
  slices_S256x1792_o0_1676_S256x1 : S256x1792.Slices ![0, 1676] S256x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x3456_S256x3456_0_0 : ∀ a, (![0, 0] : Fin 2 → Nat) a + S256x3456.size a ≤ S256x3456.size a
  h_S256x3456 : 0 < S256x3456.numel
  shapeCasts_S256x3456_S256x3456 : S256x3456.ShapeCasts S256x3456
  iota_S256x3456_d1_w32 : S256x3456.Iotas .tc 32 [1]
  reduces_S256x3456_S256 : S256x3456.Reduces [1] S256
  broadcasts_S256x1_S256x3456 : S256x1.Broadcasts S256x3456
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S64x4096 : 0 < S64x4096.numel
  shapeCasts_S64x4096_S64x4096 : S64x4096.ShapeCasts S64x4096
  iota_S256x4096_d1_w32 : S256x4096.Iotas .tc 32 [1]
  reduces_S256x4096_S256 : S256x4096.Reduces [1] S256
  broadcasts_S256x1_S256x4096 : S256x1.Broadcasts S256x4096
  inb_S64x49152_S64x4096_0_45056 : ∀ a, (![0, 45056] : Fin 2 → Nat) a + S64x4096.size a ≤ S64x49152.size a
  shapeCasts_S4096x1_S4096 : S4096x1.ShapeCasts S4096
  reducesTo_S4096_S_d0 : S4096.ReducesTo [0] S_
  dot_S256x1024_S1024x1792_S256x1792_1_0_0_1_n_n_wf : DotDims.WF S256x1024 S1024x1792 S256x1792 [1] [0] [0] [1] [] []
  dot_S256x1024_S1024x256_S256x256_1_0_0_1_n_n_wf : DotDims.WF S256x1024 S1024x256 S256x256 [1] [0] [0] [1] [] []
  dot_S256x256_S256x3456_S256x3456_1_0_0_1_n_n_wf : DotDims.WF S256x256 S256x3456 S256x3456 [1] [0] [0] [1] [] []
  dot_S256x1024_S1024x64_S256x64_1_0_0_1_n_n_wf : DotDims.WF S256x1024 S1024x64 S256x64 [1] [0] [0] [1] [] []
  dot_S256x64_S64x4096_S256x4096_1_0_0_1_n_n_wf : DotDims.WF S256x64 S64x4096 S256x4096 [1] [0] [0] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S64x4096.size a ≤ S64x49152.size a
  k0_mult2_dvd : 4096 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .i32 = 32 ∨ (Rect.block (s := S4096x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1792.size a ≤ S1024x1792.size a
  hwx0_2 : ∀ i : grid0.Coords, EltTy.bits .bf16 = 32 ∨ (Rect.block (s := S1024x1792) S1024x1792.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1792.size a ≤ S1x1792.size a
  hwx0_3 : ∀ i : grid0.Coords, EltTy.bits .f32 = 32 ∨ (Rect.block (s := S1x1792) S1x1792.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3456.size a ≤ S256x3456.size a
  hwx0_5 : ∀ i : grid0.Coords, EltTy.bits .bf16 = 32 ∨ (Rect.block (s := S256x3456) S256x3456.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S1024x64.size a
  hwx0_6 : ∀ i : grid0.Coords, EltTy.bits .bf16 = 32 ∨ (Rect.block (s := S1024x64) S1024x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x49152.size a ≤ S64x49152.size a
  hwx0_7 : ∀ i : grid0.Coords, EltTy.bits .bf16 = 32 ∨ (Rect.block (s := S64x49152) S64x49152.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S4096x1.size a
  hwx0_8 : ∀ i : grid0.Coords, EltTy.bits .f32 = 32 ∨ (Rect.block (s := S4096x1) S256x1.size (cc0_transform_8 i) (hinb0_8 i)).WholeWords (EltTy.packing .f32)

variable [Facts₀]

def dot_S256x1024_S1024x1792_S256x1792_1_0_0_1_n_n : DotDims S256x1024 S1024x1792 S256x1792 where
  lhsContracting := [1]
  rhsContracting := [0]
  lhsNonContracting := [0]
  rhsNonContracting := [1]
  lhsBatch := []
  rhsBatch := []
  wf := dot_S256x1024_S1024x1792_S256x1792_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x3456_S256x3456_1_0_0_1_n_n : DotDims S256x256 S256x3456 S256x3456 where
  lhsContracting := [1]
  rhsContracting := [0]
  lhsNonContracting := [0]
  rhsNonContracting := [1]
  lhsBatch := []
  rhsBatch := []
  wf := dot_S256x256_S256x3456_S256x3456_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1792.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1792.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x3456.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1024x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S64x49152.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S8x512 : Shape := ⟨2, ![8, 512]⟩
abbrev S1677x1024 : Shape := ⟨2, ![1677, 1024]⟩
abbrev S1677 : Shape := ⟨1, ![1677]⟩
abbrev S256x1024 : Shape := ⟨2, ![256, 1024]⟩
abbrev S3350x256 : Shape := ⟨2, ![3350, 256]⟩
abbrev S64x1024 : Shape := ⟨2, ![64, 1024]⟩
abbrev S45232x64 : Shape := ⟨2, ![45232, 64]⟩
abbrev S4096x1024 : Shape := ⟨2, ![4096, 1024]⟩
abbrev S4096 : Shape := ⟨1, ![4096]⟩
abbrev S4096x1677 : Shape := ⟨2, ![4096, 1677]⟩
abbrev S1x1677 : Shape := ⟨2, ![1, 1677]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x256 : Shape := ⟨2, ![4096, 256]⟩
abbrev S4096x3350 : Shape := ⟨2, ![4096, 3350]⟩
abbrev S4096x64 : Shape := ⟨2, ![4096, 64]⟩
abbrev S4096x45232 : Shape := ⟨2, ![4096, 45232]⟩

abbrev nBuf : Space → Nat
  | .hbm => 191
  | .vmem => 0
  | .smem => 0
  | _ => 0

abbrev hbmTy0_0 (i : Nat) : BufTy := match i % 128 with
  | 0 => ⟨S8x512x1024, .f32⟩
  | 1 => ⟨S8x512, .i32⟩
  | 2 => ⟨S1677x1024, .f32⟩
  | 3 => ⟨S1677, .f32⟩
  | 4 => ⟨S256x1024, .f32⟩
  | 5 => ⟨S3350x256, .f32⟩
  | 6 => ⟨S64x1024, .f32⟩
  | 7 => ⟨S45232x64, .f32⟩
  | 8 => ⟨S4096x1024, .f32⟩
  | 9 => ⟨S4096, .i32⟩
  | 10 => ⟨S4096x1677, .f32⟩
  | 11 => ⟨S1x1677, .f32⟩
  | 12 => ⟨S4096x1677, .f32⟩
  | 13 => ⟨S4096x1677, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x1677, .f32⟩
  | 21 => ⟨S4096x1677, .f32⟩
  | 22 => ⟨S4096x1677, .f32⟩
  | 23 => ⟨S_, .f32⟩
  | 24 => ⟨S4096, .f32⟩
  | 25 => ⟨S4096x1, .f32⟩
  | 26 => ⟨S4096x1, .f32⟩
  | 27 => ⟨S4096x1677, .f32⟩
  | 28 => ⟨S4096x1677, .f32⟩
  | 29 => ⟨S_, .i32⟩
  | 30 => ⟨S4096, .i32⟩
  | 31 => ⟨S4096, .i1⟩
  | 32 => ⟨S_, .i32⟩
  | 33 => ⟨S_, .i32⟩
  | 34 => ⟨S4096, .i32⟩
  | 35 => ⟨S4096, .i32⟩
  | 36 => ⟨S4096x1, .i32⟩
  | 37 => ⟨S_, .i32⟩
  | 38 => ⟨S4096x1, .i32⟩
  | 39 => ⟨S4096x1, .i1⟩
  | 40 => ⟨S_, .i32⟩
  | 41 => ⟨S4096x1, .i32⟩
  | 42 => ⟨S4096x1, .i32⟩
  | 43 => ⟨S4096x1, .i32⟩
  | 44 => ⟨S4096x1x1, .i32⟩
  | 45 => ⟨S1, .i32⟩
  | 46 => ⟨S_, .i32⟩
  | 47 => ⟨S4096x1x1, .i32⟩
  | 48 => ⟨S4096x1x1, .i1⟩
  | 49 => ⟨S1x1x1, .i32⟩
  | 50 => ⟨S4096x1x1, .i32⟩
  | 51 => ⟨S4096x1x1, .i1⟩
  | 52 => ⟨S4096x1x1, .i1⟩
  | 53 => ⟨S_, .i1⟩
  | 54 => ⟨S4096x1, .i1⟩
  | 55 => ⟨S4096x1, .f32⟩
  | 56 => ⟨S_, .f32⟩
  | 57 => ⟨S4096x1, .f32⟩
  | 58 => ⟨S4096x1, .f32⟩
  | 59 => ⟨S4096, .f32⟩
  | 60 => ⟨S4096x256, .f32⟩
  | 61 => ⟨S4096x3350, .f32⟩
  | 62 => ⟨S_, .f32⟩
  | 63 => ⟨S4096, .f32⟩
  | 64 => ⟨S_, .f32⟩
  | 65 => ⟨S4096, .f32⟩
  | 66 => ⟨S4096, .f32⟩
  | 67 => ⟨S4096x1, .f32⟩
  | 68 => ⟨S4096x3350, .f32⟩
  | 69 => ⟨S4096x3350, .f32⟩
  | 70 => ⟨S4096x3350, .f32⟩
  | 71 => ⟨S_, .f32⟩
  | 72 => ⟨S4096, .f32⟩
  | 73 => ⟨S4096x1, .f32⟩
  | 74 => ⟨S4096x1, .f32⟩
  | 75 => ⟨S4096x3350, .f32⟩
  | 76 => ⟨S4096x3350, .f32⟩
  | 77 => ⟨S_, .i32⟩
  | 78 => ⟨S4096, .i32⟩
  | 79 => ⟨S4096, .i32⟩
  | 80 => ⟨S_, .i32⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096x1, .f32⟩
  | 89 => ⟨S4096, .f32⟩
  | 90 => ⟨S4096x1, .i32⟩
  | 91 => ⟨S_, .i32⟩
  | 92 => ⟨S4096x1, .i32⟩
  | 93 => ⟨S4096x1, .i1⟩
  | 94 => ⟨S_, .i32⟩
  | 95 => ⟨S4096x1, .i32⟩
  | 96 => ⟨S4096x1, .i32⟩
  | 97 => ⟨S4096x1, .i32⟩
  | 98 => ⟨S4096x1x1, .i32⟩
  | 99 => ⟨S1, .i32⟩
  | 100 => ⟨S_, .i32⟩
  | 101 => ⟨S4096x1x1, .i32⟩
  | 102 => ⟨S4096x1x1, .i1⟩
  | 103 => ⟨S1x1x1, .i32⟩
  | 104 => ⟨S4096x1x1, .i32⟩
  | 105 => ⟨S4096x1x1, .i1⟩
  | 106 => ⟨S4096x1x1, .i1⟩
  | 107 => ⟨S_, .i1⟩
  | 108 => ⟨S4096x1, .i1⟩
  | 109 => ⟨S4096x1, .f32⟩
  | 110 => ⟨S_, .f32⟩
  | 111 => ⟨S4096x1, .f32⟩
  | 112 => ⟨S4096x1, .f32⟩
  | 113 => ⟨S4096, .f32⟩
  | 114 => ⟨S4096, .f32⟩
  | 115 => ⟨S_, .i32⟩
  | 116 => ⟨S4096, .i32⟩
  | 117 => ⟨S4096, .i1⟩
  | 118 => ⟨S_, .i32⟩
  | 119 => ⟨S4096, .i32⟩
  | 120 => ⟨S4096, .i1⟩
  | 121 => ⟨S4096, .i1⟩
  | 122 => ⟨S4096, .f32⟩
  | 123 => ⟨S4096x64, .f32⟩
  | 124 => ⟨S4096x45232, .f32⟩
  | 125 => ⟨S_, .f32⟩
  | 126 => ⟨S4096, .f32⟩
  | 127 => ⟨S_, .f32⟩
  | _ => ⟨S8x512x1024, .f32⟩

abbrev hbmTy0_1 (i : Nat) : BufTy := match i % 128 with
  | 0 => ⟨S4096, .f32⟩
  | 1 => ⟨S4096, .f32⟩
  | 2 => ⟨S4096x1, .f32⟩
  | 3 => ⟨S4096x45232, .f32⟩
  | 4 => ⟨S4096x45232, .f32⟩
  | 5 => ⟨S4096x45232, .f32⟩
  | 6 => ⟨S_, .f32⟩
  | 7 => ⟨S4096, .f32⟩
  | 8 => ⟨S4096x1, .f32⟩
  | 9 => ⟨S4096x1, .f32⟩
  | 10 => ⟨S4096x45232, .f32⟩
  | 11 => ⟨S4096x45232, .f32⟩
  | 12 => ⟨S_, .i32⟩
  | 13 => ⟨S4096, .i32⟩
  | 14 => ⟨S4096, .i32⟩
  | 15 => ⟨S_, .i32⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096x1, .f32⟩
  | 24 => ⟨S4096, .f32⟩
  | 25 => ⟨S4096x1, .i32⟩
  | 26 => ⟨S_, .i32⟩
  | 27 => ⟨S4096x1, .i32⟩
  | 28 => ⟨S4096x1, .i1⟩
  | 29 => ⟨S_, .i32⟩
  | 30 => ⟨S4096x1, .i32⟩
  | 31 => ⟨S4096x1, .i32⟩
  | 32 => ⟨S4096x1, .i32⟩
  | 33 => ⟨S4096x1x1, .i32⟩
  | 34 => ⟨S1, .i32⟩
  | 35 => ⟨S_, .i32⟩
  | 36 => ⟨S4096x1x1, .i32⟩
  | 37 => ⟨S4096x1x1, .i1⟩
  | 38 => ⟨S1x1x1, .i32⟩
  | 39 => ⟨S4096x1x1, .i32⟩
  | 40 => ⟨S4096x1x1, .i1⟩
  | 41 => ⟨S4096x1x1, .i1⟩
  | 42 => ⟨S_, .i1⟩
  | 43 => ⟨S4096x1, .i1⟩
  | 44 => ⟨S4096x1, .f32⟩
  | 45 => ⟨S_, .f32⟩
  | 46 => ⟨S4096x1, .f32⟩
  | 47 => ⟨S4096x1, .f32⟩
  | 48 => ⟨S4096, .f32⟩
  | 49 => ⟨S4096, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i1⟩
  | 56 => ⟨S4096, .i1⟩
  | 57 => ⟨S4096, .f32⟩
  | 58 => ⟨S_, .f32⟩
  | 59 => ⟨S_, .f32⟩
  | 60 => ⟨S_, .f32⟩
  | 61 => ⟨S_, .f32⟩
  | 62 => ⟨S_, .f32⟩
  | _ => ⟨S8x512x1024, .f32⟩

abbrev hbmTy (i : Nat) : BufTy := match i / 128 with
  | 0 => hbmTy0_0 i
  | 1 => hbmTy0_1 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_call3_cst : Ref sig .tc := ⟨.hbm, 62, rfl⟩
abbrev main_call3_v0 : Ref sig .tc := ⟨.hbm, 63, rfl⟩
abbrev main_call3_cst_0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_cst_1 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_v15 : Ref sig .tc := ⟨.hbm, 76, rfl⟩
abbrev main_c_1 : Ref sig .tc := ⟨.hbm, 77, rfl⟩
abbrev main_v16 : Ref sig .tc := ⟨.hbm, 78, rfl⟩
abbrev main_v17 : Ref sig .tc := ⟨.hbm, 79, rfl⟩
abbrev main_c_2 : Ref sig .tc := ⟨.hbm, 80, rfl⟩
abbrev main_c_3 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_c_1 : Ref sig .tc := ⟨.hbm, 99, rfl⟩
abbrev main_call5_c_2 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_3 : Ref sig .tc := ⟨.hbm, 107, rfl⟩
abbrev main_call5_v12 : Ref sig .tc := ⟨.hbm, 108, rfl⟩
abbrev main_call5_v13 : Ref sig .tc := ⟨.hbm, 109, rfl⟩
abbrev main_call5_cst : Ref sig .tc := ⟨.hbm, 110, rfl⟩
abbrev main_call5_v14 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_c_4 : Ref sig .tc := ⟨.hbm, 115, rfl⟩
abbrev main_v25 : Ref sig .tc := ⟨.hbm, 116, rfl⟩
abbrev main_v26 : Ref sig .tc := ⟨.hbm, 117, rfl⟩
abbrev main_c_5 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_call7_cst : Ref sig .tc := ⟨.hbm, 125, rfl⟩
abbrev main_call7_v0 : Ref sig .tc := ⟨.hbm, 126, rfl⟩
abbrev main_call7_cst_0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_call7_v5 : Ref sig .tc := ⟨.hbm, 132, rfl⟩
abbrev main_call7_v6 : Ref sig .tc := ⟨.hbm, 133, rfl⟩
abbrev main_call7_cst_1 : Ref sig .tc := ⟨.hbm, 134, rfl⟩
abbrev main_call7_v7 : Ref sig .tc := ⟨.hbm, 135, rfl⟩
abbrev main_call7_v8 : Ref sig .tc := ⟨.hbm, 136, rfl⟩
abbrev main_call7_v9 : Ref sig .tc := ⟨.hbm, 137, rfl⟩
abbrev main_call7_v10 : Ref sig .tc := ⟨.hbm, 138, rfl⟩
abbrev main_v33 : Ref sig .tc := ⟨.hbm, 139, rfl⟩
abbrev main_c_6 : Ref sig .tc := ⟨.hbm, 140, rfl⟩
abbrev main_v34 : Ref sig .tc := ⟨.hbm, 141, rfl⟩
abbrev main_v35 : Ref sig .tc := ⟨.hbm, 142, rfl⟩
abbrev main_c_7 : Ref sig .tc := ⟨.hbm, 143, rfl⟩
abbrev main_c_8 : Ref sig .tc := ⟨.hbm, 144, rfl⟩
abbrev main_call8_v0 : Ref sig .tc := ⟨.hbm, 145, rfl⟩
abbrev main_call8_v1 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_call9_c : Ref sig .tc := ⟨.hbm, 154, rfl⟩
abbrev main_call9_v0 : Ref sig .tc := ⟨.hbm, 155, rfl⟩
abbrev main_call9_v1 : Ref sig .tc := ⟨.hbm, 156, rfl⟩
abbrev main_call9_c_0 : Ref sig .tc := ⟨.hbm, 157, rfl⟩
abbrev main_call9_v2 : Ref sig .tc := ⟨.hbm, 158, rfl⟩
abbrev main_call9_v3 : Ref sig .tc := ⟨.hbm, 159, rfl⟩
abbrev main_call9_v4 : Ref sig .tc := ⟨.hbm, 160, rfl⟩
abbrev main_call9_v5 : Ref sig .tc := ⟨.hbm, 161, rfl⟩
abbrev main_call9_c_1 : Ref sig .tc := ⟨.hbm, 162, rfl⟩
abbrev main_call9_c_2 : Ref sig .tc := ⟨.hbm, 163, rfl⟩
abbrev main_call9_v6 : Ref sig .tc := ⟨.hbm, 164, rfl⟩
abbrev main_call9_v7 : Ref sig .tc := ⟨.hbm, 165, rfl⟩
abbrev main_call9_v8 : Ref sig .tc := ⟨.hbm, 166, rfl⟩
abbrev main_call9_v9 : Ref sig .tc := ⟨.hbm, 167, rfl⟩
abbrev main_call9_v10 : Ref sig .tc := ⟨.hbm, 168, rfl⟩
abbrev main_call9_v11 : Ref sig .tc := ⟨.hbm, 169, rfl⟩
abbrev main_call9_c_3 : Ref sig .tc := ⟨.hbm, 170, rfl⟩
abbrev main_call9_v12 : Ref sig .tc := ⟨.hbm, 171, rfl⟩
abbrev main_call9_v13 : Ref sig .tc := ⟨.hbm, 172, rfl⟩
abbrev main_call9_cst : Ref sig .tc := ⟨.hbm, 173, rfl⟩
abbrev main_call9_v14 : Ref sig .tc := ⟨.hbm, 174, rfl⟩
abbrev main_v40 : Ref sig .tc := ⟨.hbm, 175, rfl⟩
abbrev main_v41 : Ref sig .tc := ⟨.hbm, 176, rfl⟩
abbrev main_v42 : Ref sig .tc := ⟨.hbm, 177, rfl⟩
abbrev main_c_9 : Ref sig .tc := ⟨.hbm, 178, rfl⟩
abbrev main_v43 : Ref sig .tc := ⟨.hbm, 179, rfl⟩
abbrev main_v44 : Ref sig .tc := ⟨.hbm, 180, rfl⟩
abbrev main_c_10 : Ref sig .tc := ⟨.hbm, 181, rfl⟩
abbrev main_v45 : Ref sig .tc := ⟨.hbm, 182, rfl⟩
abbrev main_v46 : Ref sig .tc := ⟨.hbm, 183, rfl⟩
abbrev main_v47 : Ref sig .tc := ⟨.hbm, 184, rfl⟩
abbrev main_v48 : Ref sig .tc := ⟨.hbm, 185, rfl⟩
abbrev main_cst : Ref sig .tc := ⟨.hbm, 186, rfl⟩
abbrev main_v49 : Ref sig .tc := ⟨.hbm, 187, rfl⟩
abbrev main_cst_11 : Ref sig .tc := ⟨.hbm, 188, rfl⟩
abbrev main_v50 : Ref sig .tc := ⟨.hbm, 189, rfl⟩
abbrev main_v51 : Ref sig .tc := ⟨.hbm, 190, rfl⟩

abbrev nD : Nat := 1
abbrev τ : Topo := Topo.v7x

variable {F : FTy → Type} [FloatOps F]

class Facts₀ : Prop where
  shapeCasts_S8x512x1024_S4096x1024 : S8x512x1024.ShapeCasts S4096x1024
  shapeCasts_S8x512_S4096 : S8x512.ShapeCasts S4096
  bcast_S1677_S1x1677_1 : S1677.BroadcastsInDim S1x1677 (![1] : Fin 1 → Fin S1x1677.rank)
  bcast_S1x1677_S4096x1677_0_1 : S1x1677.BroadcastsInDim S4096x1677 (![0, 1] : Fin 2 → Fin S4096x1677.rank)
  reducesTo_S4096x1677_S4096_d1 : S4096x1677.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1677_0_1 : S4096x1.BroadcastsInDim S4096x1677 (![0, 1] : Fin 2 → Fin S4096x1677.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096x3350_S4096_d1 : S4096x3350.ReducesTo [1] S4096
  bcast_S4096x1_S4096x3350_0_1 : S4096x1.BroadcastsInDim S4096x3350 (![0, 1] : Fin 2 → Fin S4096x3350.rank)
  slices_S4096x1677_S4096x1_0_1675 : S4096x1677.Slices ![0, 1675] S4096x1
  reducesTo_S4096x45232_S4096_d1 : S4096x45232.ReducesTo [1] S4096
  bcast_S4096x1_S4096x45232_0_1 : S4096x1.BroadcastsInDim S4096x45232 (![0, 1] : Fin 2 → Fin S4096x45232.rank)
  slices_S4096x1677_S4096x1_0_1676 : S4096x1677.Slices ![0, 1676] S4096x1
  reducesTo_S4096_S_d0 : S4096.ReducesTo [0] S_
  dot_S4096x1024_S1677x1024_S4096x1677_1_1_0_0_n_n_wf : DotDims.WF S4096x1024 S1677x1024 S4096x1677 [1] [1] [0] [0] [] []
  gather_S4096x1677_S4096x1x1_S4096x1_n_1_0_0_1_2_11_wf : GatherDims.WF S4096x1677 S4096x1x1 S4096x1 [] [1] [0] [1] [0] 2 ![1, 1]
  dot_S4096x1024_S256x1024_S4096x256_1_1_0_0_n_n_wf : DotDims.WF S4096x1024 S256x1024 S4096x256 [1] [1] [0] [0] [] []
  dot_S4096x256_S3350x256_S4096x3350_1_1_0_0_n_n_wf : DotDims.WF S4096x256 S3350x256 S4096x3350 [1] [1] [0] [0] [] []
  gather_S4096x3350_S4096x1x1_S4096x1_n_1_0_0_1_2_11_wf : GatherDims.WF S4096x3350 S4096x1x1 S4096x1 [] [1] [0] [1] [0] 2 ![1, 1]
  dot_S4096x1024_S64x1024_S4096x64_1_1_0_0_n_n_wf : DotDims.WF S4096x1024 S64x1024 S4096x64 [1] [1] [0] [0] [] []
  dot_S4096x64_S45232x64_S4096x45232_1_1_0_0_n_n_wf : DotDims.WF S4096x64 S45232x64 S4096x45232 [1] [1] [0] [0] [] []
  gather_S4096x45232_S4096x1x1_S4096x1_n_1_0_0_1_2_11_wf : GatherDims.WF S4096x45232 S4096x1x1 S4096x1 [] [1] [0] [1] [0] 2 ![1, 1]

variable [Facts₀]

def dot_S4096x1024_S1677x1024_S4096x1677_1_1_0_0_n_n : DotDims S4096x1024 S1677x1024 S4096x1677 where
  lhsContracting := [1]
  rhsContracting := [1]
  lhsNonContracting := [0]
  rhsNonContracting := [0]
  lhsBatch := []
  rhsBatch := []
  wf := dot_S4096x1024_S1677x1024_S4096x1677_1_1_0_0_n_n_wf
def gather_S4096x1677_S4096x1x1_S4096x1_n_1_0_0_1_2_11 : GatherDims S4096x1677 S4096x1x1 S4096x1 where
  offsetDims := []
  collapsedSliceDims := [1]
  operandBatchingDims := [0]
  startIndicesBatchingDims := [0]
  startIndexMap := [1]
  indexVectorDim := 2
  sliceSizes := ![1, 1]
  wf := gather_S4096x1677_S4096x1x1_S4096x1_n_1_0_0_1_2_11_wf
def dot_S4096x1024_S256x1024_S4096x256_1_1_0_0_n_n : DotDims S4096x1024 S256x1024 S4096x256 where
  lhsContracting := [1]
  rhsContracting := [1]
  lhsNonContracting := [0]
  rhsNonContracting := [0]
  lhsBatch := []
  rhsBatch := []
  wf := dot_S4096x1024_S256x1024_S4096x256_1_1_0_0_n_n_wf
def dot_S4096x256_S3350x256_S4096x3350_1_1_0_0_n_n : DotDims S4096x256 S3350x256 S4096x3350 where
  lhsContracting := [1]
  rhsContracting := [1]
  lhsNonContracting := [0]
  rhsNonContracting := [0]
  lhsBatch := []
  rhsBatch := []
  wf := dot_S4096x256_S3350x256_S4096x3350_1_1_0_0_n_n_wf
def gather_S4096x3350_S4096x1x1_S4096x1_n_1_0_0_1_2_11 : GatherDims S4096x3350 S4096x1x1 S4096x1 where
  offsetDims := []
  collapsedSliceDims := [1]
  operandBatchingDims := [0]
  startIndicesBatchingDims := [0]
  startIndexMap := [1]
  indexVectorDim := 2
  sliceSizes := ![1, 1]
  wf := gather_S4096x3350_S4096x1x1_S4096x1_n_1_0_0_1_2_11_wf
def dot_S4096x1024_S64x1024_S4096x64_1_1_0_0_n_n : DotDims S4096x1024 S64x1024 S4096x64 where
  lhsContracting := [1]
  rhsContracting := [1]
  lhsNonContracting := [0]
  rhsNonContracting := [0]
  lhsBatch := []
  rhsBatch := []
  wf := dot_S4096x1024_S64x1024_S4096x64_1_1_0_0_n_n_wf
def dot_S4096x64_S45232x64_S4096x45232_1_1_0_0_n_n : DotDims S4096x64 S45232x64 S4096x45232 where
  lhsContracting := [1]
  rhsContracting := [1]
  lhsNonContracting := [0]
  rhsNonContracting := [0]
  lhsBatch := []
  rhsBatch := []
  wf := dot_S4096x64_S45232x64_S4096x45232_1_1_0_0_n_n_wf
def gather_S4096x45232_S4096x1x1_S4096x1_n_1_0_0_1_2_11 : GatherDims S4096x45232 S4096x1x1 S4096x1 where
  offsetDims := []
  collapsedSliceDims := [1]
  operandBatchingDims := [0]
  startIndicesBatchingDims := [0]
  startIndexMap := [1]
  indexVectorDim := 2
  sliceSizes := ![1, 1]
  wf := gather_S4096x45232_S4096x1x1_S4096x1_n_1_0_0_1_2_11_wf

class Facts : Prop extends Facts₀ where

variable [Facts]
-- ==== Proof.Spec.lean ====
/-
  The target's log-probability under a two-level (head + two tail clusters) softmax, row by row.

  A row of hidden values gives three rows of logits: the head's (1675 shortlist columns and one column per tail cluster),
  and each tail cluster's through its own low-rank projection. The target `t` of the row selects: below 1675 the head's
  log-softmax at `t`; from 1675 to 5024 the head's log-softmax at column 1675 plus the first cluster's log-softmax at
  `t - 1675`; from 5025 on the head's at column 1676 plus the second cluster's at `t - 5025`.
  The log-softmax entry is written as the entry shifted by the row's maximum, less the logarithm of the sum of the
  shifted exponentials; the maximum is a fold of `max` from −∞.
-/
import Idealize.ShloMosaic.PureOps.Ideal.Laws
import Idealize.ShloMosaic.Lib.ValueIdx

noncomputable section

namespace Cert.Spec

open Idealize.ShloMosaic Idealize.ShloMosaic.ValueIdx

/-- The maximum of a finite family, from −∞. -/
def vmax {n : ℕ} (a : Fin n → EReal) : EReal := (Finset.univ : Finset (Fin n)).fold max ⊥ a

/-- Entry `j` of the log-softmax of `a`. -/
def lsm {n : ℕ} (a : Fin n → EReal) (j : Fin n) : EReal :=
  (a j - vmax a) - Ideal.log (∑ i : Fin n, Ideal.exp (a i - vmax a))

/-- The target's log-probability from the three logit rows and the target `t`. -/
def pick (hl : Fin 1677 → EReal) (l0 : Fin 3350 → EReal) (l1 : Fin 45232 → EReal) (t : ℕ) : EReal :=
  if 5025 ≤ t then lsm hl ⟨1676, by omega⟩ + lsm l1 ⟨min 45231 (t - 5025), by omega⟩
  else if 1675 ≤ t then lsm hl ⟨1675, by omega⟩ + lsm l0 ⟨min 3349 (t - 1675), by omega⟩
  else lsm hl ⟨t % 1677, Nat.mod_lt _ (by omega)⟩

variable (X : (⟨2, ![4096, 1024]⟩ : Shape).Idx → EReal) (Y : (⟨1, ![4096]⟩ : Shape).Idx → BitVec 32)
  (HW : (⟨2, ![1677, 1024]⟩ : Shape).Idx → EReal) (HB : (⟨1, ![1677]⟩ : Shape).Idx → EReal)
  (P0 : (⟨2, ![256, 1024]⟩ : Shape).Idx → EReal) (W0 : (⟨2, ![3350, 256]⟩ : Shape).Idx → EReal)
  (P1 : (⟨2, ![64, 1024]⟩ : Shape).Idx → EReal) (W1 : (⟨2, ![45232, 64]⟩ : Shape).Idx → EReal)

/-- Row `n`'s head logit at column `v`: the row against the head's weight row `v`, plus the bias. -/
def headL (n : Fin 4096) (v : Fin 1677) : EReal := (∑ h : Fin 1024, X (ix2 n h) * HW (ix2 v h)) + HB (ix1 v)
/-- Row `n` projected for the first cluster. -/
def hid0 (n : Fin 4096) (d : Fin 256) : EReal := ∑ h : Fin 1024, X (ix2 n h) * P0 (ix2 d h)
/-- Row `n`'s first-cluster logit at column `v`. -/
def tail0L (n : Fin 4096) (v : Fin 3350) : EReal := ∑ d : Fin 256, hid0 X P0 n d * W0 (ix2 v d)
/-- Row `n` projected for the second cluster. -/
def hid1 (n : Fin 4096) (d : Fin 64) : EReal := ∑ h : Fin 1024, X (ix2 n h) * P1 (ix2 d h)
/-- Row `n`'s second-cluster logit at column `v`. -/
def tail1L (n : Fin 4096) (v : Fin 45232) : EReal := ∑ d : Fin 64, hid1 X P1 n d * W1 (ix2 v d)

/-- Row `n`'s result. -/
def outRow (n : Fin 4096) : EReal :=
  pick (headL X HW HB n) (tail0L X P0 W0 n) (tail1L X P1 W1 n) (Y (ix1 n)).toNat

/-- The result array. -/
def outArr : (⟨1, ![4096]⟩ : Shape).Idx → EReal := fun i => outRow X Y HW HB P0 W0 P1 W1 (i 0)

end Cert.Spec

end
-- ==== Proof.KForm.lean ====
/-
  One row of the blocked computation, as plain arithmetic on extended reals.

  The logit rows arrive wider than the vocabulary (padded to a multiple of the lane width, or cut into chunks of 4096
  columns); a column is kept when its number is below the vocabulary's size and replaced by −∞ otherwise. The
  log-partition of a masked row is its maximum plus the logarithm of the sum of the exponentials shifted by the maximum.
  One entry of a row is picked as the sum, over all columns, of the entry where the column's number equals the wanted
  one and zero elsewhere. The second cluster's row is consumed chunk by chunk, carrying the running maximum, the sum of
  exponentials relative to it (rescaled whenever the maximum grows) and the picked entry so far.
-/
import proofs.«416293_j15891378995362_3_alg».proof.Proof.Spec
import Idealize.ShloMosaic.PureOps.Float

noncomputable section

namespace Cert.KForm

open Idealize.ShloMosaic Cert.Spec

/-- Column `v`'s number as a 32-bit word. -/
def col0 {P : ℕ} (v : Fin P) : BitVec 32 := BitVec.ofNat 32 v.val
/-- Column `v` of a chunk that starts at column `s`. -/
def colAt {P : ℕ} (s : BitVec 32) (v : Fin P) : BitVec 32 := s + BitVec.ofNat 32 v.val

/-- Keep the columns whose number is (signed) below `n`; −∞ elsewhere. -/
def maskCol {P : ℕ} (col : Fin P → BitVec 32) (n : BitVec 32) (b : Fin P → EReal) : Fin P → EReal :=
  fun v => if (col v).slt n then b v else ⊥

/-- The entry at the column numbered `idx`, as a sum over all columns. -/
def selCol {P : ℕ} (col : Fin P → BitVec 32) (b : Fin P → EReal) (idx : BitVec 32) : EReal :=
  ∑ v : Fin P, if col v = idx then b v else 0

/-- The log-partition of a row: its maximum plus the logarithm of the sum of the shifted exponentials. -/
def lse {P : ℕ} (b : Fin P → EReal) : EReal := vmax b + Ideal.log (∑ v : Fin P, Ideal.exp (b v - vmax b))

/-- The head column a target reads: itself when it is (signed) below 1675, column 0 otherwise. -/
def idxHead (y : BitVec 32) : BitVec 32 := if y.slt 1675#32 then y else 0#32
/-- A signed word clamped to `[0, hi]`. -/
def clipTo (hi x : BitVec 32) : BitVec 32 := IntOp.minsi hi (IntOp.maxsi 0#32 x)
/-- The first cluster's column for target `y`. -/
def rel0 (y : BitVec 32) : BitVec 32 := clipTo 3349#32 (y - 1675#32)
/-- The second cluster's column for target `y`. -/
def rel1 (y : BitVec 32) : BitVec 32 := clipTo 45231#32 (y - 5025#32)

/-- One chunk folded into the running (maximum, sum of exponentials relative to it, picked entry). -/
def ostep (cols : Fin 4096 → EReal) (col : Fin 4096 → BitVec 32) (rel : BitVec 32)
    (s : EReal × EReal × EReal) : EReal × EReal × EReal :=
  (max s.1 (vmax cols),
   s.2.1 * Ideal.exp (s.1 - max s.1 (vmax cols)) + ∑ j : Fin 4096, Ideal.exp (cols j - max s.1 (vmax cols)),
   s.2.2 + selCol col cols rel)

/-- The running triple before chunk `k` (chunks 0 … 10 are whole), from (−∞, 0, 0). -/
def ofold (c : Fin 12 → Fin 4096 → EReal) (rel : BitVec 32) : ℕ → EReal × EReal × EReal
  | 0 => (⊥, 0, 0)
  | k + 1 => if h : k < 11 then
      ostep (c ⟨k, by omega⟩) (colAt (BitVec.ofNat 32 (4096 * k))) rel (ofold c rel k)
    else ofold c rel k

/-- The second cluster's part: after the eleven whole chunks, the twelfth (columns from 45056, kept below 45232) is folded
    in, and the picked entry less the log-partition is returned. -/
def streamed (c : Fin 12 → Fin 4096 → EReal) (rel : BitVec 32) : EReal :=
  let s := ofold c rel 11
  let L := maskCol (colAt 45056#32) 45232#32 (c ⟨11, by omega⟩)
  let m' := max s.1 (vmax L)
  let l' := s.2.1 * Ideal.exp (s.1 - m') + ∑ j : Fin 4096, Ideal.exp (L j - m')
  let t' := s.2.2 + selCol (colAt 45056#32) L rel
  t' - (m' + Ideal.log l')

/-- The row's result from the raw logit rows `a` (head, 1792 wide), `b` (first cluster, 3456 wide), `c` (second cluster,
    twelve chunks of 4096) and the target word `y`. -/
def kernelRow (a : Fin 1792 → EReal) (b : Fin 3456 → EReal) (c : Fin 12 → Fin 4096 → EReal) (y : BitVec 32) : EReal :=
  let A := maskCol col0 1677#32 a
  let B := maskCol col0 3350#32 b
  if (5025#32).sle y then (A ⟨1676, by omega⟩ - lse A) + streamed c (rel1 y)
  else if (1675#32).sle y ∧ y.slt 5025#32 then
    (A ⟨1675, by omega⟩ - lse A) + (selCol col0 B (rel0 y) - lse B)
  else selCol col0 A (idxHead y) - lse A

end Cert.KForm

end
-- ==== Proof.KRaw.lean ====
/-
  The raw logit rows of one row of a block, as sums over the blocks' entries.

  `x0` is the block of 256 hidden rows, `x1` the 256 targets, `x2` / `x3` the head's transposed, padded weights and padded
  bias, `x4` / `x5` the first cluster's transposed projection and transposed, padded weights, `x6` / `x7` the second
  cluster's. Row `r`'s head logits are the row against each weight column plus the bias; a cluster's logits are the row
  projected, then against each weight column; the second cluster's columns come in twelve chunks of 4096.
-/
import Idealize.ShloMosaic.PureOps.Ideal.Laws
import Idealize.ShloMosaic.Lib.ValueIdx

noncomputable section

namespace Cert.KRaw

open Idealize.ShloMosaic Idealize.ShloMosaic.ValueIdx

variable (x0 : (⟨2, ![256, 1024]⟩ : Shape).Idx → EReal) (x1 : (⟨2, ![256, 1]⟩ : Shape).Idx → BitVec 32)
  (x2 : (⟨2, ![1024, 1792]⟩ : Shape).Idx → EReal) (x3 : (⟨2, ![1, 1792]⟩ : Shape).Idx → EReal)
  (x4 : (⟨2, ![1024, 256]⟩ : Shape).Idx → EReal) (x5 : (⟨2, ![256, 3456]⟩ : Shape).Idx → EReal)
  (x6 : (⟨2, ![1024, 64]⟩ : Shape).Idx → EReal) (x7 : (⟨2, ![64, 49152]⟩ : Shape).Idx → EReal)

/-- Row `r`'s head logits, all 1792 columns. -/
def rowA (r : Fin 256) : Fin 1792 → EReal :=
  fun v => (∑ h : Fin 1024, x0 (ix2 r h) * x2 (ix2 h v)) + x3 (ix2 (0 : Fin 1) v)
/-- Row `r` projected for the first cluster. -/
def hidB (r : Fin 256) (d : Fin 256) : EReal := ∑ h : Fin 1024, x0 (ix2 r h) * x4 (ix2 h d)
/-- Row `r`'s first-cluster logits, all 3456 columns. -/
def rowB (r : Fin 256) : Fin 3456 → EReal := fun v => ∑ d : Fin 256, hidB x0 x4 r d * x5 (ix2 d v)
/-- Row `r` projected for the second cluster. -/
def hidC (r : Fin 256) (d : Fin 64) : EReal := ∑ h : Fin 1024, x0 (ix2 r h) * x6 (ix2 h d)
/-- Row `r`'s second-cluster logits, chunk `k`, column `j` of the chunk. -/
def rowC (r : Fin 256) (k : Fin 12) : Fin 4096 → EReal :=
  fun j => ∑ d : Fin 64, hidC x0 x6 r d * x7 (ix2 d (⟨4096 * k.val + j.val, by omega⟩ : Fin 49152))
/-- Row `r`'s target word. -/
def yOf (r : Fin 256) : BitVec 32 := x1 (ix2 r (0 : Fin 1))

end Cert.KRaw

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KHead.lean ====
/-
  The head's and the first cluster's payloads, read at one row of the block.

  Each is a pointwise or row-wise expression of the block's raw logit row: the logits masked beyond the vocabulary, the
  row's log-partition, the entry picked by comparing column numbers with the wanted column, and the two cluster columns.
-/
import proofs.«416293_j15891378995362_3_alg».proof.Proof.Gen.KernelIdeal.Skeleton
import proofs.«416293_j15891378995362_3_alg».proof.Proof.KForm
import proofs.«416293_j15891378995362_3_alg».proof.Proof.KRaw
import proofs.«416293_j15891378995362_3_alg».proof.Proof.LibDotSum
import Idealize.ShloMosaic.Lib.Pipeline.Value
import Idealize.ShloMosaic.Lib.ValueLayout

noncomputable section

namespace Cert.KernelIdeal.Rows

open Cert.KernelIdeal Cert.KernelIdeal.Gen Idealize.ShloMosaic Idealize.ShloMosaic.ValueIdx Cert.Spec Cert.KForm Cert.KRaw

section Helpers
variable {α : Type}

/-- A column of 256 entries read as a vector: entry r is the column's (r, 0). -/
private theorem col_to_vec (v : (⟨2, ![256, 1]⟩ : Shape).Idx → α) (h : (⟨2, ![256, 1]⟩ : Shape).ShapeCasts ⟨1, ![256]⟩)
    (r : Fin 256) : shapeCast ⟨1, ![256]⟩ v h (ix1 r) = v (ix2 r (0 : Fin 1)) :=
  shapeCast_apply v h _ _ (by
    rw [Shape.rowMajor_val_two, Shape.rowMajor_val_one]
    show r.val * 1 + 0 = r.val
    omega)

/-- A vector of 256 entries read as a column: (r, c) is the vector's entry r. -/
private theorem vec_to_col (v : (⟨1, ![256]⟩ : Shape).Idx → α) (h : (⟨1, ![256]⟩ : Shape).ShapeCasts ⟨2, ![256, 1]⟩)
    (r : Fin 256) (c : Fin 1) : shapeCast ⟨2, ![256, 1]⟩ v h (ix2 r c) = v (ix1 r) :=
  shapeCast_apply v h _ _ (by
    have hc : c.val = 0 := by omega
    rw [Shape.rowMajor_val_two, Shape.rowMajor_val_one]
    show r.val = r.val * 1 + c.val
    omega)

/-- A column broadcast along the rows: (r, c) reads the column's (r, 0). -/
private theorem col_bcast {n : ℕ} (v : (⟨2, ![256, 1]⟩ : Shape).Idx → α) (h : (⟨2, ![256, 1]⟩ : Shape).Broadcasts ⟨2, ![256, n]⟩)
    (r : Fin 256) (c : Fin n) : broadcastTo ⟨2, ![256, n]⟩ v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The index over row r with lane k inserted is (r, k). -/
private theorem lift_row {n : ℕ} (h : (⟨2, ![256, n]⟩ : Shape).Reduces [1] ⟨1, ![256]⟩) (r : Fin 256) (k : Fin n) :
    h.lift (ix1 r) k = ix2 r k := by
  funext c
  apply Fin.ext
  match c with
  | ⟨0, _⟩ => rfl
  | ⟨1, _⟩ => rfl

/-- A lane sum at row r is the sum over the lanes of the row's entries. -/
private theorem row_sum {n : ℕ} (src : FVec Ideal ⟨2, ![256, n]⟩ .f32) (h : (⟨2, ![256, n]⟩ : Shape).Reduces [1] ⟨1, ![256]⟩)
    (hφ : FKind.Formats .f32) (hacc : (0x00000000#32 : BitVec 32) = FKind.add.neutral .f32 hφ) (r : Fin 256) :
    multiReduction (F := Ideal) .add [1] ⟨1, ![256]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_row h r k)

/-- A lane maximum at row r is the maximum, from −∞, of the row's entries. -/
private theorem row_max {n : ℕ} (src : FVec Ideal ⟨2, ![256, n]⟩ .f32) (h : (⟨2, ![256, n]⟩ : Shape).Reduces [1] ⟨1, ![256]⟩)
    (hφ : FKind.Formats .f32) (hacc : (0xFF800000#32 : BitVec 32) = FKind.maximumf.neutral .f32 hφ) (r : Fin 256) :
    multiReduction (F := Ideal) .maximumf [1] ⟨1, ![256]⟩ src 0xFF800000#32 h hφ hacc (ix1 r) = vmax fun k : Fin n => src (ix2 r k) := by
  refine (Ideal.multiReduction_maximumf_single src 0xFF800000#32 h hφ hacc (ix1 r)).trans ?_
  have e : (src ∘ h.lift (ix1 r)) = fun k : Fin n => src (ix2 r k) := funext fun k => by
    exact congrArg src (lift_row h r k)
  have b : (FloatOps.ofBits (F := Ideal) .f32 0xFF800000#32) = (⊥ : EReal) := by
    show Ideal.ofBits .f32 0xFF800000#32 = ⊥
    simp [Ideal.ofBits, Ideal.ieee]
  unfold vmax
  rw [e, b]
  rfl

end Helpers

section Scalars
variable {α : Type}

/-- A choice on a comparison's bit is the choice on the comparison. -/
private theorem select_ofBool (b : Bool) (x y : α) : Scalar.select (BitVec.ofBool b) x y = if b then x else y := by
  cases b <;> simp [Scalar.select]

/-- The masking constant is −∞. -/
private theorem neg_big : Named.named (F := Ideal) κ "neg_big" (φ := .f32) 0xF149F2CA#32 = (⊥ : EReal) :=
  IdealRules.named_const.ideal_named_scalar _ _ _ _ rfl

end Scalars

section RowForms
variable {n : ℕ}

/-- A choice on an equality test of two words is the choice on their equality. -/
private theorem select_eq {α : Type} (x y : BitVec 32) (a b : α) :
    Scalar.select (IntOp.cmpi .eq x y) a b = if x = y then a else b := by
  show Scalar.select (BitVec.ofBool (x == y)) a b = _
  rw [select_ofBool]
  by_cases h : x = y <;> simp [h]

/-- The log-partition the kernel computes from a block, at row r: the row's maximum, taken as a column and spread back
    over the lanes, is subtracted before the exponentials are summed. -/
private theorem lse_row (P : FVec Ideal ⟨2, ![256, n]⟩ .f32) (hr : (⟨2, ![256, n]⟩ : Shape).Reduces [1] S256)
    (hc1 : S256.ShapeCasts S256x1) (hc2 : S256x1.ShapeCasts S256) (hb : S256x1.Broadcasts ⟨2, ![256, n]⟩)
    (hφ : FKind.Formats .f32) (hm : (0xFF800000#32 : BitVec 32) = FKind.maximumf.neutral .f32 hφ)
    (hφ' : FKind.Formats .f32) (ha : (0x00000000#32 : BitVec 32) = FKind.add.neutral .f32 hφ') (r : Fin 256) :
    addf (F := Ideal)
      (shapeCast S256 (shapeCast S256x1 (multiReduction (F := Ideal) .maximumf [1] S256 P 0xFF800000#32 hr hφ hm) hc1) hc2)
      (log (shapeCast S256 (shapeCast S256x1 (multiReduction (F := Ideal) .add [1] S256
        (exp (subf P (broadcastTo ⟨2, ![256, n]⟩
          (shapeCast S256x1 (multiReduction (F := Ideal) .maximumf [1] S256 P 0xFF800000#32 hr hφ hm) hc1) hb)))
        0x00000000#32 hr hφ' ha) hc1) hc2)) (ix1 r)
      = lse fun k : Fin n => P (ix2 r k) := by
  show (shapeCast S256 (shapeCast S256x1 (multiReduction (F := Ideal) .maximumf [1] S256 P 0xFF800000#32 hr hφ hm) hc1) hc2 (ix1 r) : EReal)
      + Ideal.log (shapeCast S256 (shapeCast S256x1 (multiReduction (F := Ideal) .add [1] S256
        (exp (subf P (broadcastTo ⟨2, ![256, n]⟩
          (shapeCast S256x1 (multiReduction (F := Ideal) .maximumf [1] S256 P 0xFF800000#32 hr hφ hm) hc1) hb)))
        0x00000000#32 hr hφ' ha) hc1) hc2 (ix1 r)) = _
  rw [col_to_vec, vec_to_col, row_max, col_to_vec, vec_to_col, row_sum]
  unfold lse
  refine congrArg (fun s : EReal => (vmax fun k : Fin n => P (ix2 r k)) + Ideal.log s) (Finset.sum_congr rfl fun k _ => ?_)
  show Ideal.exp (P (ix2 r k) - broadcastTo ⟨2, ![256, n]⟩
      (shapeCast S256x1 (multiReduction (F := Ideal) .maximumf [1] S256 P 0xFF800000#32 hr hφ hm) hc1) hb (ix2 r k)) = _
  rw [col_bcast, vec_to_col, row_max]

/-- The entry the kernel picks from a block, at row r: the lanes whose number equals the row's wanted column keep
    their entry, the others give zero, and the lanes are summed. -/
private theorem pick_row (P : FVec Ideal ⟨2, ![256, n]⟩ .f32) (idx : IVec S256 32)
    (hi : (⟨2, ![256, n]⟩ : Shape).Iotas .tc 32 [1]) (hr : (⟨2, ![256, n]⟩ : Shape).Reduces [1] S256)
    (hc1 : S256.ShapeCasts S256x1) (hb : S256x1.Broadcasts ⟨2, ![256, n]⟩)
    (hφ : FKind.Formats .f32) (ha : (0x00000000#32 : BitVec 32) = FKind.add.neutral .f32 hφ) (r : Fin 256) :
    multiReduction (F := Ideal) .add [1] S256
      (select (cmpi .eq (iota .tc ⟨2, ![256, n]⟩ 32 [1] hi) (broadcastTo ⟨2, ![256, n]⟩ (shapeCast S256x1 idx hc1) hb))
        P (broadcast ⟨2, ![256, n]⟩ (Scalar.ofBits (F := Ideal) .f32 0x00000000#32)))
      0x00000000#32 hr hφ ha (ix1 r)
      = selCol col0 (fun k : Fin n => P (ix2 r k)) (idx (ix1 r)) := by
  rw [row_sum]
  unfold selCol
  refine Finset.sum_congr rfl fun k _ => ?_
  show Scalar.select (IntOp.cmpi .eq (iota .tc ⟨2, ![256, n]⟩ 32 [1] hi (ix2 r k))
      (broadcastTo ⟨2, ![256, n]⟩ (shapeCast S256x1 idx hc1) hb (ix2 r k))) (P (ix2 r k)) (Ideal.ofBits .f32 0x00000000#32) = _
  rw [select_eq, iota_single_apply, col_bcast, vec_to_col, Ideal.ofBits_zero_f32]
  rfl

end RowForms

section Choice
variable {α : Type}

/-- The conjunction of two comparison bits is the bit of the conjunction. -/
private theorem ofBool_and (a b : Bool) : IntOp.andi (BitVec.ofBool a) (BitVec.ofBool b) = BitVec.ofBool (a && b) := by
  cases a <;> cases b <;> decide

/-- A choice on a conjunction of two tests. -/
private theorem ite_and (a b : Bool) (x y : α) : (if (a && b) then x else y) = if a = true ∧ b = true then x else y := by
  cases a <;> cases b <;> simp

end Choice

variable (x0 : Vec Ideal S256x1024 .bf16) (x1 : Vec Ideal S256x1 .i32) (x2 : Vec Ideal S1024x1792 .bf16) (x3 : Vec Ideal S1x1792 .f32)
  (x4 : Vec Ideal S1024x256 .bf16) (x5 : Vec Ideal S256x3456 .bf16) (x6 : Vec Ideal S1024x64 .bf16) (x7 : Vec Ideal S64x49152 .bf16)

/-- The targets as a vector: entry r is row r's target word. -/
private theorem pay3_row (r : Fin 256) : k0_pay3 (F := Ideal) x1 (ix1 r) = yOf x1 r := by
  unfold k0_pay3
  simp only [shapeCast_self]
  exact col_to_vec _ _ r

/-- The masked head logits at row `r`, column `v`. -/
theorem pay4_row (r : Fin 256) (v : Fin 1792) :
    k0_pay4 (F := Ideal) x0 x2 x3 (ix2 r v) = maskCol col0 1677#32 (rowA x0 x2 x3 r) v := by
  unfold k0_pay4 k0_pay2
  simp only [shapeCast_self]
  show Scalar.select (IntOp.cmpi .slt (iota .tc S256x1792 32 [1] iota_S256x1792_d1_w32 (ix2 r v)) 1677#32)
      ((matmul (F := Ideal) dot_S256x1024_S1024x1792_S256x1792_1_0_0_1_n_n none (x0 : FVec Ideal S256x1024 .bf16)
          (x2 : FVec Ideal S1024x1792 .bf16) (constant (F := Ideal) S256x1792 .f32 0x00000000#32) (ix2 r v) : EReal)
        + (broadcastTo S256x1792 (x3 : FVec Ideal S1x1792 .f32) broadcasts_S1x1792_S256x1792 (ix2 r v) : EReal))
      (Named.named (F := Ideal) κ "neg_big" (φ := .f32) 0xF149F2CA#32) = _
  rw [iota_single_apply, Cert.Lib.matmul_rc_apply dot_S256x1024_S1024x1792_S256x1792_1_0_0_1_n_n rfl rfl rfl rfl rfl rfl,
    broadcastTo_1b_ab_apply, neg_big]
  show Scalar.select (BitVec.ofBool ((BitVec.ofNat 32 v.val).slt 1677#32)) _ _ = _
  rw [select_ofBool]
  rfl

/-- Row r of the masked head logits, as a function of the column. -/
private theorem pay4_fun (r : Fin 256) :
    (fun k : Fin 1792 => k0_pay4 (F := Ideal) x0 x2 x3 (ix2 r k)) = maskCol col0 1677#32 (rowA x0 x2 x3 r) :=
  funext fun k => pay4_row x0 x2 x3 r k

/-- The head's log-partition at row `r`. -/
theorem pay5_row (r : Fin 256) :
    k0_pay5 (F := Ideal) x0 x2 x3 (ix1 r) = lse (maskCol col0 1677#32 (rowA x0 x2 x3 r)) := by
  unfold k0_pay5
  refine (lse_row (k0_pay4 (F := Ideal) x0 x2 x3) _ _ _ _ _ _ _ _ r).trans ?_
  rw [pay4_fun]

/-- The head's picked log-probability at row `r`. -/
theorem pay6_row (r : Fin 256) :
    k0_pay6 (F := Ideal) x0 x1 x2 x3 (ix1 r)
      = selCol col0 (maskCol col0 1677#32 (rowA x0 x2 x3 r)) (idxHead (yOf x1 r))
        - lse (maskCol col0 1677#32 (rowA x0 x2 x3 r)) := by
  unfold k0_pay6
  refine (congrArg₂ (fun a b : EReal => a - b)
    (pick_row (k0_pay4 (F := Ideal) x0 x2 x3)
      (select (cmpi .slt (k0_pay3 (F := Ideal) x1) (broadcast S256 1675#32)) (k0_pay3 (F := Ideal) x1) (broadcast S256 0#32))
      _ _ _ _ _ _ r)
    (pay5_row x0 x2 x3 r)).trans ?_
  rw [pay4_fun]
  show selCol col0 _ (Scalar.select (IntOp.cmpi .slt (k0_pay3 (F := Ideal) x1 (ix1 r)) 1675#32) (k0_pay3 (F := Ideal) x1 (ix1 r)) 0#32) - _ = _
  rw [pay3_row]
  show selCol col0 _ (Scalar.select (BitVec.ofBool ((yOf x1 r).slt 1675#32)) (yOf x1 r) 0#32) - _ = _
  rw [select_ofBool]
  rfl

/-- One column of a block, cut out and read as a vector. -/
private theorem col_cut (P : FVec Ideal S256x1792 .f32) (o : ℕ) (ho : o < 1792) (hs : S256x1792.Slices ![0, o] S256x1)
    (hc : S256x1.ShapeCasts S256) (r : Fin 256) :
    shapeCast S256 (extractStridedSlice S256x1 ![0, o] P hs) hc (ix1 r) = P (ix2 r ⟨o, ho⟩) := by
  rw [col_to_vec]
  exact slice2_axis1_apply o P hs r (0 : Fin 1) ⟨o, ho⟩ rfl

/-- The first cluster's column of the head's log-softmax at row `r`. -/
theorem pay7_row (r : Fin 256) :
    k0_pay7 (F := Ideal) x0 x2 x3 (ix1 r)
      = maskCol col0 1677#32 (rowA x0 x2 x3 r) ⟨1675, by omega⟩ - lse (maskCol col0 1677#32 (rowA x0 x2 x3 r)) := by
  unfold k0_pay7
  refine (congrArg₂ (fun a b : EReal => a - b) (col_cut (k0_pay4 (F := Ideal) x0 x2 x3) 1675 (by omega) _ _ r)
    (pay5_row x0 x2 x3 r)).trans ?_
  rw [pay4_row]

/-- The second cluster's column of the head's log-softmax at row `r`. -/
theorem pay8_row (r : Fin 256) :
    k0_pay8 (F := Ideal) (k0_pay4 x0 x2 x3) (k0_pay5 x0 x2 x3) (ix1 r)
      = maskCol col0 1677#32 (rowA x0 x2 x3 r) ⟨1676, by omega⟩ - lse (maskCol col0 1677#32 (rowA x0 x2 x3 r)) := by
  unfold k0_pay8
  refine (congrArg₂ (fun a b : EReal => a - b) (col_cut (k0_pay4 (F := Ideal) x0 x2 x3) 1676 (by omega) _ _ r)
    (pay5_row x0 x2 x3 r)).trans ?_
  rw [pay4_row]

/-- The first cluster's projected row, as the kernel holds it (truncated, which keeps the value). -/
private theorem hid_row (r : Fin 256) (d : Fin 256) :
    truncf (F := Ideal) .bf16 (matmul (F := Ideal) (φ₁ := .bf16) (φ₂ := .bf16) dot_S256x1024_S1024x256_S256x256_1_0_0_1_n_n none
      (x0 : FVec Ideal S256x1024 .bf16) (x4 : FVec Ideal S1024x256 .bf16) (constant (F := Ideal) S256x256 .f32 0x00000000#32))
      bitsLt_bf16_f32 (ix2 r d) = hidB x0 x4 r d := by
  show matmul (F := Ideal) (φ₁ := .bf16) (φ₂ := .bf16) dot_S256x1024_S1024x256_S256x256_1_0_0_1_n_n none
      (x0 : FVec Ideal S256x1024 .bf16) (x4 : FVec Ideal S1024x256 .bf16) (constant (F := Ideal) S256x256 .f32 0x00000000#32) (ix2 r d) = _
  rw [Cert.Lib.matmul_rc_apply dot_S256x1024_S1024x256_S256x256_1_0_0_1_n_n rfl rfl rfl rfl rfl rfl]
  rfl

/-- The first cluster's masked logits, as a block. -/
private def blkB : FVec Ideal S256x3456 .f32 :=
  select (cmpi .slt (iota .tc S256x3456 32 [1] iota_S256x3456_d1_w32) (broadcast S256x3456 3350#32))
    (matmul (F := Ideal) (φ₁ := .bf16) (φ₂ := .bf16) dot_S256x256_S256x3456_S256x3456_1_0_0_1_n_n none
      (truncf (F := Ideal) .bf16 (matmul (F := Ideal) (φ₁ := .bf16) (φ₂ := .bf16) dot_S256x1024_S1024x256_S256x256_1_0_0_1_n_n none
        (k0_pay2 (F := Ideal) x0) (shapeCast S1024x256 x4 shapeCasts_S1024x256_S1024x256)
        (constant (F := Ideal) S256x256 .f32 0x00000000#32)) bitsLt_bf16_f32)
      (shapeCast S256x3456 x5 shapeCasts_S256x3456_S256x3456) (constant (F := Ideal) S256x3456 .f32 0x00000000#32))
    (broadcast S256x3456 (Named.named (F := Ideal) κ "neg_big" (φ := .f32) 0xF149F2CA#32))

/-- The first cluster's masked logits at row r, column v. -/
private theorem blkB_row (r : Fin 256) (v : Fin 3456) :
    blkB x0 x4 x5 (ix2 r v) = maskCol col0 3350#32 (rowB x0 x4 x5 r) v := by
  unfold blkB k0_pay2
  simp only [shapeCast_self]
  show Scalar.select (IntOp.cmpi .slt (iota .tc S256x3456 32 [1] iota_S256x3456_d1_w32 (ix2 r v)) 3350#32)
      (matmul (F := Ideal) (φ₁ := .bf16) (φ₂ := .bf16) dot_S256x256_S256x3456_S256x3456_1_0_0_1_n_n none
        (truncf (F := Ideal) .bf16 (matmul (F := Ideal) (φ₁ := .bf16) (φ₂ := .bf16) dot_S256x1024_S1024x256_S256x256_1_0_0_1_n_n none
          (x0 : FVec Ideal S256x1024 .bf16) (x4 : FVec Ideal S1024x256 .bf16) (constant (F := Ideal) S256x256 .f32 0x00000000#32))
          bitsLt_bf16_f32)
        (x5 : FVec Ideal S256x3456 .bf16) (constant (F := Ideal) S256x3456 .f32 0x00000000#32) (ix2 r v))
      (Named.named (F := Ideal) κ "neg_big" (φ := .f32) 0xF149F2CA#32) = _
  rw [iota_single_apply, Cert.Lib.matmul_rc_apply dot_S256x256_S256x3456_S256x3456_1_0_0_1_n_n rfl rfl rfl rfl rfl rfl, neg_big]
  simp only [hid_row]
  show Scalar.select (BitVec.ofBool ((BitVec.ofNat 32 v.val).slt 3350#32)) _ _ = _
  rw [select_ofBool]
  rfl

/-- The first cluster's picked log-probability at row `r`. -/
theorem pay9_row (r : Fin 256) :
    k0_pay9 (F := Ideal) (k0_pay2 x0) (k0_pay3 x1) x4 x5 (ix1 r)
      = selCol col0 (maskCol col0 3350#32 (rowB x0 x4 x5 r)) (rel0 (yOf x1 r))
        - lse (maskCol col0 3350#32 (rowB x0 x4 x5 r)) := by
  unfold k0_pay9
  refine (congrArg₂ (fun a b : EReal => a - b)
    (pick_row (blkB x0 x4 x5)
      (minsi (broadcast S256 3349#32) (maxsi (broadcast S256 0#32) (subi (k0_pay3 (F := Ideal) x1) (broadcast S256 1675#32))))
      _ _ _ _ _ _ r)
    (lse_row (blkB x0 x4 x5) _ _ _ _ _ _ _ _ r)).trans ?_
  rw [show (fun k : Fin 3456 => blkB x0 x4 x5 (ix2 r k)) = maskCol col0 3350#32 (rowB x0 x4 x5 r) from
    funext fun k => blkB_row x0 x4 x5 r k]
  show selCol col0 _ (IntOp.minsi 3349#32 (IntOp.maxsi 0#32 (IntOp.subi (k0_pay3 (F := Ideal) x1 (ix1 r)) 1675#32))) - _ = _
  rw [pay3_row]
  rfl

/-- The choice between the head's value and the first cluster's at row `r`. -/
theorem pay12_row (v38 v41 v80 : FVec Ideal S256 .f32) (r : Fin 256) :
    k0_pay12 (F := Ideal) v38 v41 v80 (k0_pay10 (k0_pay3 x1)) (k0_pay11 (k0_pay3 x1)) (ix1 r)
      = if (1675#32).sle (yOf x1 r) ∧ (yOf x1 r).slt 5025#32 then v41 (ix1 r) + v80 (ix1 r) else v38 (ix1 r) := by
  unfold k0_pay12 k0_pay10 k0_pay11
  show Scalar.select (IntOp.andi (IntOp.cmpi .sge (k0_pay3 (F := Ideal) x1 (ix1 r)) 1675#32)
      (IntOp.cmpi .slt (k0_pay3 (F := Ideal) x1 (ix1 r)) 5025#32)) ((v41 (ix1 r) : EReal) + v80 (ix1 r)) (v38 (ix1 r)) = _
  rw [pay3_row]
  show Scalar.select (IntOp.andi (BitVec.ofBool ((1675#32).sle (yOf x1 r))) (BitVec.ofBool ((yOf x1 r).slt 5025#32))) _ _ = _
  rw [ofBool_and, select_ofBool, ite_and]

end Cert.KernelIdeal.Rows

end
-- ==== Proof.KBody.lean ====
/-
  The value one grid point stores, as ONE function of its eight input blocks.

  The block of hidden rows, the targets, and the six weight blocks determine the stored column: the head part and the
  first cluster are closed expressions of the blocks; the second cluster is consumed in eleven whole chunks of 4096
  columns, carrying a triple (running maximum, running sum, picked entry), and a twelfth, partly masked chunk.
  Everything here is stated through the printed body's own payload terms, so it holds at any float instance.
-/
import proofs.«416293_j15891378995362_3_alg».proof.Proof.Gen.KernelIdeal.Skeleton
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F] [Named F]

/-- The streamed loop makes eleven trips. -/
theorem trips_eq : k0_t1_loop.trips = 11 := by decide

variable (x0 : Vec F S256x1024 .bf16) (x1 : Vec F S256x1 .i32) (x2 : Vec F S1024x1792 .bf16) (x3 : Vec F S1x1792 .f32)
  (x4 : Vec F S1024x256 .bf16) (x5 : Vec F S256x3456 .bf16) (x6 : Vec F S1024x64 .bf16) (x7 : Vec F S64x49152 .bf16)

/-- Columns 4096·k … 4096·k + 4095 of the second cluster's (transposed, padded) weights. -/
def chunk (k : ℕ) (hk : k < 12) : Vec F S64x4096 .bf16 :=
  fun j => x7 (ix2 (n0 := 64) (n1 := 49152) ⟨(j 0).val, idx2_lt0 (n0 := 64) (n1 := 4096) j⟩
    ⟨4096 * k + (j 1).val, by have := idx2_lt1 (n0 := 64) (n1 := 4096) j; omega⟩)

/-- The running triple (maximum, sum, picked entry) before trip `k`. -/
def loopSt : ℕ → FVec F S256x1 .f32 × FVec F S256x1 .f32 × FVec F S256x1 .f32
  | 0 => (k0_pay15, k0_pay16, k0_pay17)
  | k + 1 =>
    if h : k < 11 then
      (k0_pay19 (k0_pay2 x0) x6 (loopSt k).1 (chunk x7 k (by omega)),
       k0_pay20 (k0_pay2 x0) x6 (loopSt k).1 (loopSt k).2.1 (chunk x7 k (by omega)),
       k0_pay21 (k0_pay2 x0) (k0_pay3 x1) x6 ⟨k, by rw [trips_eq]; exact h⟩ (loopSt k).2.2 (chunk x7 k (by omega)))
    else loopSt k

/-- What the point stores into its output block. -/
def bodyVal : FVec F S256x1 .f32 :=
  k0_pay1 (k0_pay3 x1)
    (k0_pay8 (k0_pay4 x0 x2 x3) (k0_pay5 x0 x2 x3))
    (k0_pay12 (k0_pay6 x0 x1 x2 x3) (k0_pay7 x0 x2 x3) (k0_pay9 (k0_pay2 x0) (k0_pay3 x1) x4 x5)
      (k0_pay10 (k0_pay3 x1)) (k0_pay11 (k0_pay3 x1)))
    (k0_pay14 (k0_pay3 x1))
    (loopSt x0 x1 x6 x7 11).2.2
    k0_pay22
    (k0_pay23 (k0_pay2 x0) x6 (chunk x7 11 (by omega)))
    (k0_pay24 (k0_pay2 x0) x6 (loopSt x0 x1 x6 x7 11).1 (chunk x7 11 (by omega)))
    (k0_pay25 (k0_pay2 x0) x6 (loopSt x0 x1 x6 x7 11).1 (chunk x7 11 (by omega)))
    (k0_pay26 (k0_pay2 x0) x6 (loopSt x0 x1 x6 x7 11).1 (loopSt x0 x1 x6 x7 11).2.1 (chunk x7 11 (by omega)))

end Cert.KernelIdeal.Body

end
-- ==== Proof.KTail.lean ====
/-
  The second cluster's payloads, read at one row of the block.

  One trip of the streamed loop takes the running (maximum, sum, picked entry) of a row to the next by one chunk of
  logits; the loop's eleven trips are the fold of that step from (−∞, 0, 0); the stored value chooses between the second
  cluster's result and the earlier one by the target.
-/
import proofs.«416293_j15891378995362_3_alg».proof.Proof.KBody
import proofs.«416293_j15891378995362_3_alg».proof.Proof.KForm
import proofs.«416293_j15891378995362_3_alg».proof.Proof.KRaw
import proofs.«416293_j15891378995362_3_alg».proof.Proof.LibDotSum
import Idealize.ShloMosaic.Lib.Pipeline.Value

noncomputable section

namespace Cert.KernelIdeal.Rows

open Cert.KernelIdeal Cert.KernelIdeal.Gen Cert.KernelIdeal.Body Idealize.ShloMosaic Idealize.ShloMosaic.ValueIdx
open Cert.Spec Cert.KForm Cert.KRaw

variable (x0 : Vec Ideal S256x1024 .bf16) (x1 : Vec Ideal S256x1 .i32) (x2 : Vec Ideal S1024x1792 .bf16) (x3 : Vec Ideal S1x1792 .f32)
  (x4 : Vec Ideal S1024x256 .bf16) (x5 : Vec Ideal S256x3456 .bf16) (x6 : Vec Ideal S1024x64 .bf16) (x7 : Vec Ideal S64x49152 .bf16)

/-! Each payload is read at row `r`: a lane reduction of a 256 × 4096 block is a sum or a maximum over the row's 4096
entries, a column broadcast along the lanes reads the row's entry, the lane numbers plus the chunk's first column are the
chunk's column numbers, and the chunk's logits are the row projected and then taken against the chunk's weight columns. -/

/-! ## The row-wise operations of a 256 × 4096 block, read at one row -/

/-- A lane sum of a 256 × 4096 block at row `r` is the sum over the row's 4096 entries. -/
private theorem laneSum (v : FVec Ideal S256x4096 .f32) (r : Fin 256) :
    multiReduction .add [1] S256 v 0x00000000#32 reduces_S256x4096_S256 (.inl rfl) rfl (ix1 r)
      = ∑ j : Fin 4096, v (ix2 r j) := by
  refine (Ideal.multiReduction_add_single v 0x00000000#32 reduces_S256x4096_S256 (.inl rfl) rfl (ix1 r)).trans ?_
  show ∑ k : Fin 4096, v (reduces_S256x4096_S256.lift (ix1 r) k) = ∑ j : Fin 4096, v (ix2 r j)
  refine Finset.sum_congr rfl fun k _ => congrArg v ?_
  funext a
  match a with
  | ⟨0, _⟩ => rfl
  | ⟨1, _⟩ => rfl

/-- The pattern of −∞ is −∞. -/
private theorem negInf : FloatOps.ofBits (F := Ideal) .f32 0xFF800000#32 = (⊥ : EReal) := by
  show Ideal.ofBits .f32 0xFF800000#32 = ⊥
  simp [Ideal.ofBits, Ideal.ieee]

/-- A lane maximum of a 256 × 4096 block at row `r` is the maximum, from −∞, of the row's 4096 entries. -/
private theorem laneMax (v : FVec Ideal S256x4096 .f32) (r : Fin 256) :
    multiReduction .maximumf [1] S256 v 0xFF800000#32 reduces_S256x4096_S256 (.inl rfl) rfl (ix1 r)
      = vmax fun j : Fin 4096 => v (ix2 r j) := by
  refine (Ideal.multiReduction_maximumf_single v 0xFF800000#32 reduces_S256x4096_S256 (.inl rfl) rfl (ix1 r)).trans ?_
  rw [negInf]
  show (Finset.univ : Finset (Fin 4096)).fold max ⊥ (v ∘ reduces_S256x4096_S256.lift (ix1 r)) = _
  unfold vmax
  congr 1
  funext k
  refine congrArg v ?_
  funext a
  match a with
  | ⟨0, _⟩ => rfl
  | ⟨1, _⟩ => rfl

/-- A vector of 256 entries viewed as a column reads its entry `r` at row `r`. -/
private theorem toCol {α : Type} (v : S256.Idx → α) (r : Fin 256) :
    shapeCast S256x1 v shapeCasts_S256_S256x1 (ix2 r (0 : Fin 1)) = v (ix1 r) :=
  shapeCast_apply v shapeCasts_S256_S256x1 (ix2 r (0 : Fin 1)) (ix1 r) (by
    rw [Shape.rowMajor_val_two, Shape.rowMajor_val_one]; show r.val = r.val * 1 + 0; omega)

/-- A column of 256 entries viewed as a vector reads row `r` at entry `r`. -/
private theorem ofCol {α : Type} (v : S256x1.Idx → α) (r : Fin 256) :
    shapeCast S256 v shapeCasts_S256x1_S256 (ix1 r) = v (ix2 r (0 : Fin 1)) :=
  shapeCast_apply v shapeCasts_S256x1_S256 (ix1 r) (ix2 r (0 : Fin 1)) (by
    rw [Shape.rowMajor_val_two, Shape.rowMajor_val_one]; show r.val * 1 + 0 = r.val; omega)

/-- A column broadcast along the lanes reads its row's entry at every lane. -/
private theorem colBcast {α : Type} (v : S256x1.Idx → α) (r : Fin 256) (j : Fin 4096) :
    broadcastTo S256x4096 v broadcasts_S256x1_S256x4096 (ix2 r j) = v (ix2 r (0 : Fin 1)) :=
  broadcastTo_apply v broadcasts_S256x1_S256x4096 (ix2 r j) (ix2 r (0 : Fin 1)) (fun a =>
    match a with
    | ⟨0, _⟩ => rfl
    | ⟨1, _⟩ => rfl)

/-- The lane number of a 256 × 4096 block at lane `j`. -/
private theorem laneIota (r : Fin 256) (j : Fin 4096) :
    iota .tc S256x4096 32 [1] iota_S256x4096_d1_w32 (ix2 r j) = BitVec.ofNat 32 j.val :=
  iota_single_apply .tc S256x4096 32 1 iota_S256x4096_d1_w32 (ix2 r j)

/-- A select on an equality test is the `if` on the equality. -/
private theorem select_eq {α : Type} (a b : BitVec 32) (x y : α) :
    Scalar.select (IntOp.cmpi .eq a b) x y = if a = b then x else y := by
  unfold Scalar.select IntOp.cmpi
  by_cases h : a = b
  · simp [h]
  · have hb : (a == b) = false := beq_eq_false_iff_ne.mpr h
    simp [h, hb]

/-- A select on a signed "less than" test is the `if` on it. -/
private theorem select_slt {α : Type} (a b : BitVec 32) (x y : α) :
    Scalar.select (IntOp.cmpi .slt a b) x y = if a.slt b then x else y := by
  unfold Scalar.select IntOp.cmpi
  by_cases h : a.slt b
  · simp [h]
  · simp [h]

/-- A select on a signed "at least" test is the `if` on the reversed "at most". -/
private theorem select_sge {α : Type} (a b : BitVec 32) (x y : α) :
    Scalar.select (IntOp.cmpi .sge a b) x y = if b.sle a then x else y := by
  unfold Scalar.select IntOp.cmpi
  by_cases h : b.sle a
  · simp [h]
  · simp [h]

/-- A logarithm at an index is the logarithm of the element. -/
private theorem log_apply {s : Shape} {φ : FTy} (a : FVec Ideal s φ) (i : s.Idx) : log a i = Ideal.log (a i) := rfl

/-! ## The chunk's logits, the wanted column, the column numbers -/

/-- The logits of chunk `k` at row `r`, lane `j`: the row projected, then against column 4096·k + j of the weights. -/
private theorem pay18_row (k : ℕ) (hk : k < 12) (r : Fin 256) (j : Fin 4096) :
    k0_pay18 (F := Ideal) (k0_pay2 x0) x6 (chunk x7 k hk) (ix2 r j) = rowC x0 x6 x7 r ⟨k, hk⟩ j := by
  simp only [k0_pay18, k0_pay13, k0_pay2, shapeCast_self]
  rw [Cert.Lib.matmul_rc_apply dot_S256x64_S64x4096_S256x4096_1_0_0_1_n_n rfl rfl rfl rfl rfl rfl]
  unfold rowC hidC
  refine Finset.sum_congr rfl fun d _ => ?_
  rw [truncf_apply, Cert.Lib.matmul_rc_apply dot_S256x1024_S1024x64_S256x64_1_0_0_1_n_n rfl rfl rfl rfl rfl rfl]
  rfl

/-- The targets viewed as a vector read the block's target word at row `r`. -/
private theorem pay3_row (r : Fin 256) : k0_pay3 (F := Ideal) x1 (ix1 r) = yOf x1 r := by
  simp only [k0_pay3, shapeCast_self]
  exact ofCol x1 r

/-- The wanted column of the second cluster at row `r`: the target less 5025, clamped to [0, 45231]. -/
private theorem pay14_row (r : Fin 256) :
    k0_pay14 (k0_pay3 (F := Ideal) x1) (ix2 r (0 : Fin 1)) = rel1 (yOf x1 r) := by
  unfold k0_pay14
  refine (toCol _ r).trans ?_
  show IntOp.minsi 45231#32 (IntOp.maxsi 0#32 (IntOp.subi (k0_pay3 (F := Ideal) x1 (ix1 r)) 5025#32)) = _
  rw [pay3_row]
  rfl

/-- The first column of chunk `k` as a word: the trip's counter times 4096. -/
private theorem startWord (k : ℕ) (hk : k < 11) :
    Scalar.muli (Scf.iv 0#32 1#32 k) 4096#32 = BitVec.ofNat 32 (4096 * k) := by
  interval_cases k <;> decide

/-- The column numbers of the twelfth chunk. -/
private theorem pay22_row (r : Fin 256) (j : Fin 4096) : k0_pay22 (ix2 r j) = colAt 45056#32 j := by
  unfold k0_pay22
  show IntOp.addi 45056#32 (iota .tc S256x4096 32 [1] iota_S256x4096_d1_w32 (ix2 r j)) = _
  rw [laneIota]
  rfl

/-! ## One trip of the streamed loop at row `r` -/

/-- The running maximum after chunk `k`: the larger of the maximum so far and the chunk's. -/
private theorem pay19_row (m : FVec Ideal S256x1 .f32) (k : ℕ) (hk : k < 12) (r : Fin 256) :
    k0_pay19 (F := Ideal) (k0_pay2 x0) x6 m (chunk x7 k hk) (ix2 r (0 : Fin 1))
      = max (m (ix2 r (0 : Fin 1))) (vmax (rowC x0 x6 x7 r ⟨k, hk⟩)) := by
  simp only [k0_pay19]
  rw [maximumf_apply, toCol, laneMax]
  simp only [pay18_row]

/-- The running sum after chunk `k`: the sum so far rescaled to the new maximum, plus the chunk's exponentials. -/
private theorem pay20_row (m l : FVec Ideal S256x1 .f32) (k : ℕ) (hk : k < 12) (r : Fin 256) :
    k0_pay20 (F := Ideal) (k0_pay2 x0) x6 m l (chunk x7 k hk) (ix2 r (0 : Fin 1))
      = l (ix2 r (0 : Fin 1))
          * Ideal.exp (m (ix2 r (0 : Fin 1)) - max (m (ix2 r (0 : Fin 1))) (vmax (rowC x0 x6 x7 r ⟨k, hk⟩)))
        + ∑ j : Fin 4096,
            Ideal.exp (rowC x0 x6 x7 r ⟨k, hk⟩ j - max (m (ix2 r (0 : Fin 1))) (vmax (rowC x0 x6 x7 r ⟨k, hk⟩))) := by
  simp only [k0_pay20]
  rw [addf_apply, toCol, laneSum, mulf_apply]
  show l (ix2 r (0 : Fin 1))
        * Ideal.exp (m (ix2 r (0 : Fin 1)) - k0_pay19 (F := Ideal) (k0_pay2 x0) x6 m (chunk x7 k hk) (ix2 r (0 : Fin 1)))
      + ∑ j : Fin 4096, Ideal.exp (k0_pay18 (F := Ideal) (k0_pay2 x0) x6 (chunk x7 k hk) (ix2 r j)
          - broadcastTo S256x4096 (k0_pay19 (F := Ideal) (k0_pay2 x0) x6 m (chunk x7 k hk)) broadcasts_S256x1_S256x4096 (ix2 r j)) = _
  simp only [colBcast, pay19_row, pay18_row]

/-- The picked entry after chunk `k`: the entry so far plus the chunk's entry at the wanted column, if it has it. -/
private theorem pay21_row (t : FVec Ideal S256x1 .f32) (k : ℕ) (hk : k < 12) (hk' : k < k0_t1_loop.trips) (r : Fin 256) :
    k0_pay21 (F := Ideal) (k0_pay2 x0) (k0_pay3 x1) x6 ⟨k, hk'⟩ t (chunk x7 k hk) (ix2 r (0 : Fin 1))
      = t (ix2 r (0 : Fin 1))
        + selCol (colAt (BitVec.ofNat 32 (4096 * k))) (rowC x0 x6 x7 r ⟨k, hk⟩) (rel1 (yOf x1 r)) := by
  simp only [k0_pay21]
  have h11 : k < 11 := by have h := hk'; rwa [trips_eq] at h
  rw [addf_apply, toCol, laneSum, startWord k h11]
  unfold selCol
  congr 1
  refine Finset.sum_congr rfl fun j _ => ?_
  rw [select_apply]
  show Scalar.select (IntOp.cmpi .eq
        (IntOp.addi (BitVec.ofNat 32 (4096 * k)) (iota .tc S256x4096 32 [1] iota_S256x4096_d1_w32 (ix2 r j)))
        (broadcastTo S256x4096 (k0_pay14 (k0_pay3 (F := Ideal) x1)) broadcasts_S256x1_S256x4096 (ix2 r j)))
      (k0_pay18 (F := Ideal) (k0_pay2 x0) x6 (chunk x7 k hk) (ix2 r j)) (Ideal.ofBits .f32 0x00000000#32) = _
  rw [select_eq, laneIota, colBcast, pay14_row, pay18_row, Ideal.ofBits_zero_f32]
  rfl

/-! ## The loop's running triple -/

/-- The maximum starts at −∞. -/
private theorem pay15_row (r : Fin 256) : k0_pay15 (F := Ideal) (ix2 r (0 : Fin 1)) = (⊥ : EReal) := by
  unfold k0_pay15
  show Named.named (F := Ideal) κ "neg_big" (φ := .f32) 0xF149F2CA#32 = ⊥
  exact IdealRules.named_const.ideal_named_scalar _ _ _ _ rfl

/-- The sum starts at 0. -/
private theorem pay16_row (r : Fin 256) : k0_pay16 (F := Ideal) (ix2 r (0 : Fin 1)) = (0 : EReal) := by
  unfold k0_pay16
  exact Ideal.ofBits_zero_f32

/-- The picked entry starts at 0. -/
private theorem pay17_row (r : Fin 256) : k0_pay17 (F := Ideal) (ix2 r (0 : Fin 1)) = (0 : EReal) := by
  unfold k0_pay17
  exact Ideal.ofBits_zero_f32

/-- The running triple of row `r` before trip `k` is the fold of the chunk step over the row's chunks. -/
theorem loopSt_row (k : ℕ) (hk : k ≤ 11) (r : Fin 256) :
    ((loopSt (F := Ideal) x0 x1 x6 x7 k).1 (ix2 r (0 : Fin 1)), (loopSt (F := Ideal) x0 x1 x6 x7 k).2.1 (ix2 r (0 : Fin 1)),
      (loopSt (F := Ideal) x0 x1 x6 x7 k).2.2 (ix2 r (0 : Fin 1)))
      = ofold (rowC x0 x6 x7 r) (rel1 (yOf x1 r)) k := by
  induction k with
  | zero =>
    show (k0_pay15 (F := Ideal) (ix2 r (0 : Fin 1)), k0_pay16 (F := Ideal) (ix2 r (0 : Fin 1)),
      k0_pay17 (F := Ideal) (ix2 r (0 : Fin 1))) = ((⊥ : EReal), (0 : EReal), (0 : EReal))
    rw [pay15_row, pay16_row, pay17_row]
  | succ k ih =>
    have hk' : k < 11 := by omega
    have ih' := ih (by omega)
    have eo : ofold (rowC x0 x6 x7 r) (rel1 (yOf x1 r)) (k + 1)
        = ostep (rowC x0 x6 x7 r ⟨k, by omega⟩) (colAt (BitVec.ofNat 32 (4096 * k))) (rel1 (yOf x1 r))
            (ofold (rowC x0 x6 x7 r) (rel1 (yOf x1 r)) k) := by
      rw [ofold, dif_pos hk']
    have el : loopSt (F := Ideal) x0 x1 x6 x7 (k + 1)
        = (k0_pay19 (k0_pay2 x0) x6 (loopSt x0 x1 x6 x7 k).1 (chunk x7 k (by omega)),
           k0_pay20 (k0_pay2 x0) x6 (loopSt x0 x1 x6 x7 k).1 (loopSt x0 x1 x6 x7 k).2.1 (chunk x7 k (by omega)),
           k0_pay21 (k0_pay2 x0) (k0_pay3 x1) x6 ⟨k, by rw [trips_eq]; exact hk'⟩ (loopSt x0 x1 x6 x7 k).2.2
             (chunk x7 k (by omega))) := by
      rw [loopSt, dif_pos hk']
    rw [eo, ← ih', el]
    show (k0_pay19 (F := Ideal) (k0_pay2 x0) x6 (loopSt x0 x1 x6 x7 k).1 (chunk x7 k (by omega)) (ix2 r (0 : Fin 1)),
        k0_pay20 (F := Ideal) (k0_pay2 x0) x6 (loopSt x0 x1 x6 x7 k).1 (loopSt x0 x1 x6 x7 k).2.1 (chunk x7 k (by omega))
          (ix2 r (0 : Fin 1)),
        k0_pay21 (F := Ideal) (k0_pay2 x0) (k0_pay3 x1) x6 ⟨k, by rw [trips_eq]; exact hk'⟩ (loopSt x0 x1 x6 x7 k).2.2
          (chunk x7 k (by omega)) (ix2 r (0 : Fin 1))) = _
    rw [pay19_row, pay20_row, pay21_row]
    rfl

/-! ## The twelfth chunk and the stored value -/

/-- The named large negative constant is −∞. -/
private theorem negBig : Named.named (F := Ideal) κ "neg_big" (φ := .f32) 0xF149F2CA#32 = (⊥ : EReal) :=
  IdealRules.named_const.ideal_named_scalar _ _ _ _ rfl

/-- The twelfth chunk's logits at row `r`, kept below column 45232 and −∞ beyond. -/
private theorem pay23_row (r : Fin 256) (j : Fin 4096) :
    k0_pay23 (F := Ideal) (k0_pay2 x0) x6 (chunk x7 11 (by omega)) (ix2 r j)
      = maskCol (colAt 45056#32) 45232#32 (rowC x0 x6 x7 r ⟨11, by omega⟩) j := by
  unfold k0_pay23
  show Scalar.select (IntOp.cmpi .slt (k0_pay22 (ix2 r j)) 45232#32)
      (k0_pay18 (F := Ideal) (k0_pay2 x0) x6 (chunk x7 11 (by omega)) (ix2 r j))
      (Named.named (F := Ideal) κ "neg_big" (φ := .f32) 0xF149F2CA#32) = _
  rw [select_slt, pay22_row, pay18_row, negBig]
  rfl

/-- The maximum after the twelfth chunk. -/
private theorem pay24_row (m : FVec Ideal S256x1 .f32) (r : Fin 256) :
    k0_pay24 (F := Ideal) (k0_pay2 x0) x6 m (chunk x7 11 (by omega)) (ix2 r (0 : Fin 1))
      = max (m (ix2 r (0 : Fin 1))) (vmax (maskCol (colAt 45056#32) 45232#32 (rowC x0 x6 x7 r ⟨11, by omega⟩))) := by
  simp only [k0_pay24]
  rw [maximumf_apply, toCol, laneMax]
  simp only [pay23_row]

/-- The twelfth chunk's exponentials relative to the final maximum. -/
private theorem pay25_row (m : FVec Ideal S256x1 .f32) (r : Fin 256) (j : Fin 4096) :
    k0_pay25 (F := Ideal) (k0_pay2 x0) x6 m (chunk x7 11 (by omega)) (ix2 r j)
      = Ideal.exp (maskCol (colAt 45056#32) 45232#32 (rowC x0 x6 x7 r ⟨11, by omega⟩) j
          - max (m (ix2 r (0 : Fin 1))) (vmax (maskCol (colAt 45056#32) 45232#32 (rowC x0 x6 x7 r ⟨11, by omega⟩)))) := by
  simp only [k0_pay25]
  show Ideal.exp (k0_pay23 (F := Ideal) (k0_pay2 x0) x6 (chunk x7 11 (by omega)) (ix2 r j)
      - broadcastTo S256x4096 (k0_pay24 (F := Ideal) (k0_pay2 x0) x6 m (chunk x7 11 (by omega)))
          broadcasts_S256x1_S256x4096 (ix2 r j)) = _
  rw [colBcast, pay23_row, pay24_row]

/-- The sum so far rescaled to the final maximum. -/
private theorem pay26_row (m l : FVec Ideal S256x1 .f32) (r : Fin 256) :
    k0_pay26 (F := Ideal) (k0_pay2 x0) x6 m l (chunk x7 11 (by omega)) (ix2 r (0 : Fin 1))
      = l (ix2 r (0 : Fin 1)) * Ideal.exp (m (ix2 r (0 : Fin 1))
          - max (m (ix2 r (0 : Fin 1))) (vmax (maskCol (colAt 45056#32) 45232#32 (rowC x0 x6 x7 r ⟨11, by omega⟩)))) := by
  simp only [k0_pay26]
  show l (ix2 r (0 : Fin 1)) * Ideal.exp (m (ix2 r (0 : Fin 1))
      - k0_pay24 (F := Ideal) (k0_pay2 x0) x6 m (chunk x7 11 (by omega)) (ix2 r (0 : Fin 1))) = _
  rw [pay24_row]

/-- The stored column at row `r`, over any values of the pieces it is assembled from. -/
private theorem pay1_row (v4 : IVec S256 32) (v44 v87 : FVec Ideal S256 .f32) (v98 : IVec S256x1 32)
    (t : FVec Ideal S256x1 .f32) (v111 : IVec S256x4096 32) (v115 : FVec Ideal S256x4096 .f32)
    (v118 : FVec Ideal S256x1 .f32) (v123 : FVec Ideal S256x4096 .f32) (v124 : FVec Ideal S256x1 .f32) (r : Fin 256) :
    k0_pay1 (F := Ideal) v4 v44 v87 v98 t v111 v115 v118 v123 v124 (ix2 r (0 : Fin 1))
      = if (5025#32).sle (v4 (ix1 r)) then
          v44 (ix1 r)
            + ((t (ix2 r (0 : Fin 1))
                + ∑ j : Fin 4096, if v111 (ix2 r j) = v98 (ix2 r (0 : Fin 1)) then v115 (ix2 r j) else 0)
              - (v118 (ix2 r (0 : Fin 1))
                + Ideal.log (v124 (ix2 r (0 : Fin 1)) + ∑ j : Fin 4096, v123 (ix2 r j))))
        else v87 (ix1 r) := by
  simp only [k0_pay1]
  rw [toCol, select_apply]
  show Scalar.select (IntOp.cmpi .sge (v4 (ix1 r)) 5025#32)
      (v44 (ix1 r) + shapeCast S256 _ shapeCasts_S256x1_S256 (ix1 r)) (v87 (ix1 r)) = _
  rw [select_sge, ofCol, subf_apply, addf_apply, toCol, laneSum, addf_apply, log_apply, addf_apply, toCol, laneSum]
  have es : ∀ j : Fin 4096,
      select (cmpi .eq v111 (broadcastTo S256x4096 v98 broadcasts_S256x1_S256x4096)) v115
        (broadcast S256x4096 (FloatOps.ofBits (F := Ideal) .f32 0x00000000#32)) (ix2 r j)
        = if v111 (ix2 r j) = v98 (ix2 r (0 : Fin 1)) then v115 (ix2 r j) else 0 := fun j => by
    rw [select_apply]
    show Scalar.select (IntOp.cmpi .eq (v111 (ix2 r j)) (broadcastTo S256x4096 v98 broadcasts_S256x1_S256x4096 (ix2 r j)))
      (v115 (ix2 r j)) (Ideal.ofBits .f32 0x00000000#32) = _
    rw [select_eq, colBcast, Ideal.ofBits_zero_f32]
  simp only [es]

/-- The second cluster's part, from the running triple's three values after the eleven whole chunks. -/
private theorem streamed_of (c : Fin 12 → Fin 4096 → EReal) (rel : BitVec 32) (a b t : EReal)
    (h : ofold c rel 11 = (a, b, t)) :
    streamed c rel
      = (t + ∑ j : Fin 4096,
            if colAt 45056#32 j = rel then maskCol (colAt 45056#32) 45232#32 (c ⟨11, by omega⟩) j else 0)
        - (max a (vmax (maskCol (colAt 45056#32) 45232#32 (c ⟨11, by omega⟩)))
          + Ideal.log (b * Ideal.exp (a - max a (vmax (maskCol (colAt 45056#32) 45232#32 (c ⟨11, by omega⟩))))
              + ∑ j : Fin 4096, Ideal.exp (maskCol (colAt 45056#32) 45232#32 (c ⟨11, by omega⟩) j
                  - max a (vmax (maskCol (colAt 45056#32) 45232#32 (c ⟨11, by omega⟩)))))) := by
  unfold streamed
  rw [h]
  rfl

/-- The stored value at row `r`: the second cluster's result when the target is at least 5025, else the earlier choice. -/
theorem bodyVal_row_tail (r : Fin 256) :
    bodyVal (F := Ideal) x0 x1 x2 x3 x4 x5 x6 x7 (ix2 r (0 : Fin 1))
      = if (5025#32).sle (yOf x1 r) then
          k0_pay8 (F := Ideal) (k0_pay4 x0 x2 x3) (k0_pay5 x0 x2 x3) (ix1 r) + streamed (rowC x0 x6 x7 r) (rel1 (yOf x1 r))
        else
          k0_pay12 (F := Ideal) (k0_pay6 x0 x1 x2 x3) (k0_pay7 x0 x2 x3) (k0_pay9 (k0_pay2 x0) (k0_pay3 x1) x4 x5)
            (k0_pay10 (k0_pay3 x1)) (k0_pay11 (k0_pay3 x1)) (ix1 r) := by
  unfold bodyVal
  rw [pay1_row, pay3_row]
  by_cases h : (5025#32).sle (yOf x1 r)
  · rw [if_pos h, if_pos h]
    refine congrArg (HAdd.hAdd _) ?_
    simp only [pay22_row, pay14_row, pay23_row, pay24_row, pay25_row, pay26_row]
    rw [streamed_of _ _ _ _ _ (loopSt_row x0 x1 x6 x7 11 le_rfl r).symm]
  · rw [if_neg h, if_neg h]

end Cert.KernelIdeal.Rows

end
-- ==== Proof.KRun.lean ====
/-
  What one grid point leaves in its output block is the body's value of the point's input blocks.

  The body's one store covers the whole output block, so the block read back is the stored value; the stored value's
  loop-carried inputs are the loop's running triple after its eleven trips, each trip's yield being the three chunk
  payloads of the chunk it loads.
-/
import proofs.«416293_j15891378995362_3_alg».proof.Proof.Gen.KernelIdeal.Frame
import proofs.«416293_j15891378995362_3_alg».proof.Proof.KBody
import Idealize.ShloMosaic.Lib.Tactic
import Idealize.ShloMosaic.Lib.Pipeline.Value

noncomputable section

namespace Cert.KernelIdeal.Body

open Cert.KernelIdeal Cert.KernelIdeal.Gen Idealize.ShloMosaic Idealize.ShloMosaic.ValueIdx

section Generic

variable {F : FTy → Type} [FloatOps F] [Named F]

/-- The zero offsets of a whole block, spelt as the constant function. -/
private theorem hz : (![0, 0] : Fin 2 → Nat) = fun _ => 0 := funext fun a => by fin_cases a <;> rfl

/-- A trip number is below twelve (there are eleven trips). -/
private theorem trip_lt (k : Fin k0_t1_loop.trips) : k.val < 12 := by
  have h := k.isLt; have e := trips_eq; omega

/-- Reading 64 × 4096 entries through the unit-stride rectangle at offsets (0, 4096·k) reads chunk `k`: entry (r, l)
    of the rectangle is entry (0 + 1·r, 4096·k + 1·l) of the whole block. -/
private theorem ld_chunk (x7 : Vec F S64x49152 .bf16) (k : ℕ) (hk : k < 12) (off : Fin 2 → ℕ) (hoff : off = ![0, 4096 * k])
    (inb : ∀ a, off a + S64x4096.size a ≤ S64x49152.size a) :
    View.ld x7 (Rect.unit (s := S64x49152) off S64x4096.size inb) = chunk x7 k hk := by
  subst hoff
  funext j
  show x7 _ = x7 _
  congr 1
  funext a
  apply Fin.ext
  match a with
  | ⟨0, _⟩ => simp
  | ⟨1, _⟩ => simp

/-- ONE TRIP: from the carried triple `acc`, trip `k` yields the three payloads of chunk `k` — its one load reads the
    whole block's contents through the rectangle at the trip's offset (0, 4096·k). The trip's definition is opened
    here and nowhere else. -/
private theorem trip_eq (c : Dev nD) (i : grid0.Coords) (a1 : Memref sig .tc .vmem S256x1024 .bf16) (h1 : a1.IsWhole) (a2 : Memref sig .tc .vmem S256x1 .i32) (h2 : a2.IsWhole) (a3 : Memref sig .tc .vmem S1024x1792 .bf16) (h3 : a3.IsWhole) (a4 : Memref sig .tc .vmem S1x1792 .f32) (h4 : a4.IsWhole) (a5 : Memref sig .tc .vmem S1024x256 .bf16) (h5 : a5.IsWhole) (a6 : Memref sig .tc .vmem S256x3456 .bf16) (h6 : a6.IsWhole) (a7 : Memref sig .tc .vmem S1024x64 .bf16) (h7 : a7.IsWhole) (a8 : Memref sig .tc .vmem S64x49152 .bf16) (h8 : a8.IsWhole) (a9 : Memref sig .tc .vmem S256x1 .f32) (h9 : a9.IsWhole) (v1 : FVec F S256x1024 .bf16) (v4 : IVec S256 32) (v38 : FVec F S256 .f32) (v41 : FVec F S256 .f32) (v80 : FVec F S256 .f32) (v82 : IVec S256 1) (v84 : IVec S256 1) (v88 : Vec F S1024x64 .bf16) (x7 : Vec F S64x49152 .bf16) (k : Fin k0_t1_loop.trips)
    (acc : FVec F S256x1 .f32 × FVec F S256x1 .f32 × FVec F S256x1 .f32) :
    tripR_k0_t1 (F := F) Variants.none c none i a1 h1 a2 h2 a3 h3 a4 h4 a5 h5 a6 h6 a7 h7 a8 h8 a9 h9 v1 v4 v38 v41 v80 v82 v84 v88 (h8.unread x7) k acc
      = (k0_pay19 v1 v88 acc.1 (chunk x7 k.val (trip_lt k)),
         k0_pay20 v1 v88 acc.1 acc.2.1 (chunk x7 k.val (trip_lt k)),
         k0_pay21 v1 v4 v88 k acc.2.2 (chunk x7 k.val (trip_lt k))) := by
  unfold tripR_k0_t1 trip_k0_t1
  dsimp only
  rw [View.readAt_eq_ld, h8.read_unread, ld_chunk x7 k.val (trip_lt k) _ (k0_off1_eq k)]

/-- THE LOOP: the value carried before trip `n` (n ≤ 11) is the running triple `loopSt n` — by induction on `n`,
    each step being one trip from the triple before it. -/
private theorem st_eq (c : Dev nD) (i : grid0.Coords) (a1 : Memref sig .tc .vmem S256x1024 .bf16) (h1 : a1.IsWhole) (a2 : Memref sig .tc .vmem S256x1 .i32) (h2 : a2.IsWhole) (a3 : Memref sig .tc .vmem S1024x1792 .bf16) (h3 : a3.IsWhole) (a4 : Memref sig .tc .vmem S1x1792 .f32) (h4 : a4.IsWhole) (a5 : Memref sig .tc .vmem S1024x256 .bf16) (h5 : a5.IsWhole) (a6 : Memref sig .tc .vmem S256x3456 .bf16) (h6 : a6.IsWhole) (a7 : Memref sig .tc .vmem S1024x64 .bf16) (h7 : a7.IsWhole) (a8 : Memref sig .tc .vmem S64x49152 .bf16) (h8 : a8.IsWhole) (a9 : Memref sig .tc .vmem S256x1 .f32) (h9 : a9.IsWhole) (x0 : Vec F S256x1024 .bf16) (x1 : Vec F S256x1 .i32) (x2 : Vec F S1024x1792 .bf16) (x3 : Vec F S1x1792 .f32) (x4 : Vec F S1024x256 .bf16) (x5 : Vec F S256x3456 .bf16) (x6 : Vec F S1024x64 .bf16) (x7 : Vec F S64x49152 .bf16) (v38 : FVec F S256 .f32) (v41 : FVec F S256 .f32) (v80 : FVec F S256 .f32) (v82 : IVec S256 1) (v84 : IVec S256 1) :
    ∀ n : ℕ, n ≤ 11 →
      st_k0_t1 (F := F) Variants.none c none i a1 h1 a2 h2 a3 h3 a4 h4 a5 h5 a6 h6 a7 h7 a8 h8 a9 h9 (k0_pay2 x0) (k0_pay3 x1) v38 v41 v80 v82 v84 x6 (h8.unread x7)
          (k0_pay15, k0_pay16, k0_pay17) n
        = loopSt x0 x1 x6 x7 n
  | 0, _ => rfl
  | n + 1, hn => by
    have hlt : n < 11 := by omega
    have hk : n < k0_t1_loop.trips := by rw [trips_eq]; exact hlt
    have hs := st_k0_t1_succ (F := F) Variants.none c none i a1 h1 a2 h2 a3 h3 a4 h4 a5 h5 a6 h6 a7 h7 a8 h8 a9 h9 (k0_pay2 x0) (k0_pay3 x1) v38 v41 v80 v82 v84 x6 (h8.unread x7)
      (k0_pay15, k0_pay16, k0_pay17) ⟨n, hk⟩
    refine hs.trans ?_
    rw [trip_eq, st_eq c i a1 h1 a2 h2 a3 h3 a4 h4 a5 h5 a6 h6 a7 h7 a8 h8 a9 h9 x0 x1 x2 x3 x4 x5 x6 x7 v38 v41 v80 v82 v84 n (by omega)]
    rw [loopSt, dif_pos hlt]

/-- The output block after the body, at any float instance: the one store covers the block, so the block is the
    stored payload; its loads of whole blocks read the blocks, its loop-carried inputs are the triple after eleven
    trips, and its last load reads chunk 11 (offset 45056 = 4096·11). -/
private theorem out0_A_8_val (c : Dev nD) (i : grid0.Coords) (a1 : Memref sig .tc .vmem S256x1024 .bf16) (h1 : a1.IsWhole) (a2 : Memref sig .tc .vmem S256x1 .i32) (h2 : a2.IsWhole) (a3 : Memref sig .tc .vmem S1024x1792 .bf16) (h3 : a3.IsWhole) (a4 : Memref sig .tc .vmem S1x1792 .f32) (h4 : a4.IsWhole) (a5 : Memref sig .tc .vmem S1024x256 .bf16) (h5 : a5.IsWhole) (a6 : Memref sig .tc .vmem S256x3456 .bf16) (h6 : a6.IsWhole) (a7 : Memref sig .tc .vmem S1024x64 .bf16) (h7 : a7.IsWhole) (a8 : Memref sig .tc .vmem S64x49152 .bf16) (h8 : a8.IsWhole) (a9 : Memref sig .tc .vmem S256x1 .f32) (h9 : a9.IsWhole) (x0 : Vec F S256x1024 .bf16) (x1 : Vec F S256x1 .i32) (x2 : Vec F S1024x1792 .bf16) (x3 : Vec F S1x1792 .f32) (x4 : Vec F S1024x256 .bf16) (x5 : Vec F S256x3456 .bf16) (x6 : Vec F S1024x64 .bf16) (x7 : Vec F S64x49152 .bf16) :
    out0_A_8 (F := F) c i a1 h1 a2 h2 a3 h3 a4 h4 a5 h5 a6 h6 a7 h7 a8 h8 a9 h9 x0 x1 x2 x3 x4 x5 x6 x7 = bodyVal (F := F) x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 x0 x1 x2 x3 x4 x5 x6 x7)]
  unfold kernelRun0_A
  dsimp only
  sl_unfold_words
  rw [View.canon_unit_zero hz]
  have e : Scf.trips k0_t1_loop.lb k0_t1_loop.ub k0_t1_loop.st = 11 := trips_eq
  simp only [View.readAt_eq_ld, h1.read_unread, h2.read_unread, h3.read_unread, h4.read_unread, h5.read_unread,
    h6.read_unread, h7.read_unread, h8.read_unread, View.ld_unit_zero (S := S256x1024) hz,
    View.ld_unit_zero (S := S256x1) hz, View.ld_unit_zero (S := S1024x1792) hz, View.ld_unit_zero (S := S1x1792) hz,
    View.ld_unit_zero (S := S1024x256) hz, View.ld_unit_zero (S := S256x3456) hz, View.ld_unit_zero (S := S1024x64) hz]
  rw [e, st_eq c i a1 h1 a2 h2 a3 h3 a4 h4 a5 h5 a6 h6 a7 h7 a8 h8 a9 h9 x0 x1 x2 x3 x4 x5 x6 x7 _ _ _ _ _ 11 (le_refl _),
    ld_chunk x7 11 (by omega) _ rfl]
  rfl

end Generic

/-- The output block after the body, from the input blocks. -/
theorem out0_A_8_eq (c : Dev nD) (i : grid0.Coords) (a1 : Memref sig .tc .vmem S256x1024 .bf16) (h1 : a1.IsWhole) (a2 : Memref sig .tc .vmem S256x1 .i32) (h2 : a2.IsWhole) (a3 : Memref sig .tc .vmem S1024x1792 .bf16) (h3 : a3.IsWhole) (a4 : Memref sig .tc .vmem S1x1792 .f32) (h4 : a4.IsWhole) (a5 : Memref sig .tc .vmem S1024x256 .bf16) (h5 : a5.IsWhole) (a6 : Memref sig .tc .vmem S256x3456 .bf16) (h6 : a6.IsWhole) (a7 : Memref sig .tc .vmem S1024x64 .bf16) (h7 : a7.IsWhole) (a8 : Memref sig .tc .vmem S64x49152 .bf16) (h8 : a8.IsWhole) (a9 : Memref sig .tc .vmem S256x1 .f32) (h9 : a9.IsWhole)
    (x0 : Vec Ideal S256x1024 .bf16) (x1 : Vec Ideal S256x1 .i32) (x2 : Vec Ideal S1024x1792 .bf16) (x3 : Vec Ideal S1x1792 .f32)
    (x4 : Vec Ideal S1024x256 .bf16) (x5 : Vec Ideal S256x3456 .bf16) (x6 : Vec Ideal S1024x64 .bf16) (x7 : Vec Ideal S64x49152 .bf16) :
    out0_A_8 (F := Ideal) c i a1 h1 a2 h2 a3 h3 a4 h4 a5 h5 a6 h6 a7 h7 a8 h8 a9 h9 x0 x1 x2 x3 x4 x5 x6 x7
      = bodyVal (F := Ideal) x0 x1 x2 x3 x4 x5 x6 x7 :=
  out0_A_8_val (F := Ideal) c i a1 h1 a2 h2 a3 h3 a4 h4 a5 h5 a6 h6 a7 h7 a8 h8 a9 h9 x0 x1 x2 x3 x4 x5 x6 x7

end Cert.KernelIdeal.Body

end
-- ==== Proof.KBlocks.lean ====
/-
  The input blocks of grid point `t`, entry by entry, from the program's arguments.

  The hidden rows are the argument reshaped to 4096 × 1024, point `t` taking rows 256·t … 256·t + 255; the targets
  likewise. Each weight matrix is transposed, and the wide ones are continued by zero columns up to the padded width;
  every point takes the whole of each.
-/
import proofs.«416293_j15891378995362_3_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Blocks

open Cert.KernelIdeal Cert.KernelIdeal.Gen Idealize.ShloMosaic Idealize.ShloMosaic.ValueIdx Idealize.SL.Sem

variable (m : (ℓ : Loc nD τ sig) → Buf (Elt Ideal) ℓ)

/-- The hidden rows, reshaped to 4096 × 1024. -/
abbrev X (c : Dev nD) : S4096x1024.Idx → EReal :=
  shapeCast S4096x1024 (m ((c.tc : Thread nD τ).loc main_arg0)) shapeCasts_S8x512x1024_S4096x1024
/-- The targets, reshaped to 4096. -/
abbrev Yv (c : Dev nD) : S4096.Idx → BitVec 32 :=
  shapeCast S4096 (m ((c.tc : Thread nD τ).loc main_arg1)) shapeCasts_S8x512_S4096
abbrev HW (c : Dev nD) : S1677x1024.Idx → EReal := m ((c.tc : Thread nD τ).loc main_arg2)
abbrev HB (c : Dev nD) : S1677.Idx → EReal := m ((c.tc : Thread nD τ).loc main_arg3)
abbrev P0 (c : Dev nD) : S256x1024.Idx → EReal := m ((c.tc : Thread nD τ).loc main_arg4)
abbrev W0 (c : Dev nD) : S3350x256.Idx → EReal := m ((c.tc : Thread nD τ).loc main_arg5)
abbrev P1 (c : Dev nD) : S64x1024.Idx → EReal := m ((c.tc : Thread nD τ).loc main_arg6)
abbrev W1 (c : Dev nD) : S45232x64.Idx → EReal := m ((c.tc : Thread nD τ).loc main_arg7)

/-- Point `t`'s blocks, at their literal types. -/
abbrev b0 (c : Dev nD) (t : Fin cfg0.N) : Vec Ideal S256x1024 .bf16 := iblk m c 0 t
abbrev b1 (c : Dev nD) (t : Fin cfg0.N) : Vec Ideal S256x1 .i32 := iblk m c 1 t
abbrev b2 (c : Dev nD) (t : Fin cfg0.N) : Vec Ideal S1024x1792 .bf16 := iblk m c 2 t
abbrev b3 (c : Dev nD) (t : Fin cfg0.N) : Vec Ideal S1x1792 .f32 := iblk m c 3 t
abbrev b4 (c : Dev nD) (t : Fin cfg0.N) : Vec Ideal S1024x256 .bf16 := iblk m c 4 t
abbrev b5 (c : Dev nD) (t : Fin cfg0.N) : Vec Ideal S256x3456 .bf16 := iblk m c 5 t
abbrev b6 (c : Dev nD) (t : Fin cfg0.N) : Vec Ideal S1024x64 .bf16 := iblk m c 6 t
abbrev b7 (c : Dev nD) (t : Fin cfg0.N) : Vec Ideal S64x49152 .bf16 := iblk m c 7 t

/-- The grid has sixteen points. -/
theorem N_eq : cfg0.N = 16 := N_0

/-- Row `r` of point `t`'s block is row 256·t + r of the array. -/
def rowOf (t : Fin cfg0.N) (r : Fin 256) : Fin 4096 := ⟨256 * t.val + r.val, by have h1 : t.val < cfg0.N := t.isLt; have h2 : cfg0.N = 16 := N_eq; omega⟩

/-! ## The staged arrays as terms of the arguments

Each window's array is the result of the operations before the region: a reshape, a transpose, a continuation by zero
columns, and the narrowing to bf16, which is the identity on extended reals. -/

/-- The padding value: the integer zero, converted. -/
private abbrev zpad : S_.Idx → EReal := sitofp (F := Ideal) .f32 (constantI S_ 32 0#32)

/-- It is zero. -/
private theorem zpad_apply (i : S_.Idx) : zpad i = 0 := by
  show (((0#32 : BitVec 32).toInt : ℝ) : EReal) = 0
  simp

/-- Window 0's array: `X`, narrowed. -/
private theorem v0_eq (c : Dev nD) : (V m c main_v1 : S4096x1024.Idx → EReal) =
    (truncf (F := Ideal) .bf16 (X m c : FVec Ideal S4096x1024 .f32) bitsLt_bf16_f32 : S4096x1024.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 1's array: `Yv` as a column. -/
private theorem v1_eq (c : Dev nD) : (V m c main_v3 : S4096x1.Idx → BitVec 32) =
    shapeCast S4096x1 (Yv m c) shapeCasts_S4096_S4096x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 2's array: `HW` transposed, continued by 115 zero columns, narrowed. -/
private theorem v2_eq (c : Dev nD) : (V m c main_v6 : S1024x1792.Idx → EReal) =
    (truncf (F := Ideal) .bf16 (pad S1024x1792 ![0, 0] ![0, 115] ![0, 0] (transpose S1024x1677 [1, 0] (HW m c) transposes_S1677x1024_S1024x1677_1_0) zpad pads_S1024x1677_S1024x1792_000_01150 h_S_ : FVec Ideal S1024x1792 .f32) bitsLt_bf16_f32 : S1024x1792.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 3's array: `HB` as a row, continued by 115 zero columns. -/
private theorem v3_eq (c : Dev nD) : (V m c main_v8 : S1x1792.Idx → EReal) =
    pad S1x1792 ![0, 0] ![0, 115] ![0, 0] (shapeCast S1x1677 (HB m c) shapeCasts_S1677_S1x1677) zpad pads_S1x1677_S1x1792_000_01150 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 4's array: `P0` transposed, narrowed. -/
private theorem v4_eq (c : Dev nD) : (V m c main_v10 : S1024x256.Idx → EReal) =
    (truncf (F := Ideal) .bf16 (transpose S1024x256 [1, 0] (P0 m c) transposes_S256x1024_S1024x256_1_0 : FVec Ideal S1024x256 .f32) bitsLt_bf16_f32 : S1024x256.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 5's array: `W0` transposed, continued by 106 zero columns, narrowed. -/
private theorem v5_eq (c : Dev nD) : (V m c main_v13 : S256x3456.Idx → EReal) =
    (truncf (F := Ideal) .bf16 (pad S256x3456 ![0, 0] ![0, 106] ![0, 0] (transpose S256x3350 [1, 0] (W0 m c) transposes_S3350x256_S256x3350_1_0) zpad pads_S256x3350_S256x3456_000_01060 h_S_ : FVec Ideal S256x3456 .f32) bitsLt_bf16_f32 : S256x3456.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 6's array: `P1` transposed, narrowed. -/
private theorem v6_eq (c : Dev nD) : (V m c main_v15 : S1024x64.Idx → EReal) =
    (truncf (F := Ideal) .bf16 (transpose S1024x64 [1, 0] (P1 m c) transposes_S64x1024_S1024x64_1_0 : FVec Ideal S1024x64 .f32) bitsLt_bf16_f32 : S1024x64.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-- Window 7's array: `W1` transposed, continued by 3920 zero columns, narrowed. -/
private theorem v7_eq (c : Dev nD) : (V m c main_v18 : S64x49152.Idx → EReal) =
    (truncf (F := Ideal) .bf16 (pad S64x49152 ![0, 0] ![0, 3920] ![0, 0] (transpose S64x45232 [1, 0] (W1 m c) transposes_S45232x64_S64x45232_1_0) zpad pads_S64x45232_S64x49152_000_039200 h_S_ : FVec Ideal S64x49152 .f32) bitsLt_bf16_f32 : S64x49152.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  try rfl

/-! ## The block indices over the grid

Windows 0 and 1 take block row `t` at point `t`; every other window takes block (0, 0), the whole array. -/

private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 2) = t.val ∧ win0_1.index t (1 : Fin 2) = 0 :=
  (by decide +kernel : ∀ t : Fin grid0.N, _)
private theorem idx2 : ∀ t : Fin cfg0.N, win0_2.index t (0 : Fin 2) = 0 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)

/-! ## The blocks, entry by entry

An entry of a block is the array's entry at block index × block size + the coordinate inside the block, axis by axis. -/

theorem b0_apply (c : Dev nD) (t : Fin cfg0.N) (r : Fin 256) (h : Fin 1024) :
    b0 m c t (ix2 r h) = X m c (ix2 (rowOf t r) h) := by
  obtain ⟨e0, e1⟩ := idx0 t
  show (V m c main_v1 : S4096x1024.Idx → EReal) (((cfg0.win 0).blk t).view.emb (ix2 r h)) = _
  rw [v0_eq, truncf_apply]
  refine congrArg (X m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * h.val = h.val; omega
theorem b1_apply (c : Dev nD) (t : Fin cfg0.N) (r : Fin 256) :
    b1 m c t (ix2 r (0 : Fin 1)) = Yv m c (ix1 (rowOf t r)) := by
  obtain ⟨e0, e1⟩ := idx1 t
  show (V m c main_v3 : S4096x1.Idx → BitVec 32) (((cfg0.win 1).blk t).view.emb (ix2 r (0 : Fin 1))) = _
  rw [v1_eq]
  -- a column of 4096 rows and the vector of 4096 entries have the same row-major positions
  refine shapeCast_apply _ _ _ (ix1 (rowOf t r)) ?_
  rw [Shape.rowMajor_val_one, Shape.rowMajor_val_two]
  show 256 * t.val + r.val = (win0_1.index t (0 : Fin 2) * 256 + 1 * r.val) * 1 + (win0_1.index t (1 : Fin 2) * 1 + 1 * 0)
  omega
theorem b2_apply (c : Dev nD) (t : Fin cfg0.N) (h : Fin 1024) (v : Fin 1792) :
    b2 m c t (ix2 h v) = if hv : v.val < 1677 then HW m c (ix2 (⟨v.val, hv⟩ : Fin 1677) h) else 0 := by
  obtain ⟨e0, e1⟩ := idx2 t
  show (V m c main_v6 : S1024x1792.Idx → EReal) (((cfg0.win 2).blk t).view.emb (ix2 h v)) = _
  rw [v2_eq, truncf_apply]
  by_cases hv : v.val < 1677
  · rw [dif_pos hv]
    -- inside the operand: the padded array there is the transposed matrix, which is the matrix with coordinates swapped
    refine (pad_apply_of_inside _ _ _ _ _ _ _ _ (ix2 h (⟨v.val, hv⟩ : Fin 1677)) ?_).trans ?_
    · intro a
      match a with
      | ⟨0, _⟩ => show win0_2.index t (0 : Fin 2) * 1024 + 1 * h.val = 0 + h.val * (0 + 1); omega
      | ⟨1, _⟩ => show win0_2.index t (1 : Fin 2) * 1792 + 1 * v.val = 0 + v.val * (0 + 1); omega
    · refine transpose_apply _ _ _ _ (ix2 (⟨v.val, hv⟩ : Fin 1677) h) ?_
      intro b
      match b with
      | ⟨0, _⟩ => rfl
      | ⟨1, _⟩ => rfl
  · rw [dif_neg hv]
    -- past the operand's last column: the padding value, zero
    refine (pad_apply_of_not_inside _ _ _ _ _ _ _ _ (1 : Fin 2) ?_).trans (zpad_apply _)
    show ¬(0 ≤ win0_2.index t (1 : Fin 2) * 1792 + 1 * v.val ∧ (win0_2.index t (1 : Fin 2) * 1792 + 1 * v.val - 0) % (0 + 1) = 0 ∧ (win0_2.index t (1 : Fin 2) * 1792 + 1 * v.val - 0) / (0 + 1) < 1677)
    omega
theorem b3_apply (c : Dev nD) (t : Fin cfg0.N) (v : Fin 1792) :
    b3 m c t (ix2 (0 : Fin 1) v) = if hv : v.val < 1677 then HB m c (ix1 (⟨v.val, hv⟩ : Fin 1677)) else 0 := by
  obtain ⟨e0, e1⟩ := idx3 t
  show (V m c main_v8 : S1x1792.Idx → EReal) (((cfg0.win 3).blk t).view.emb (ix2 (0 : Fin 1) v)) = _
  rw [v3_eq]
  by_cases hv : v.val < 1677
  · rw [dif_pos hv]
    -- inside the operand: the one-row matrix there is the vector at the same position
    refine (pad_apply_of_inside _ _ _ _ _ _ _ _ (ix2 (0 : Fin 1) (⟨v.val, hv⟩ : Fin 1677)) ?_).trans ?_
    · intro a
      match a with
      | ⟨0, _⟩ => show win0_3.index t (0 : Fin 2) * 1 + 1 * 0 = 0 + 0 * (0 + 1); omega
      | ⟨1, _⟩ => show win0_3.index t (1 : Fin 2) * 1792 + 1 * v.val = 0 + v.val * (0 + 1); omega
    · refine shapeCast_apply _ _ _ (ix1 (⟨v.val, hv⟩ : Fin 1677)) ?_
      rw [Shape.rowMajor_val_one, Shape.rowMajor_val_two]
      show v.val = 0 * 1677 + v.val
      omega
  · rw [dif_neg hv]
    -- past the operand's last column: the padding value, zero
    refine (pad_apply_of_not_inside _ _ _ _ _ _ _ _ (1 : Fin 2) ?_).trans (zpad_apply _)
    show ¬(0 ≤ win0_3.index t (1 : Fin 2) * 1792 + 1 * v.val ∧ (win0_3.index t (1 : Fin 2) * 1792 + 1 * v.val - 0) % (0 + 1) = 0 ∧ (win0_3.index t (1 : Fin 2) * 1792 + 1 * v.val - 0) / (0 + 1) < 1677)
    omega
theorem b4_apply (c : Dev nD) (t : Fin cfg0.N) (h : Fin 1024) (d : Fin 256) :
    b4 m c t (ix2 h d) = P0 m c (ix2 d h) := by
  obtain ⟨e0, e1⟩ := idx4 t
  show (V m c main_v10 : S1024x256.Idx → EReal) (((cfg0.win 4).blk t).view.emb (ix2 h d)) = _
  rw [v4_eq, truncf_apply]
  refine transpose_apply _ _ _ _ (ix2 d h) ?_
  intro b
  match b with
  | ⟨0, _⟩ => show h.val = win0_4.index t (0 : Fin 2) * 1024 + 1 * h.val; omega
  | ⟨1, _⟩ => show d.val = win0_4.index t (1 : Fin 2) * 256 + 1 * d.val; omega
theorem b5_apply (c : Dev nD) (t : Fin cfg0.N) (d : Fin 256) (v : Fin 3456) :
    b5 m c t (ix2 d v) = if hv : v.val < 3350 then W0 m c (ix2 (⟨v.val, hv⟩ : Fin 3350) d) else 0 := by
  obtain ⟨e0, e1⟩ := idx5 t
  show (V m c main_v13 : S256x3456.Idx → EReal) (((cfg0.win 5).blk t).view.emb (ix2 d v)) = _
  rw [v5_eq, truncf_apply]
  by_cases hv : v.val < 3350
  · rw [dif_pos hv]
    -- inside the operand: the padded array there is the transposed matrix, which is the matrix with coordinates swapped
    refine (pad_apply_of_inside _ _ _ _ _ _ _ _ (ix2 d (⟨v.val, hv⟩ : Fin 3350)) ?_).trans ?_
    · intro a
      match a with
      | ⟨0, _⟩ => show win0_5.index t (0 : Fin 2) * 256 + 1 * d.val = 0 + d.val * (0 + 1); omega
      | ⟨1, _⟩ => show win0_5.index t (1 : Fin 2) * 3456 + 1 * v.val = 0 + v.val * (0 + 1); omega
    · refine transpose_apply _ _ _ _ (ix2 (⟨v.val, hv⟩ : Fin 3350) d) ?_
      intro b
      match b with
      | ⟨0, _⟩ => rfl
      | ⟨1, _⟩ => rfl
  · rw [dif_neg hv]
    -- past the operand's last column: the padding value, zero
    refine (pad_apply_of_not_inside _ _ _ _ _ _ _ _ (1 : Fin 2) ?_).trans (zpad_apply _)
    show ¬(0 ≤ win0_5.index t (1 : Fin 2) * 3456 + 1 * v.val ∧ (win0_5.index t (1 : Fin 2) * 3456 + 1 * v.val - 0) % (0 + 1) = 0 ∧ (win0_5.index t (1 : Fin 2) * 3456 + 1 * v.val - 0) / (0 + 1) < 3350)
    omega
theorem b6_apply (c : Dev nD) (t : Fin cfg0.N) (h : Fin 1024) (d : Fin 64) :
    b6 m c t (ix2 h d) = P1 m c (ix2 d h) := by
  obtain ⟨e0, e1⟩ := idx6 t
  show (V m c main_v15 : S1024x64.Idx → EReal) (((cfg0.win 6).blk t).view.emb (ix2 h d)) = _
  rw [v6_eq, truncf_apply]
  refine transpose_apply _ _ _ _ (ix2 d h) ?_
  intro b
  match b with
  | ⟨0, _⟩ => show h.val = win0_6.index t (0 : Fin 2) * 1024 + 1 * h.val; omega
  | ⟨1, _⟩ => show d.val = win0_6.index t (1 : Fin 2) * 64 + 1 * d.val; omega
theorem b7_apply (c : Dev nD) (t : Fin cfg0.N) (d : Fin 64) (v : Fin 49152) :
    b7 m c t (ix2 d v) = if hv : v.val < 45232 then W1 m c (ix2 (⟨v.val, hv⟩ : Fin 45232) d) else 0 := by
  obtain ⟨e0, e1⟩ := idx7 t
  show (V m c main_v18 : S64x49152.Idx → EReal) (((cfg0.win 7).blk t).view.emb (ix2 d v)) = _
  rw [v7_eq, truncf_apply]
  by_cases hv : v.val < 45232
  · rw [dif_pos hv]
    -- inside the operand: the padded array there is the transposed matrix, which is the matrix with coordinates swapped
    refine (pad_apply_of_inside _ _ _ _ _ _ _ _ (ix2 d (⟨v.val, hv⟩ : Fin 45232)) ?_).trans ?_
    · intro a
      match a with
      | ⟨0, _⟩ => show win0_7.index t (0 : Fin 2) * 64 + 1 * d.val = 0 + d.val * (0 + 1); omega
      | ⟨1, _⟩ => show win0_7.index t (1 : Fin 2) * 49152 + 1 * v.val = 0 + v.val * (0 + 1); omega
    · refine transpose_apply _ _ _ _ (ix2 (⟨v.val, hv⟩ : Fin 45232) d) ?_
      intro b
      match b with
      | ⟨0, _⟩ => rfl
      | ⟨1, _⟩ => rfl
  · rw [dif_neg hv]
    -- past the operand's last column: the padding value, zero
    refine (pad_apply_of_not_inside _ _ _ _ _ _ _ _ (1 : Fin 2) ?_).trans (zpad_apply _)
    show ¬(0 ≤ win0_7.index t (1 : Fin 2) * 49152 + 1 * v.val ∧ (win0_7.index t (1 : Fin 2) * 49152 + 1 * v.val - 0) % (0 + 1) = 0 ∧ (win0_7.index t (1 : Fin 2) * 49152 + 1 * v.val - 0) / (0 + 1) < 45232)
    omega

end Cert.KernelIdeal.Blocks

end
-- ==== Proof.KMath2.lean ====
/-
  The streamed log-softmax.

  A row of 45232 finite logits is consumed in eleven whole chunks of 4096 columns and a twelfth chunk of which 176
  columns are kept. The running maximum `m`, the running sum `l = Σ exp (a_i − m)` over the columns seen, and the picked
  entry `t` are updated per chunk; when the maximum grows from `m` to `m'` the old sum is rescaled by `exp (m − m')`,
  since `exp (a − m) · exp (m − m') = exp (a − m')`. Before the first chunk the triple is (−∞, 0, 0), and `0 · exp (−∞ − m')`
  is `0`. After the last chunk `t − (m + log l)` is the row's log-softmax at the picked column.
-/
import proofs.«416293_j15891378995362_3_alg».proof.Proof.KForm

noncomputable section

namespace Cert.KMath

open Idealize.ShloMosaic Cert.Spec Cert.KForm

/-! ### Sums and maxima of a family of reals read as extended reals -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of two reals. -/
private theorem exp_sub_coe (a m : ℝ) :
    Ideal.exp ((a : EReal) - (m : EReal)) = ((Real.exp (a - m) : ℝ) : EReal) := by
  rw [← EReal.coe_sub]; rfl

section Family

variable {ι : Type} [DecidableEq ι] (l : ι → EReal) (x : ι → ℝ) (hx : ∀ i, l i = (x i : EReal))

/-- The running triple over the columns in `A`: their maximum, the sum of their exponentials relative to it, and the
    sum of the entries at the columns marked by `r`. -/
private def Inv (r : ι → Prop) [DecidablePred r] (A : Finset ι) (s : EReal × EReal × EReal) : Prop :=
  s.1 = A.sup l ∧ s.2.1 = ∑ i ∈ A, Ideal.exp (l i - A.sup l) ∧ s.2.2 = ∑ i ∈ A, if r i then l i else 0

include hx

/-- The maximum of a nonempty family of reals is a real. -/
private theorem sup_real (A : Finset ι) (hA : A.Nonempty) : ∃ M : ℝ, A.sup l = (M : EReal) := by
  obtain ⟨i, _, h⟩ := Finset.exists_mem_eq_sup A hA l
  exact ⟨x i, h.trans (hx i)⟩

/-- The sum of the exponentials shifted by a real is a real. -/
private theorem sumexp_coe (A : Finset ι) (M : ℝ) :
    ∑ i ∈ A, Ideal.exp (l i - (M : EReal)) = ((∑ i ∈ A, Real.exp (x i - M) : ℝ) : EReal) := by
  rw [coe_sum]
  refine Finset.sum_congr rfl (fun i _ => ?_)
  rw [hx i, exp_sub_coe]

/-- Rescaling: the sum relative to the family's own maximum, times `exp (maximum − M')`, is the sum relative to `M'`.
    For the empty family both sides are zero. -/
private theorem rescale (A : Finset ι) (M' : ℝ) :
    (∑ i ∈ A, Ideal.exp (l i - A.sup l)) * Ideal.exp (A.sup l - (M' : EReal))
      = ∑ i ∈ A, Ideal.exp (l i - (M' : EReal)) := by
  rcases A.eq_empty_or_nonempty with rfl | hA
  · simp
  · obtain ⟨M, hM⟩ := sup_real l x hx A hA
    rw [hM, sumexp_coe l x hx, sumexp_coe l x hx, exp_sub_coe, ← EReal.coe_mul, Finset.sum_mul]
    refine congrArg _ (Finset.sum_congr rfl (fun i _ => ?_))
    rw [← Real.exp_add]
    congr 1
    ring

/-- Folding a further nonempty set `B` of columns into the running triple. -/
private theorem inv_step (r : ι → Prop) [DecidablePred r] (A B : Finset ι) (hAB : Disjoint A B) (hB : B.Nonempty)
    (s : EReal × EReal × EReal) (h : Inv l r A s) (mB eB selB : EReal)
    (hm : mB = B.sup l) (he : eB = ∑ i ∈ B, Ideal.exp (l i - max s.1 mB))
    (hs : selB = ∑ i ∈ B, if r i then l i else 0) :
    Inv l r (A ∪ B) (max s.1 mB, s.2.1 * Ideal.exp (s.1 - max s.1 mB) + eB, s.2.2 + selB) := by
  obtain ⟨h1, h2, h3⟩ := h
  have hsup : (A ∪ B).sup l = max s.1 mB := by rw [Finset.sup_union, h1, hm]
  obtain ⟨M', hM'⟩ := sup_real l x hx (A ∪ B) (hB.mono Finset.subset_union_right)
  refine ⟨hsup.symm, ?_, ?_⟩
  · show s.2.1 * Ideal.exp (s.1 - max s.1 mB) + eB = _
    rw [he, ← hsup, hM', Finset.sum_union hAB, h2, h1, rescale l x hx]
  · show s.2.2 + selB = _
    rw [Finset.sum_union hAB, h3, hs]

end Family

/-! ### The row's columns, chunk by chunk -/

/-- The columns before chunk `k`. -/
private def pre (k : ℕ) : Finset (Fin 45232) := Finset.univ.filter (fun i => i.val < 4096 * k)

/-- The columns of chunk `k` that lie in the row. -/
private def chunkSet (k : ℕ) : Finset (Fin 45232) :=
  Finset.univ.filter (fun i => 4096 * k ≤ i.val ∧ i.val < 4096 * (k + 1))

private theorem pre_zero : pre 0 = ∅ := by
  ext i; simp [pre]

private theorem pre_succ (k : ℕ) : pre (k + 1) = pre k ∪ chunkSet k := by
  ext i; simp only [pre, chunkSet, Finset.mem_union, Finset.mem_filter, Finset.mem_univ, true_and]; omega

private theorem pre_twelve : pre 11 ∪ chunkSet 11 = Finset.univ := by
  ext i; have := i.isLt
  simp only [pre, chunkSet, Finset.mem_union, Finset.mem_filter, Finset.mem_univ, true_and, iff_true]; omega

private theorem pre_disjoint (k : ℕ) : Disjoint (pre k) (chunkSet k) := by
  rw [Finset.disjoint_left]; intro i hi hi'
  simp only [pre, chunkSet, Finset.mem_filter, Finset.mem_univ, true_and] at hi hi'; omega

private theorem chunkSet_nonempty (k : ℕ) (hk : k ≤ 11) : (chunkSet k).Nonempty :=
  ⟨⟨4096 * k, by omega⟩, by simp only [chunkSet, Finset.mem_filter, Finset.mem_univ, true_and]; omega⟩

/-- A sum over a chunk's 4096 columns whose terms vanish outside the row is a sum over the chunk's columns in the row. -/
private theorem sum_chunk (k : ℕ) (h : Fin 4096 → EReal) (g : Fin 45232 → EReal)
    (hin : ∀ (j : Fin 4096) (hj : 4096 * k + j.val < 45232), h j = g ⟨4096 * k + j.val, hj⟩)
    (hout : ∀ j : Fin 4096, ¬ 4096 * k + j.val < 45232 → h j = 0) :
    ∑ j, h j = ∑ i ∈ chunkSet k, g i := by
  rw [← Finset.sum_filter_of_ne (p := fun j : Fin 4096 => 4096 * k + j.val < 45232)
    (fun j _ hne => by by_contra hn; exact hne (hout j hn))]
  refine Finset.sum_bij (fun j hj => ⟨4096 * k + j.val, (Finset.mem_filter.1 hj).2⟩) ?_ ?_ ?_ ?_
  · intro j hj
    have := j.isLt
    simp only [chunkSet, Finset.mem_filter, Finset.mem_univ, true_and]; omega
  · intro a _ b _ hab
    have := congrArg Fin.val hab
    simp only at this
    exact Fin.ext (by omega)
  · intro b hb
    simp only [chunkSet, Finset.mem_filter, Finset.mem_univ, true_and] at hb
    have := b.isLt
    refine ⟨⟨b.val - 4096 * k, by omega⟩, ?_, Fin.ext ?_⟩
    · simp only [Finset.mem_filter, Finset.mem_univ, true_and]; omega
    · simp only; omega
  · intro j hj
    exact hin j _

/-- The maximum over a chunk's 4096 columns, −∞ outside the row, is the maximum over the chunk's columns in the row. -/
private theorem sup_chunk (k : ℕ) (h : Fin 4096 → EReal) (g : Fin 45232 → EReal)
    (hin : ∀ (j : Fin 4096) (hj : 4096 * k + j.val < 45232), h j = g ⟨4096 * k + j.val, hj⟩)
    (hout : ∀ j : Fin 4096, ¬ 4096 * k + j.val < 45232 → h j = ⊥) :
    vmax h = (chunkSet k).sup g := by
  show Finset.univ.sup h = _
  apply le_antisymm
  · refine Finset.sup_le (fun j _ => ?_)
    by_cases hj : 4096 * k + j.val < 45232
    · rw [hin j hj]
      refine Finset.le_sup ?_
      have := j.isLt
      simp only [chunkSet, Finset.mem_filter, Finset.mem_univ, true_and]; omega
    · rw [hout j hj]; exact bot_le
  · refine Finset.sup_le (fun i hi => ?_)
    simp only [chunkSet, Finset.mem_filter, Finset.mem_univ, true_and] at hi
    have hlt := i.isLt
    have e := hin ⟨i.val - 4096 * k, by omega⟩ (by simp only; omega)
    have hi' : (⟨4096 * k + (i.val - 4096 * k), by omega⟩ : Fin 45232) = i := Fin.ext (by simp only; omega)
    rw [hi'] at e
    rw [← e]
    exact Finset.le_sup (Finset.mem_univ _)

/-! ### Column numbers as 32-bit words -/

/-- A column's word in a chunk that starts at column `4096 · k` equals a word exactly when the numbers agree: nothing
    wraps below 2³². -/
private theorem colAt_eq_iff (k : ℕ) (hk : k ≤ 11) (s : BitVec 32) (hs : s.toNat = 4096 * k) (j : Fin 4096)
    (rel : BitVec 32) : colAt s j = rel ↔ 4096 * k + j.val = rel.toNat := by
  unfold colAt
  rw [← BitVec.toNat_inj, BitVec.toNat_add, BitVec.toNat_ofNat, hs]
  have := j.isLt
  omega

/-- In the last chunk a column is kept exactly when its number is below the row's width. -/
private theorem colAt_slt (j : Fin 4096) :
    (colAt 45056#32 j).slt 45232#32 = decide (4096 * 11 + j.val < 45232) := by
  unfold colAt BitVec.slt
  have h1 : (45056#32 + BitVec.ofNat 32 j.val).toNat = 45056 + j.val := by
    rw [BitVec.toNat_add, BitVec.toNat_ofNat, BitVec.toNat_ofNat]
    have := j.isLt
    omega
  have h2 : (45232#32 : BitVec 32).toNat = 45232 := rfl
  have e1 := BitVec.toInt_eq_toNat_cond (45056#32 + BitVec.ofNat 32 j.val)
  have e2 := BitVec.toInt_eq_toNat_cond (45232#32 : BitVec 32)
  rw [h1] at e1
  rw [h2] at e2
  have := j.isLt
  congr 1
  apply propext
  constructor <;> intro h <;> omega

/-! ### The end of the row -/

/-- With every column folded in, the picked entry less the log-partition is the log-softmax entry. -/
private theorem inv_univ (l1 : Fin 45232 → EReal) (x : Fin 45232 → ℝ) (hx : ∀ i, l1 i = (x i : EReal))
    (p : Fin 45232) (s : EReal × EReal × EReal) (h : Inv l1 (fun i => i.val = p.val) Finset.univ s) :
    s.2.2 - (s.1 + Ideal.log s.2.1) = lsm l1 p := by
  obtain ⟨h1, h2, h3⟩ := h
  have hne : (Finset.univ : Finset (Fin 45232)).Nonempty := ⟨p, Finset.mem_univ _⟩
  obtain ⟨M, hM⟩ := sup_real l1 x hx Finset.univ hne
  have hpick : (∑ i : Fin 45232, if i.val = p.val then l1 i else 0) = l1 p := by
    rw [Finset.sum_eq_single p]
    · rw [if_pos rfl]
    · intro b _ hb
      rw [if_neg (fun hv => hb (Fin.ext hv))]
    · intro hp; exact absurd (Finset.mem_univ p) hp
  have hpos : 0 < ∑ i : Fin 45232, Real.exp (x i - M) :=
    Finset.sum_pos (fun i _ => Real.exp_pos _) hne
  have hv : vmax l1 = (M : EReal) := hM
  unfold lsm
  rw [h3, h1, h2, hpick, hv, hM, sumexp_coe l1 x hx, hx p, Ideal.log_coe, if_neg (not_le.2 hpos),
    ← EReal.coe_add, ← EReal.coe_sub, ← EReal.coe_sub, ← EReal.coe_sub]
  rw [EReal.coe_eq_coe_iff]
  ring

/-- The streamed computation ends at the whole row's log-softmax entry at the picked column. -/
theorem online_eq (c : Fin 12 → Fin 4096 → EReal) (l1 : Fin 45232 → EReal)
    (hc : ∀ (k : Fin 12) (j : Fin 4096) (h : 4096 * k.val + j.val < 45232), c k j = l1 ⟨4096 * k.val + j.val, h⟩)
    (fl1 : ∀ v, ∃ x : ℝ, l1 v = (x : EReal)) (rel : BitVec 32) (hrel : rel.toNat < 45232) :
    streamed c rel = lsm l1 ⟨rel.toNat, hrel⟩ := by
  choose x hx using fl1
  -- the triple before chunk `k` is the running triple over the columns before chunk `k`
  have hfold : ∀ k, k ≤ 11 → Inv l1 (fun i => i.val = rel.toNat) (pre k) (ofold c rel k) := by
    intro k
    induction k with
    | zero =>
      intro _
      rw [pre_zero]
      exact ⟨rfl, rfl, rfl⟩
    | succ k ih =>
      intro hk
      have hk' : k < 11 := by omega
      have hck : ∀ (j : Fin 4096), 4096 * k + j.val < 45232 := fun j => by have := j.isLt; omega
      rw [ofold, dif_pos hk', pre_succ]
      unfold ostep
      refine inv_step l1 x hx _ _ _ (pre_disjoint k) (chunkSet_nonempty k (by omega)) _ (ih (by omega)) _ _ _ ?_ ?_ ?_
      · exact sup_chunk k _ _ (fun j hj => hc ⟨k, by omega⟩ j hj) (fun j hj => absurd (hck j) hj)
      · exact sum_chunk k _ (fun i => Ideal.exp (l1 i - _)) (fun j hj => by rw [hc ⟨k, by omega⟩ j hj])
          (fun j hj => absurd (hck j) hj)
      · unfold selCol
        refine sum_chunk k _ (fun i => if i.val = rel.toNat then l1 i else 0) (fun j hj => ?_)
          (fun j hj => absurd (hck j) hj)
        rw [hc ⟨k, by omega⟩ j hj]
        by_cases hr : 4096 * k + j.val = rel.toNat
        · rw [if_pos ((colAt_eq_iff k (by omega) _ (by rw [BitVec.toNat_ofNat]; omega) j rel).2 hr), if_pos hr]
        · rw [if_neg (fun e => hr ((colAt_eq_iff k (by omega) _ (by rw [BitVec.toNat_ofNat]; omega) j rel).1 e)),
            if_neg hr]
  -- the twelfth chunk, masked to the row's last 176 columns
  have hL : ∀ (j : Fin 4096) (hj : 4096 * 11 + j.val < 45232),
      maskCol (colAt 45056#32) 45232#32 (c ⟨11, by omega⟩) j = l1 ⟨4096 * 11 + j.val, hj⟩ := by
    intro j hj
    unfold maskCol
    rw [colAt_slt, if_pos (decide_eq_true hj)]
    exact hc ⟨11, by omega⟩ j hj
  have hLo : ∀ (j : Fin 4096), ¬ 4096 * 11 + j.val < 45232 →
      maskCol (colAt 45056#32) 45232#32 (c ⟨11, by omega⟩) j = ⊥ := by
    intro j hj
    unfold maskCol
    rw [colAt_slt, if_neg (by simpa using hj)]
  have hlast := inv_step l1 x hx (fun i => i.val = rel.toNat) _ _ (pre_disjoint 11) (chunkSet_nonempty 11 le_rfl) _
    (hfold 11 le_rfl) (vmax (maskCol (colAt 45056#32) 45232#32 (c ⟨11, by omega⟩)))
    (∑ j : Fin 4096, Ideal.exp (maskCol (colAt 45056#32) 45232#32 (c ⟨11, by omega⟩) j
      - max (ofold c rel 11).1 (vmax (maskCol (colAt 45056#32) 45232#32 (c ⟨11, by omega⟩)))))
    (selCol (colAt 45056#32) (maskCol (colAt 45056#32) 45232#32 (c ⟨11, by omega⟩)) rel)
    (sup_chunk 11 _ _ hL hLo)
    (sum_chunk 11 _ (fun i => Ideal.exp (l1 i - _)) (fun j hj => by rw [hL j hj])
      (fun j hj => by rw [hLo j hj, EReal.bot_sub]; rfl))
    (by
      unfold selCol
      refine sum_chunk 11 _ (fun i => if i.val = rel.toNat then l1 i else 0) (fun j hj => ?_) (fun j hj => ?_)
      · rw [hL j hj]
        by_cases hr : 4096 * 11 + j.val = rel.toNat
        · rw [if_pos ((colAt_eq_iff 11 le_rfl _ rfl j rel).2 hr), if_pos hr]
        · rw [if_neg (fun e => hr ((colAt_eq_iff 11 le_rfl _ rfl j rel).1 e)), if_neg hr]
      · rw [if_neg (fun e => hj (by have := (colAt_eq_iff 11 le_rfl _ rfl j rel).1 e; omega))])
  rw [pre_twelve] at hlast
  exact inv_univ l1 x hx ⟨rel.toNat, hrel⟩ _ hlast

end Cert.KMath

end
-- ==== Proof.KMath.lean ====
/-
  One row of the blocked computation is the two-level softmax's log-probability of the row's target.

  With finite logits the padded columns, being −∞, change neither a row's maximum nor its sum of shifted exponentials
  (`exp (−∞ − m) = 0`), the masked sum picks exactly the wanted entry, and `p − (m + log s) = (p − m) − log s` for real
  `p, m` and real `s > 0`. With the target in `[0, 50257)` the three range tests and the two clamps agree with the case
  split of the log-probability.
-/
import proofs.«416293_j15891378995362_3_alg».proof.Proof.KMath2

noncomputable section

namespace Cert.KMath

open Idealize.ShloMosaic Cert.Spec Cert.KForm

/-- A number below `2^31`, as a 32-bit word, has itself as signed value. -/
private theorem toInt_ofNat_small (k : ℕ) (hk : k < 2 ^ 31) : (BitVec.ofNat 32 k).toInt = (k : Int) := by
  have h := BitVec.toInt_eq_toNat_cond (BitVec.ofNat 32 k)
  rw [BitVec.toNat_ofNat] at h
  have h2 : k % 2 ^ 32 = k := Nat.mod_eq_of_lt (by omega)
  rw [h2] at h
  split at h <;> omega

/-- A word with nonnegative signed value has that value as its unsigned value. -/
private theorem toInt_of_nonneg (y : BitVec 32) (hy0 : 0 ≤ y.toInt) : y.toInt = (y.toNat : Int) := by
  have h := BitVec.toInt_eq_toNat_cond y
  have := y.isLt
  split at h <;> omega

/-- For small numbers the signed comparison of column numbers is the comparison of the numbers. -/
private theorem col0_slt {P : ℕ} (v : Fin P) (n : ℕ) (hP : P < 2 ^ 31) (hn : n < 2 ^ 31) :
    (col0 v).slt (BitVec.ofNat 32 n) = decide (v.val < n) := by
  have := v.isLt
  have h1 : (col0 v).toInt = (v.val : Int) := toInt_ofNat_small v.val (by omega)
  have h2 := toInt_ofNat_small n hn
  unfold BitVec.slt
  rw [decide_eq_decide, h1, h2]
  omega

/-- Signed `k ≤ y` for a small constant `k` and a nonnegative word `y`. -/
private theorem sle_const (y : BitVec 32) (k : ℕ) (hk : k < 2 ^ 31) (hy0 : 0 ≤ y.toInt) :
    (BitVec.ofNat 32 k).sle y = decide (k ≤ y.toNat) := by
  have h1 := toInt_of_nonneg y hy0
  have h2 := toInt_ofNat_small k hk
  unfold BitVec.sle
  rw [decide_eq_decide, h1, h2]
  omega

/-- Signed `y < k` for a small constant `k` and a nonnegative word `y`. -/
private theorem slt_const (y : BitVec 32) (k : ℕ) (hk : k < 2 ^ 31) (hy0 : 0 ≤ y.toInt) :
    y.slt (BitVec.ofNat 32 k) = decide (y.toNat < k) := by
  have h1 := toInt_of_nonneg y hy0
  have h2 := toInt_ofNat_small k hk
  unfold BitVec.slt
  rw [decide_eq_decide, h1, h2]
  omega

/-- Signed `k < y` for a small constant `k` and a nonnegative word `y`. -/
private theorem const_slt (y : BitVec 32) (k : ℕ) (hk : k < 2 ^ 31) (hy0 : 0 ≤ y.toInt) :
    (BitVec.ofNat 32 k).slt y = decide (k < y.toNat) := by
  have h1 := toInt_of_nonneg y hy0
  have h2 := toInt_ofNat_small k hk
  unfold BitVec.slt
  rw [decide_eq_decide, h1, h2]
  omega

/-- A target below 1675 reads its own head column. -/
private theorem idxHead_small (y : BitVec 32) (hy0 : 0 ≤ y.toInt) (h : y.toNat < 1675) : idxHead y = y := by
  unfold idxHead
  rw [slt_const y 1675 (by norm_num) hy0, decide_eq_true h]
  rfl

/-- A word in `[lo, 2^31)` clamped after subtracting `lo`. -/
private theorem clip_sub_toNat (hi lo : ℕ) (hhi : hi < 2 ^ 31) (y : BitVec 32) (hy0 : 0 ≤ y.toInt)
    (h : lo ≤ y.toNat) :
    (clipTo (BitVec.ofNat 32 hi) (y - BitVec.ofNat 32 lo)).toNat = min hi (y.toNat - lo) := by
  have hy := toInt_of_nonneg y hy0
  have hyl := y.isLt
  have hysm : y.toNat < 2 ^ 31 := by
    have h := BitVec.toInt_eq_toNat_cond y
    split at h <;> omega
  have hsub : (y - BitVec.ofNat 32 lo).toNat = y.toNat - lo := by
    rw [BitVec.toNat_sub, BitVec.toNat_ofNat, Nat.mod_eq_of_lt (show lo < 2 ^ 32 by omega)]
    omega
  have hz0 : 0 ≤ (y - BitVec.ofNat 32 lo).toInt := by
    have h := BitVec.toInt_eq_toNat_cond (y - BitVec.ofNat 32 lo)
    split at h <;> omega
  have hmax : IntOp.maxsi 0#32 (y - BitVec.ofNat 32 lo) = y - BitVec.ofNat 32 lo := by
    unfold IntOp.maxsi
    rw [slt_const (y - BitVec.ofNat 32 lo) 0 (by norm_num) hz0, decide_eq_false (Nat.not_lt_zero _)]
    rfl
  unfold clipTo
  rw [hmax]
  unfold IntOp.minsi
  rw [const_slt (y - BitVec.ofNat 32 lo) hi hhi hz0]
  by_cases hc : hi < (y - BitVec.ofNat 32 lo).toNat
  · rw [decide_eq_true hc, if_pos rfl, BitVec.toNat_ofNat, Nat.mod_eq_of_lt (show hi < 2 ^ 32 by omega)]
    omega
  · rw [decide_eq_false hc, if_neg (by simp)]
    omega

/-- The coercion from the reals commutes with finite sums. -/
private theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the first `n` of `P` indices. -/
private theorem sum_fin_dite {M : Type*} [AddCommMonoid M] {n P : ℕ} (hnP : n ≤ P) (F : Fin n → M) :
    (∑ v : Fin P, if h : v.val < n then F ⟨v.val, h⟩ else 0) = ∑ i : Fin n, F i := by
  symm
  apply Finset.sum_of_injOn (fun i : Fin n => Fin.castLE hnP i)
  · intro i _ j _ h
    exact Fin.castLE_injective hnP h
  · intro i _; exact Finset.mem_coe.2 (Finset.mem_univ _)
  · intro v _ hv
    have : ¬ v.val < n := by
      intro h
      apply hv
      exact ⟨⟨v.val, h⟩, Finset.mem_coe.2 (Finset.mem_univ _), Fin.ext rfl⟩
    rw [dif_neg this]
  · intro i _
    have : (Fin.castLE hnP i).val < n := i.isLt
    rw [dif_pos this]; rfl

/-- The maximum of a nonempty finite family of reals is a real. -/
private theorem vmax_real {n : ℕ} (hn : 0 < n) (f : Fin n → ℝ) :
    ∃ M : ℝ, vmax (fun i => (f i : EReal)) = (M : EReal) := by
  have h1 : vmax (fun i => (f i : EReal)) < ⊤ := by
    unfold vmax
    rw [Finset.fold_max_lt]
    exact ⟨bot_lt_top, fun x _ => EReal.coe_lt_top _⟩
  have h2 : ⊥ < vmax (fun i => (f i : EReal)) := by
    unfold vmax
    rw [Finset.lt_fold_max]
    exact Or.inr ⟨⟨0, hn⟩, Finset.mem_univ _, EReal.bot_lt_coe _⟩
  exact ⟨_, (EReal.coe_toReal h1.ne h2.ne').symm⟩

/-- Subtracting a log-partition: `x − (m + log s) = (x − m) − log s` for real `x, m` and real `s > 0`. -/
private theorem sub_lse (x m s : ℝ) (hs : 0 < s) :
    (x : EReal) - ((m : EReal) + Ideal.log (s : EReal)) = ((x : EReal) - (m : EReal)) - Ideal.log (s : EReal) := by
  rw [Ideal.log_coe, if_neg (not_le.2 hs), ← EReal.coe_add, ← EReal.coe_sub, ← EReal.coe_sub, ← EReal.coe_sub]
  congr 1
  ring

/-- The sum of shifted exponentials of a nonempty real family is a positive real. -/
private theorem sumexp_real {n : ℕ} (hn : 0 < n) (f : Fin n → ℝ) (m : ℝ) :
    ∃ s : ℝ, 0 < s ∧ (∑ i : Fin n, Ideal.exp ((f i : EReal) - (m : EReal))) = (s : EReal) := by
  refine ⟨∑ i : Fin n, Real.exp (f i - m), ?_, ?_⟩
  · haveI : Nonempty (Fin n) := ⟨⟨0, hn⟩⟩
    exact Finset.sum_pos (fun i _ => Real.exp_pos _) Finset.univ_nonempty
  · rw [coe_sum']
    refine Finset.sum_congr rfl (fun i _ => ?_)
    rw [← EReal.coe_sub, Ideal.exp_coe]

/-- A padded row masked back to its first `n` columns has the log-softmax entries of the unpadded row:
    both a directly read column below `n` and a column picked by the masked sum. -/
private theorem masked_row {P n : ℕ} (hn : 0 < n) (hnP : n ≤ P) (hP : P < 2 ^ 31)
    (a : Fin P → EReal) (hl : Fin n → EReal)
    (ha : ∀ (v : Fin P) (h : v.val < n), a v = hl ⟨v.val, h⟩)
    (fhl : ∀ v, ∃ x : ℝ, hl v = (x : EReal)) :
    (∀ (v : Fin P) (h : v.val < n),
      maskCol col0 (BitVec.ofNat 32 n) a v - lse (maskCol col0 (BitVec.ofNat 32 n) a) = lsm hl ⟨v.val, h⟩) ∧
    (∀ (idx : BitVec 32) (h : idx.toNat < n),
      selCol col0 (maskCol col0 (BitVec.ofNat 32 n) a) idx - lse (maskCol col0 (BitVec.ofNat 32 n) a)
        = lsm hl ⟨idx.toNat, h⟩) := by
  choose f hf using fhl
  obtain rfl : hl = fun i => (f i : EReal) := funext hf
  generalize hAdef : maskCol col0 (BitVec.ofNat 32 n) a = A
  -- the masked row, column by column
  have hA : ∀ v : Fin P, A v = if h : v.val < n then ((f ⟨v.val, h⟩ : ℝ) : EReal) else ⊥ := by
    intro v
    rw [← hAdef]
    unfold maskCol
    rw [col0_slt v n hP (by omega)]
    by_cases h : v.val < n
    · rw [decide_eq_true h, if_pos rfl, dif_pos h, ha v h]
    · rw [decide_eq_false h, if_neg (by simp), dif_neg h]
  -- the maximum
  obtain ⟨M, hM⟩ := vmax_real hn f
  have hvA : vmax A = (M : EReal) := by
    apply le_antisymm
    · unfold vmax
      rw [Finset.fold_max_le]
      refine ⟨bot_le, fun v _ => ?_⟩
      rw [hA v]
      split
      · rw [← hM]
        unfold vmax
        exact (Finset.le_fold_max _).2 (Or.inr ⟨_, Finset.mem_univ _, le_rfl⟩)
      · exact bot_le
    · rw [← hM]
      unfold vmax
      rw [Finset.fold_max_le]
      refine ⟨bot_le, fun i _ => ?_⟩
      refine (Finset.le_fold_max _).2 (Or.inr ⟨Fin.castLE hnP i, Finset.mem_univ _, ?_⟩)
      have hi : (Fin.castLE hnP i).val < n := i.isLt
      rw [hA, dif_pos hi]
      exact le_of_eq rfl
  -- the sum of shifted exponentials
  obtain ⟨s, hs, hsum⟩ := sumexp_real hn f M
  have hsA : (∑ v : Fin P, Ideal.exp (A v - (M : EReal))) = (s : EReal) := by
    rw [← hsum, ← sum_fin_dite hnP]
    refine Finset.sum_congr rfl (fun v _ => ?_)
    rw [hA v]
    split
    · rfl
    · rw [EReal.bot_sub, Ideal.exp_bot]
  have hlse : lse A = (M : EReal) + Ideal.log (s : EReal) := by
    unfold lse
    rw [hvA, hsA]
  have hlsm : ∀ j : Fin n, lsm (fun i => (f i : EReal)) j
      = ((f j : EReal) - (M : EReal)) - Ideal.log (s : EReal) := by
    intro j
    unfold lsm
    rw [hM, hsum]
  constructor
  · intro v h
    rw [hlse, hlsm, hA v, dif_pos h]
    exact sub_lse _ _ _ hs
  · intro idx h
    have hsel : selCol col0 A idx = (f ⟨idx.toNat, h⟩ : EReal) := by
      unfold selCol
      have hterm : ∀ v : Fin P, (if col0 v = idx then A v else 0)
          = if h' : v.val < n then
              (if (⟨v.val, h'⟩ : Fin n) = ⟨idx.toNat, h⟩ then ((f ⟨v.val, h'⟩ : ℝ) : EReal) else 0)
            else 0 := by
        intro v
        have hv := v.isLt
        have hcol : col0 v = idx ↔ v.val = idx.toNat := by
          unfold col0
          constructor
          · intro e
            have := congrArg BitVec.toNat e
            rw [BitVec.toNat_ofNat, Nat.mod_eq_of_lt (by omega)] at this
            exact this
          · intro e
            rw [e, BitVec.ofNat_toNat, BitVec.setWidth_eq]
        by_cases h' : v.val < n
        · rw [dif_pos h', hA v, dif_pos h']
          by_cases e : v.val = idx.toNat
          · rw [if_pos (hcol.2 e), if_pos (Fin.ext e)]
          · rw [if_neg (fun c => e (hcol.1 c)), if_neg (fun c => e (Fin.mk.inj_iff.1 c))]
        · rw [dif_neg h', if_neg]
          intro c
          exact h' (by rw [hcol.1 c]; exact h)
      rw [Finset.sum_congr rfl (fun v _ => hterm v)]
      exact (sum_fin_dite hnP (fun i : Fin n => if i = ⟨idx.toNat, h⟩ then ((f i : ℝ) : EReal) else 0)).trans
        (by rw [Finset.sum_ite_eq', if_pos (Finset.mem_univ _)])
    rw [hsel, hlse, hlsm]
    exact sub_lse _ _ _ hs

/-- The blocked row's result is the target's log-probability. -/
theorem kernelRow_eq_pick (a : Fin 1792 → EReal) (b : Fin 3456 → EReal) (c : Fin 12 → Fin 4096 → EReal) (y : BitVec 32)
    (hl : Fin 1677 → EReal) (l0 : Fin 3350 → EReal) (l1 : Fin 45232 → EReal)
    (ha : ∀ (v : Fin 1792) (h : v.val < 1677), a v = hl ⟨v.val, h⟩)
    (hb : ∀ (v : Fin 3456) (h : v.val < 3350), b v = l0 ⟨v.val, h⟩)
    (hc : ∀ (k : Fin 12) (j : Fin 4096) (h : 4096 * k.val + j.val < 45232), c k j = l1 ⟨4096 * k.val + j.val, h⟩)
    (fhl : ∀ v, ∃ x : ℝ, hl v = (x : EReal)) (fl0 : ∀ v, ∃ x : ℝ, l0 v = (x : EReal))
    (fl1 : ∀ v, ∃ x : ℝ, l1 v = (x : EReal))
    (hy0 : 0 ≤ y.toInt) (hy1 : y.toInt < 50257) :
    kernelRow a b c y = pick hl l0 l1 y.toNat := by
  have hy := toInt_of_nonneg y hy0
  have hyn : y.toNat < 50257 := by omega
  obtain ⟨hA1, hA2⟩ := masked_row (P := 1792) (n := 1677) (by norm_num) (by norm_num) (by norm_num) a hl ha fhl
  obtain ⟨hB1, hB2⟩ := masked_row (P := 3456) (n := 3350) (by norm_num) (by norm_num) (by norm_num) b l0 hb fl0
  have e1 := sle_const y 5025 (by norm_num) hy0
  have e2 := sle_const y 1675 (by norm_num) hy0
  have e3 := slt_const y 5025 (by norm_num) hy0
  unfold kernelRow pick
  dsimp only
  rw [e1, e2, e3]
  by_cases h1 : 5025 ≤ y.toNat
  · have hr : (rel1 y).toNat = min 45231 (y.toNat - 5025) :=
      clip_sub_toNat 45231 5025 (by norm_num) y hy0 h1
    have hr' : (rel1 y).toNat < 45232 := by omega
    have hfin : (⟨(rel1 y).toNat, hr'⟩ : Fin 45232) = ⟨min 45231 (y.toNat - 5025), by omega⟩ := Fin.ext hr
    rw [decide_eq_true h1, if_pos rfl, if_pos h1, online_eq c l1 hc fl1 (rel1 y) hr', hfin,
      hA1 ⟨1676, by norm_num⟩ (by norm_num)]
  · rw [decide_eq_false h1, if_neg Bool.false_ne_true, if_neg h1]
    by_cases h2 : 1675 ≤ y.toNat
    · have h3 : y.toNat < 5025 := by omega
      have hr : (rel0 y).toNat = min 3349 (y.toNat - 1675) :=
        clip_sub_toNat 3349 1675 (by norm_num) y hy0 h2
      have hr' : (rel0 y).toNat < 3350 := by omega
      have hfin : (⟨(rel0 y).toNat, hr'⟩ : Fin 3350) = ⟨min 3349 (y.toNat - 1675), by omega⟩ := Fin.ext hr
      rw [decide_eq_true h2, decide_eq_true h3, if_pos ⟨rfl, rfl⟩, if_pos h2, hB2 (rel0 y) hr', hfin,
        hA1 ⟨1675, by norm_num⟩ (by norm_num)]
    · have h3 : y.toNat < 1675 := by omega
      rw [decide_eq_false h2, if_neg (fun h => Bool.false_ne_true h.1), if_neg h2,
        idxHead_small y hy0 h3, hA2 y (by omega)]
      congr 1
      exact Fin.ext (Nat.mod_eq_of_lt (by omega)).symm

end Cert.KMath

end
-- ==== Proof.KRow.lean ====
/-
  One row of what a grid point stores is the two-level softmax's log-probability of that row's target.

  The stored value at row `r` is the blocked computation of the row's raw logit rows; the raw logit rows, read through
  the blocks of the point, are the array's logit rows at row 256·t + r on every kept column (a padded weight column is
  zero, and is masked anyway); sums of products of real numbers are real, so the logits are finite whenever the
  arguments are; and the row's target is the array's.
-/
import proofs.«416293_j15891378995362_3_alg».proof.Proof.KHead
import proofs.«416293_j15891378995362_3_alg».proof.Proof.KTail
import proofs.«416293_j15891378995362_3_alg».proof.Proof.KRun
import proofs.«416293_j15891378995362_3_alg».proof.Proof.KBlocks
import proofs.«416293_j15891378995362_3_alg».proof.Proof.KMath

noncomputable section

namespace Cert.KernelIdeal.Rows

open Cert.KernelIdeal Cert.KernelIdeal.Gen Cert.KernelIdeal.Body Idealize.ShloMosaic Idealize.ShloMosaic.ValueIdx
open Cert.Spec Cert.KForm Cert.KRaw

variable (x0 : Vec Ideal S256x1024 .bf16) (x1 : Vec Ideal S256x1 .i32) (x2 : Vec Ideal S1024x1792 .bf16) (x3 : Vec Ideal S1x1792 .f32)
  (x4 : Vec Ideal S1024x256 .bf16) (x5 : Vec Ideal S256x3456 .bf16) (x6 : Vec Ideal S1024x64 .bf16) (x7 : Vec Ideal S64x49152 .bf16)

/-- The stored value at row `r` is the blocked computation of the row's raw logit rows and target. -/
theorem bodyVal_row (r : Fin 256) :
    bodyVal (F := Ideal) x0 x1 x2 x3 x4 x5 x6 x7 (ix2 r (0 : Fin 1))
      = kernelRow (rowA x0 x2 x3 r) (rowB x0 x4 x5 r) (rowC x0 x6 x7 r) (yOf x1 r) := by
  rw [bodyVal_row_tail, pay8_row, pay12_row, pay6_row, pay7_row, pay9_row]
  rfl

end Cert.KernelIdeal.Rows

namespace Cert.KernelIdeal.Point

open Cert.KernelIdeal Cert.KernelIdeal.Gen Cert.KernelIdeal.Body Cert.KernelIdeal.Blocks Cert.KernelIdeal.Rows
open Idealize.ShloMosaic Idealize.ShloMosaic.ValueIdx Idealize.SL.Sem Cert.Spec Cert.KForm Cert.KRaw

/-- A finite sum of real numbers, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real numbers is a real number. -/
theorem real_sum_mul {n : ℕ} (f g : Fin n → EReal) (hf : ∀ i, ∃ x : ℝ, f i = (x : EReal)) (hg : ∀ i, ∃ x : ℝ, g i = (x : EReal)) :
    ∃ x : ℝ, ∑ i : Fin n, f i * g i = (x : EReal) := by
  choose rf hrf using hf
  choose rg hrg using hg
  refine ⟨∑ i : Fin n, rf i * rg i, ?_⟩
  rw [coe_sum]
  exact Finset.sum_congr rfl fun i _ => by rw [hrf i, hrg i, EReal.coe_mul]

variable (m : (ℓ : Loc nD τ sig) → Buf (Elt Ideal) ℓ)

section
variable (c : Dev nD)
  (fX : ∀ i, ∃ x : ℝ, X m c i = (x : EReal)) (fHW : ∀ i, ∃ x : ℝ, HW m c i = (x : EReal)) (fHB : ∀ i, ∃ x : ℝ, HB m c i = (x : EReal))
  (fP0 : ∀ i, ∃ x : ℝ, P0 m c i = (x : EReal)) (fW0 : ∀ i, ∃ x : ℝ, W0 m c i = (x : EReal))
  (fP1 : ∀ i, ∃ x : ℝ, P1 m c i = (x : EReal)) (fW1 : ∀ i, ∃ x : ℝ, W1 m c i = (x : EReal))
  (hY : ∀ i, 0 ≤ (Yv m c i).toInt ∧ (Yv m c i).toInt < 50257)

include fX fHW fHB in
/-- With real arguments every head logit is real. -/
theorem headL_real (n : Fin 4096) (v : Fin 1677) : ∃ x : ℝ, headL (X m c) (HW m c) (HB m c) n v = (x : EReal) := by
  obtain ⟨s, hs⟩ := real_sum_mul (fun h : Fin 1024 => X m c (ix2 n h)) (fun h => HW m c (ix2 v h)) (fun h => fX _) (fun h => fHW _)
  obtain ⟨b, hb⟩ := fHB (ix1 v)
  exact ⟨s + b, by unfold headL; rw [hs, hb, EReal.coe_add]⟩

include fX fP0 fW0 in
/-- With real arguments every first-cluster logit is real. -/
theorem tail0L_real (n : Fin 4096) (v : Fin 3350) : ∃ x : ℝ, tail0L (X m c) (P0 m c) (W0 m c) n v = (x : EReal) :=
  real_sum_mul (fun d : Fin 256 => hid0 (X m c) (P0 m c) n d) (fun d => W0 m c (ix2 v d))
    (fun d => real_sum_mul (fun h : Fin 1024 => X m c (ix2 n h)) (fun h => P0 m c (ix2 d h)) (fun h => fX _) (fun h => fP0 _))
    (fun d => fW0 _)

include fX fP1 fW1 in
/-- With real arguments every second-cluster logit is real. -/
theorem tail1L_real (n : Fin 4096) (v : Fin 45232) : ∃ x : ℝ, tail1L (X m c) (P1 m c) (W1 m c) n v = (x : EReal) :=
  real_sum_mul (fun d : Fin 64 => hid1 (X m c) (P1 m c) n d) (fun d => W1 m c (ix2 v d))
    (fun d => real_sum_mul (fun h : Fin 1024 => X m c (ix2 n h)) (fun h => P1 m c (ix2 d h)) (fun h => fX _) (fun h => fP1 _))
    (fun d => fW1 _)

/-- The point's raw head logits on the kept columns are the array's. -/
theorem rowA_eq (t : Fin cfg0.N) (r : Fin 256) (v : Fin 1792) (h : v.val < 1677) :
    rowA (b0 m c t) (b2 m c t) (b3 m c t) r v = headL (X m c) (HW m c) (HB m c) (rowOf t r) ⟨v.val, h⟩ := by
  unfold rowA headL
  rw [b3_apply, dif_pos h]
  exact congrArg (· + _) (Finset.sum_congr rfl fun k _ => by rw [b0_apply, b2_apply, dif_pos h])

/-- The point's raw first-cluster logits on the kept columns are the array's. -/
theorem rowB_eq (t : Fin cfg0.N) (r : Fin 256) (v : Fin 3456) (h : v.val < 3350) :
    rowB (b0 m c t) (b4 m c t) (b5 m c t) r v = tail0L (X m c) (P0 m c) (W0 m c) (rowOf t r) ⟨v.val, h⟩ := by
  unfold rowB tail0L hidB hid0
  exact Finset.sum_congr rfl fun d _ => by
    rw [b5_apply, dif_pos h]
    exact congrArg (· * _) (Finset.sum_congr rfl fun k _ => by rw [b0_apply, b4_apply])

/-- The point's raw second-cluster logits on the kept columns are the array's. -/
theorem rowC_eq (t : Fin cfg0.N) (r : Fin 256) (k : Fin 12) (j : Fin 4096) (h : 4096 * k.val + j.val < 45232) :
    rowC (b0 m c t) (b6 m c t) (b7 m c t) r k j = tail1L (X m c) (P1 m c) (W1 m c) (rowOf t r) ⟨4096 * k.val + j.val, h⟩ := by
  unfold rowC tail1L hidC hid1
  exact Finset.sum_congr rfl fun d _ => by
    rw [b7_apply, dif_pos (show (⟨4096 * k.val + j.val, by omega⟩ : Fin 49152).val < 45232 from h)]
    exact congrArg (· * _) (Finset.sum_congr rfl fun q _ => by rw [b0_apply, b6_apply])

include fX fHW fHB fP0 fW0 fP1 fW1 hY in
/-- Row `r` of what point `t` stores is the log-probability of row 256·t + r's target. -/
theorem outsAt_row (t : Fin cfg0.N) (r : Fin 256) :
    outsAt0 m c t (ix2 r (0 : Fin 1))
      = outRow (X m c) (Yv m c) (HW m c) (HB m c) (P0 m c) (W0 m c) (P1 m c) (W1 m c) (rowOf t r) := by
  unfold outsAt0
  rw [out0_A_8_eq]
  show bodyVal (F := Ideal) (b0 m c t) (b1 m c t) (b2 m c t) (b3 m c t) (b4 m c t) (b5 m c t) (b6 m c t) (b7 m c t) (ix2 r (0 : Fin 1)) = _
  rw [bodyVal_row]
  have hy : yOf (b1 m c t) r = Yv m c (ix1 (rowOf t r)) := b1_apply m c t r
  unfold outRow
  rw [hy]
  exact Cert.KMath.kernelRow_eq_pick _ _ _ _ _ _ _ (rowA_eq m c t r) (rowB_eq m c t r) (rowC_eq m c t r)
    (headL_real m c fX fHW fHB _) (tail0L_real m c fX fP0 fW0 _) (tail1L_real m c fX fP1 fW1 _)
    (hY _).1 (hY _).2

end

end Cert.KernelIdeal.Point

namespace Cert.KernelIdeal.Arr

open Cert.KernelIdeal Cert.KernelIdeal.Gen Cert.KernelIdeal.Blocks Cert.KernelIdeal.Point
open Idealize.ShloMosaic Idealize.ShloMosaic.ValueIdx Idealize.SL.Sem Cert.Spec

variable (m : (ℓ : Loc nD τ sig) → Buf (Elt Ideal) ℓ) (ρ : Dev nD → PrngReg)

/-- The column of log-probabilities, as the 4096 × 1 array the region writes. -/
def G (c : Dev nD) : S4096x1.Idx → EReal :=
  fun i => outRow (X m c) (Yv m c) (HW m c) (HB m c) (P0 m c) (W0 m c) (P1 m c) (W1 m c) (i 0)

/-- The output window's block index at point `t` is (t, 0). -/
theorem idx_facts8 : ∀ t : Fin cfg0.N, win0_8.index t (0 : Fin 2) = t.val ∧ win0_8.index t (1 : Fin 2) = 0 :=
  (by decide +kernel : ∀ t : Fin grid0.N, _)

/-- The first result from the column: the column as a vector of 4096. -/
def out1 (o : S4096x1.Idx → EReal) : S4096.Idx → EReal := shapeCast S4096 o shapeCasts_S4096x1_S4096
/-- The second result from the column: minus the column's mean. -/
def loss (o : S4096x1.Idx → EReal) : S_.Idx → EReal :=
  Host.negf (F := Ideal) (Host.divf (F := Ideal)
    (Host.reduceAdd (F := Ideal) (out1 o) (constant (F := Ideal) S_ .f32 0x00000000#32) reducesTo_S4096_S_d0 h_S_)
    (constant (F := Ideal) S_ .f32 0x45800000#32))

section
variable (c : Dev nD)
  (fX : ∀ i, ∃ x : ℝ, X m c i = (x : EReal)) (fHW : ∀ i, ∃ x : ℝ, HW m c i = (x : EReal)) (fHB : ∀ i, ∃ x : ℝ, HB m c i = (x : EReal))
  (fP0 : ∀ i, ∃ x : ℝ, P0 m c i = (x : EReal)) (fW0 : ∀ i, ∃ x : ℝ, W0 m c i = (x : EReal))
  (fP1 : ∀ i, ∃ x : ℝ, P1 m c i = (x : EReal)) (fW1 : ∀ i, ∃ x : ℝ, W1 m c i = (x : EReal))
  (hY : ∀ i, 0 ≤ (Yv m c i).toInt ∧ (Yv m c i).toInt < 50257)

include fX fHW fHB fP0 fW0 fP1 fW1 hY in
/-- What point `t` writes back is block `t` of the column. -/
theorem flushed8_eq (t : Fin cfg0.N) :
    (dats m 0 c).flushed 8 t = ((cfg0.win 8).blk t).view.read (Elt Ideal) (G m c) := by
  show (cfg0.win 8).cut (grid0.coords t) ((dats m 0 c).after 8 t) = _
  rw [after0_8]
  funext j
  obtain ⟨r, q, rfl⟩ : ∃ (r : Fin 256) (q : Fin 1), j = ix2 r q := ⟨j 0, j 1, eq_ix2 j⟩
  obtain rfl : q = 0 := Subsingleton.elim _ _
  show outsAt0 m c t (ix2 r (0 : Fin 1)) = G m c (((cfg0.win 8).blk t).view.emb (ix2 r (0 : Fin 1)))
  rw [outsAt_row m c fX fHW fHB fP0 fW0 fP1 fW1 hY t r]
  unfold G
  congr 1
  apply Fin.ext
  show 256 * t.val + r.val = win0_8.index t (0 : Fin 2) * 256 + 1 * r.val
  rw [(idx_facts8 t).1]
  omega

include fX fHW fHB fP0 fW0 fP1 fW1 hY in
/-- The sixteen blocks cover the column, so after the run it is the column of log-probabilities. -/
theorem final8 : (dats m 0 c).arrAt 8 cfg0.N = G m c :=
  (dats m 0 c).arrAt_eq_of_cover 8 (G m c) (fun t _ => flushed8_eq m c fX fHW fHB fP0 fW0 fP1 fW1 hY t) fun i => by
    have hi0 : (i 0).val < 4096 := idx2_lt0 (n0 := 4096) (n1 := 1) i
    have hi1 : (i 1).val < 1 := idx2_lt1 (n0 := 4096) (n1 := 1) i
    have hN : cfg0.N = 16 := N_0
    have ht : (i 0).val / 256 < cfg0.N := by rw [hN]; omega
    obtain ⟨e0, e1⟩ := idx_facts8 ⟨(i 0).val / 256, ht⟩
    refine ⟨⟨(i 0).val / 256, ht⟩, flush0_8 _, ?_⟩
    show i ∈ ((View.whole main_v19).slice (win0_8.rect ⟨(i 0).val / 256, ht⟩)).set
    rw [View.set_slice_whole, Rect.mem_set_unit]
    intro a
    match a with
    | ⟨0, _⟩ =>
      show win0_8.index _ (0 : Fin 2) * 256 ≤ (i 0).val ∧ (i 0).val < win0_8.index _ (0 : Fin 2) * 256 + 256
      rw [e0]; dsimp only; omega
    | ⟨1, _⟩ =>
      show win0_8.index _ (1 : Fin 2) * 1 ≤ (i 1).val ∧ (i 1).val < win0_8.index _ (1 : Fin 2) * 1 + 1
      rw [e1]; omega

include fX fHW fHB fP0 fW0 fP1 fW1 hY in
/-- The first result after the host tail. -/
theorem tail_v20 : Pipeline.afterTail₀ cfgs (dats m) 0 (V0 m) [hostOps1] c main_v20 = out1 (G m c) := by
  unfold Pipeline.afterTail₀
  show StableHlo.after (hostOps1 (F := Ideal)) _ (Proc.devRef .tc main_v20) = _
  after_results
  have hW : Pipeline.withArrays (cfgs 0).spec c (V0 m c) (fun w => (dats m 0 c).arrAt w (cfgs 0).N) (Proc.tc.devRef main_v19) = G m c :=
    (Pipeline.withArrays_arr spec0 launch0.win.arr_inj c _ _ 8).trans (final8 m c fX fHW fHB fP0 fW0 fP1 fW1 hY)
  rw [hW]
  rfl

include fX fHW fHB fP0 fW0 fP1 fW1 hY in
/-- The second result after the host tail. -/
theorem tail_v23 : Pipeline.afterTail₀ cfgs (dats m) 0 (V0 m) [hostOps1] c main_v23 = loss (G m c) := by
  unfold Pipeline.afterTail₀
  show StableHlo.after (hostOps1 (F := Ideal)) _ (Proc.devRef .tc main_v23) = _
  after_results
  have hW : Pipeline.withArrays (cfgs 0).spec c (V0 m c) (fun w => (dats m 0 c).arrAt w (cfgs 0).N) (Proc.tc.devRef main_v19) = G m c :=
    (Pipeline.withArrays_arr spec0 launch0.win.arr_inj c _ _ 8).trans (final8 m c fX fHW fHB fP0 fW0 fP1 fW1 hY)
  rw [hW]
  rfl

end

/-- Entry `n` of the first result is row `n` of the column. -/
theorem out1_apply (o : S4096x1.Idx → EReal) (n : Fin 4096) : out1 o (ix1 n) = o (ix2 n (0 : Fin 1)) :=
  shapeCast_apply o _ (ix1 n) (ix2 n (0 : Fin 1)) (by
    rw [Shape.rowMajor_val_two, Shape.rowMajor_val_one]
    show n.val * 1 + 0 = n.val
    omega)

/-- What the precondition gives the region: real arguments and targets in range, on every core. -/
def Good : Prop := ∀ c : Dev nD,
  (∀ i, ∃ x : ℝ, X m c i = (x : EReal)) ∧ (∀ i, ∃ x : ℝ, HW m c i = (x : EReal)) ∧ (∀ i, ∃ x : ℝ, HB m c i = (x : EReal))
  ∧ (∀ i, ∃ x : ℝ, P0 m c i = (x : EReal)) ∧ (∀ i, ∃ x : ℝ, W0 m c i = (x : EReal))
  ∧ (∀ i, ∃ x : ℝ, P1 m c i = (x : EReal)) ∧ (∀ i, ∃ x : ℝ, W1 m c i = (x : EReal))
  ∧ (∀ i, 0 ≤ (Yv m c i).toInt ∧ (Yv m c i).toInt < 50257)

/-- The run, read: both results as functions of the arguments, the arguments unchanged. -/
theorem run (hg : Good m) : θ_run defs (onTc (τ := τ) (main (F := Ideal))) ⟨m, fun _ => 0, ρ⟩ fun r => ∀ c : Dev nD,
      r.2.mem ((c.tc : Thread nD τ).loc main_v20) = out1 (G m c)
      ∧ r.2.mem ((c.tc : Thread nD τ).loc main_v23) = loss (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨fX, fHW, fHB, fP0, fW0, fP1, fW1, hY⟩ := hg c
      exact ⟨((h c).2 main_v20 (Pipeline.mem_restRefs_of main_v20 (by decide) (by decide))).trans
          (tail_v20 m c fX fHW fHB fP0 fW0 fP1 fW1 hY),
        ((h c).2 main_v23 (Pipeline.mem_restRefs_of main_v23 (by decide) (by decide))).trans
          (tail_v23 m c fX fHW fHB fP0 fW0 fP1 fW1 hY),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c)⟩)
    (run_main m ρ)

end Cert.KernelIdeal.Arr

end
-- ==== Proof.RefSide.lean ====
/-
  The reference's first result is the two-level softmax's log-probability of each row's target.

  Its three log-softmax calls are the row maximum from −∞, the shifted exponentials' sum, and the shifted entry less the
  sum's logarithm; its picks index in range when the target is in `[0, 50257)`, so the in-range test of each pick holds;
  its two range masks are the case split of the log-probability.
-/
import proofs.«416293_j15891378995362_3_alg».proof.Proof.RefReadP
import proofs.«416293_j15891378995362_3_alg».proof.Proof.Spec
import Idealize.ShloMosaic.Lib.ValueIdx
import Idealize.ShloMosaic.Lib.Pipeline.Value
import Idealize.ShloMosaic.PureOps.Ideal.Laws
import Idealize.ShloMosaic.Lib.WordArith
import Idealize.ShloMosaic.Lib.Affine
import Idealize.ShloMosaic.Lib.StableHlo.Predicate

noncomputable section

namespace Cert.RefSide

open Cert.ReferenceIdeal Cert.ReferenceIdeal.Gen Cert.ReferenceIdeal.ReadP Idealize.ShloMosaic Idealize.ShloMosaic.ValueIdx
open Cert.Spec

/-! ## A row's maximum and the log-softmax entry -/

/-- The word of negative infinity denotes the bottom of the extended reals. -/
private theorem ofBits_negInf : Ideal.ofBits .f32 0xFF800000#32 = ⊥ := by simp [Ideal.ofBits, Ideal.ieee]

/-- The reduced index `n` with column `k` put back is `(n, k)`. -/
private theorem lift_cols {R V : Nat} (h : (⟨2, ![R, V]⟩ : Shape).Reduces [1] (⟨1, ![R]⟩ : Shape)) (n : Fin R)
    (k : Fin ((⟨2, ![R, V]⟩ : Shape).size 1)) : h.lift (ix1 n) k = ix2 n (⟨k.val, k.isLt⟩ : Fin V) := by
  funext c; apply Fin.ext
  fin_cases c <;> rfl

/-- A reduce with a maximum body along the columns, from negative infinity, is the row's maximum. -/
private theorem rowMax_read {R V : Nat} (a : FVec Ideal ⟨2, ![R, V]⟩ .f32) (cst : FVec Ideal ⟨0, ![]⟩ .f32)
    (hc : ∀ i, cst i = Ideal.ofBits .f32 0xFF800000#32)
    (h' : (⟨2, ![R, V]⟩ : Shape).ReducesTo [1] (⟨1, ![R]⟩ : Shape)) (h : (⟨2, ![R, V]⟩ : Shape).Reduces [1] (⟨1, ![R]⟩ : Shape))
    (hu : 0 < (⟨0, ![]⟩ : Shape).numel) (n : Fin R) :
    Host.reduce (FloatOps.maximumf (F := Ideal) (φ := .f32)) a cst h' hu (ix1 n) = vmax (fun v : Fin V => a (ix2 n v)) := by
  rw [Host.reduce_eq_fold_single FloatOps.maximumf a _ h' h hu, hc, ofBits_negInf]
  unfold vmax
  have hf : (a ∘ h.lift (ix1 n)) = fun k : Fin V => a (ix2 n k) := funext fun k => congrArg a (lift_cols h n k)
  exact congrArg (fun f => Finset.fold max (⊥ : EReal) f (Finset.univ : Finset (Fin V))) hf

/-- The three steps of a log-softmax entry, over the row's maximum joined with negative infinity and the sum started at
    the zero word. -/
private theorem lsm_of {V : Nat} (a : Fin V → EReal) (v : Fin V) :
    (a v - max ⊥ (vmax a)) - Ideal.log (Ideal.ofBits .f32 0x00000000#32 + ∑ k : Fin V, Ideal.exp (a k - max ⊥ (vmax a)))
      = lsm a v := by
  rw [Ideal.ofBits_zero_f32, zero_add, max_eq_right bot_le]
  rfl

/-! ## The in-range test: a conjunction over a unit axis -/

/-- A left fold by the conjunction of one-bit words, from 1 over 1s, is 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    refine foldl_andi_one f l _ ?_ (fun n hn => hl n (List.mem_cons_of_mem _ hn))
    rw [hi, hl a (List.mem_cons_self)]; rfl

/-- A reduce by conjunction, from 1, of an array of 1s is 1. -/
private theorem reduce_andi_one {s t u : Shape} {axes : List (Fin s.rank)} (p : s.Idx → BitVec 1) (init : u.Idx → BitVec 1)
    (h : s.ReducesTo axes t) (hu : 0 < u.numel) (j : t.Idx) (hp : ∀ i, p i = 1#1) (hi : ∀ i, init i = 1#1) :
    Host.reduce IntOp.andi p init h hu j = 1#1 := by
  unfold Host.reduce
  exact foldl_andi_one _ _ _ (hi _) (fun n _ => hp _)

/-! ## A pick along the columns: the gather read at an index -/

/-- The dimension numbers of a pick along the columns: operand `[R, V]`, start indices `[R, 1, 1]`, result `[R, 1]`; the
    rows are batched, the column axis is collapsed and is the one the start index names. -/
private abbrev alongDims (R V : Nat)
    (wf : GatherDims.WF ⟨2, ![R, V]⟩ ⟨3, ![R, 1, 1]⟩ ⟨2, ![R, 1]⟩ [] [1] [0] [1] [0] 2 ![1, 1]) :
    GatherDims ⟨2, ![R, V]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The start-indices index `[r, c, 0]` of result index `(r, c)`. -/
private abbrev alongIdx {R : Nat} (y : (⟨2, ![R, 1]⟩ : Shape).Idx) : (⟨3, ![R, 1, 1]⟩ : Shape).Idx :=
  fun a => match a with | ⟨0, _⟩ => ⟨(y 0).val, idx2_lt0 y⟩ | ⟨1, _⟩ => ⟨(y 1).val, idx2_lt1 y⟩ | ⟨2, _⟩ => ⟨0, Nat.one_pos⟩

/-- The pick read at `(r, c)`: the operand's row `r` at the start index read signed and clamped into `[0, V − 1]`. -/
private theorem gather_along_apply {α : Type} {R V w : Nat} (hV : 0 < V)
    (wf : GatherDims.WF ⟨2, ![R, V]⟩ ⟨3, ![R, 1, 1]⟩ ⟨2, ![R, 1]⟩ [] [1] [0] [1] [0] 2 ![1, 1])
    (x : (⟨2, ![R, V]⟩ : Shape).Idx → α) (idx : IVec ⟨3, ![R, 1, 1]⟩ w) (y : (⟨2, ![R, 1]⟩ : Shape).Idx) :
    Host.gather (alongDims R V wf) x idx y
      = x (ix2 (⟨(y 0).val, idx2_lt0 y⟩ : Fin R) (⟨min (idx (alongIdx y)).toInt.toNat (V - 1), by omega⟩ : Fin V)) := by
  unfold Host.gather
  congr 1
  funext a
  refine Fin.ext ?_
  have ha : a = 0 ∨ a = 1 := by
    rcases a with ⟨v, hv⟩
    have hv2 : v < 2 := hv
    rcases (by omega : v = 0 ∨ v = 1) with rfl | rfl
    · exact Or.inl rfl
    · exact Or.inr rfl
  rcases ha with rfl | rfl
  · show (alongDims R V wf).start y idx 0 + (alongDims R V wf).batchCoord y 0 + (alongDims R V wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R V wf).operandBatchingDims from List.mem_singleton.mpr rfl)]
    rfl
  · show (alongDims R V wf).start y idx 1 + (alongDims R V wf).batchCoord y 1 + (alongDims R V wf).offCoord y 1 = _
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R V wf).startIndexMap from List.mem_singleton.mpr rfl)]
    have hsi : (alongDims R V wf).siIdx y ⟨List.idxOf (1 : Fin 2) (alongDims R V wf).startIndexMap,
        List.idxOf_lt_length_iff.2 (List.mem_singleton.mpr rfl)⟩ = alongIdx y := by
      funext b; refine Fin.ext ?_
      match b with
      | ⟨0, _⟩ => rfl
      | ⟨1, _⟩ => rfl
      | ⟨2, _⟩ => rfl
    rw [hsi]
    rfl

/-! ## Words -/

/-- A signed "less than" is 1 exactly when the signed readings are so ordered. -/
private theorem slt_one_iff (a b : BitVec 32) : IntOp.cmpi .slt a b = 1#1 ↔ a.toInt < b.toInt := by
  unfold IntOp.cmpi
  simp only [BitVec.slt, StableHlo.Predicate.ofBool_eq_one_iff, decide_eq_true_eq]
/-- A signed "at most". -/
private theorem sle_one_iff (a b : BitVec 32) : IntOp.cmpi .sle a b = 1#1 ↔ a.toInt ≤ b.toInt := by
  unfold IntOp.cmpi
  simp only [BitVec.sle, StableHlo.Predicate.ofBool_eq_one_iff, decide_eq_true_eq]
/-- A signed "at least". -/
private theorem sge_one_iff (a b : BitVec 32) : IntOp.cmpi .sge a b = 1#1 ↔ b.toInt ≤ a.toInt := by
  unfold IntOp.cmpi
  simp only [BitVec.sle, StableHlo.Predicate.ofBool_eq_one_iff, decide_eq_true_eq]

/-- A word with a non-negative signed reading is below 2³¹ and reads the same unsigned. -/
private theorem nat_of_nonneg (y : BitVec 32) (h : 0 ≤ y.toInt) : y.toNat < 2 ^ 31 ∧ y.toInt = y.toNat := by
  have e := BitVec.toInt_eq_toNat_cond y
  have hy := y.isLt
  split at e <;> omega

/-- A small natural number, as a word, is that number. -/
private theorem toNat_ofNat_small (k : Nat) (hk : k < 2 ^ 31) : (BitVec.ofNat 32 k).toNat = k := by
  rw [BitVec.toNat_ofNat]; omega

/-- The three word facts of a pick at an index word `z` in `[0, V)`: it is not negative, so the shift by the axis size is
    not taken; it passes the in-range test; and its clamped signed reading is its value. -/
private theorem pick_words (z c1 : BitVec 32) (V : Nat) (hV : V < 2 ^ 31) (hc : c1.toNat + 1 = V) (hz : z.toNat < V) :
    IntOp.cmpi .slt z 0#32 = 0#1
      ∧ IntOp.andi (IntOp.cmpi .sge z 0#32) (IntOp.cmpi .sle z c1) = 1#1
      ∧ min z.toInt.toNat (V - 1) = z.toNat := by
  have hzi : z.toInt = z.toNat := StableHlo.Predicate.toInt_eq_toNat_of_lt (by omega)
  have hci : c1.toInt = c1.toNat := StableHlo.Predicate.toInt_eq_toNat_of_lt (by omega)
  have h0 : (0#32 : BitVec 32).toInt = 0 := by decide
  refine ⟨eq_zero_of_ne_one (fun h => ?_), IntOp.andi_eq_one.2 ⟨(sge_one_iff _ _).2 ?_, (sle_one_iff _ _).2 ?_⟩, ?_⟩
  · have := (slt_one_iff _ _).1 h; omega
  · omega
  · omega
  · rw [hzi, Int.toNat_natCast]; omega

/-- The head's index word: the target where it is below the shortlist's end, else 0. -/
private theorem head_word (y : BitVec 32) (hy : y.toNat < 2 ^ 31) :
    Scalar.select (IntOp.cmpi .slt y 1675#32) y 0#32 = if y.toNat < 1675 then y else 0#32 := by
  have a := StableHlo.Predicate.slt_iff_toNat (a := y) (b := 1675#32) hy (by decide)
  rw [toNat_ofNat_small 1675 (by decide)] at a
  split
  · next h => rw [a.2 h]; exact select_one _ _
  · next h => rw [eq_zero_of_ne_one (fun hc => h (a.1 hc))]; exact select_zero _ _

/-- A range mask `lo ≤ y < hi` on small words. -/
private theorem range_mask (y : BitVec 32) (lo hi : Nat) (hy : y.toNat < 2 ^ 31) (hlo : lo < 2 ^ 31) (hhi : hi < 2 ^ 31) :
    IntOp.andi (IntOp.cmpi .sge y (BitVec.ofNat 32 lo)) (IntOp.cmpi .slt y (BitVec.ofNat 32 hi))
      = if lo ≤ y.toNat ∧ y.toNat < hi then 1#1 else 0#1 := by
  have a := StableHlo.Predicate.sge_iff_toNat (a := y) (b := BitVec.ofNat 32 lo) hy (by rw [toNat_ofNat_small lo hlo]; exact hlo)
  have b := StableHlo.Predicate.slt_iff_toNat (a := y) (b := BitVec.ofNat 32 hi) hy (by rw [toNat_ofNat_small hi hhi]; exact hhi)
  rw [toNat_ofNat_small lo hlo] at a
  rw [toNat_ofNat_small hi hhi] at b
  split
  · next h => exact IntOp.andi_eq_one.2 ⟨a.2 h.1, b.2 h.2⟩
  · next h => exact eq_zero_of_ne_one (fun hc => h ⟨a.1 (IntOp.andi_eq_one.1 hc).1, b.1 (IntOp.andi_eq_one.1 hc).2⟩)

/-- The clip of a difference: the target less the cluster's start, clamped into `[0, hi]`, as a natural number. -/
private theorem clip_word (y : BitVec 32) (lo hi : Nat) (hy : y.toNat < 2 ^ 31) (hlo : lo < 2 ^ 31) (hhi : hi < 2 ^ 31) :
    (IntOp.minsi (BitVec.ofNat 32 hi) (IntOp.maxsi 0#32 (IntOp.subi y (BitVec.ofNat 32 lo)))).toNat = min hi (y.toNat - lo) := by
  have elo := toNat_ofNat_small lo hlo
  have ehi := toNat_ofNat_small hi hhi
  have hm : (IntOp.maxsi 0#32 (IntOp.subi y (BitVec.ofNat 32 lo))).toNat = y.toNat - lo := by
    rw [WordArith.toNat_maxsi_zero]
    have e := BitVec.toInt_eq_toNat_cond (IntOp.subi y (BitVec.ofNat 32 lo))
    have hs : (IntOp.subi y (BitVec.ofNat 32 lo)).toNat = (2 ^ 32 - lo + y.toNat) % 2 ^ 32 := by
      show (y - BitVec.ofNat 32 lo).toNat = _
      rw [BitVec.toNat_sub, elo]
    by_cases hle : lo ≤ y.toNat
    · have : (IntOp.subi y (BitVec.ofNat 32 lo)).toNat = y.toNat - lo := by rw [hs]; omega
      rw [this] at e
      split at e <;> omega
    · have : (IntOp.subi y (BitVec.ofNat 32 lo)).toNat = 2 ^ 32 - lo + y.toNat := by rw [hs]; omega
      rw [this] at e
      split at e <;> omega
  rw [WordArith.toNat_minsi_of_lt _ _ (by rw [ehi]; exact hhi) (by rw [hm]; omega), hm, ehi]

/-! ## The reference's operations, read at a row -/

section Reads

variable (x0 : (⟨S8x512x1024, .f32⟩ : BufTy).Contents (Elt Ideal)) (x1 : (⟨S8x512, .i32⟩ : BufTy).Contents (Elt Ideal))
  (x2 : (⟨S1677x1024, .f32⟩ : BufTy).Contents (Elt Ideal)) (x3 : (⟨S1677, .f32⟩ : BufTy).Contents (Elt Ideal))
  (x4 : (⟨S256x1024, .f32⟩ : BufTy).Contents (Elt Ideal)) (x5 : (⟨S3350x256, .f32⟩ : BufTy).Contents (Elt Ideal))
  (x6 : (⟨S64x1024, .f32⟩ : BufTy).Contents (Elt Ideal)) (x7 : (⟨S45232x64, .f32⟩ : BufTy).Contents (Elt Ideal))

/-- Row `n`'s head logit at column `k`: the row against the head's weight row, plus the bias. -/
private theorem v5_read (n : Fin 4096) (k : Fin 1677) :
    val_main_v5 (F := Ideal) x0 x2 x3 (ix2 n k) = headL (val_main_v0 (F := Ideal) x0) x2 x3 n k := by
  have e1 : ∀ h : Fin 1024, lidx_main_v2 (ix2 n k) h = ix2 n h := fun h => funext fun a => by
    match a with | ⟨0, _⟩ => rfl | ⟨1, _⟩ => rfl
  have e2 : ∀ h : Fin 1024, ridx_main_v2 (ix2 n k) h = ix2 k h := fun h => funext fun a => by
    match a with | ⟨0, _⟩ => rfl | ⟨1, _⟩ => rfl
  have e3 : idx_main_v3 (idx_main_v4 (ix2 n k)) = ix1 k := funext fun a => by
    match a with | ⟨0, _⟩ => rfl
  rw [val_main_v5_apply, val_main_v2_apply, val_main_v4_apply, val_main_v3_apply, e3]
  simp only [e1, e2, headL, Ideal.addf_def]

/-- Row `n`'s first-cluster logit at column `k`: the projected row against the cluster's weight row. -/
private theorem v14_read (n : Fin 4096) (k : Fin 3350) :
    val_main_v14 (F := Ideal) x0 x4 x5 (ix2 n k) = tail0L (val_main_v0 (F := Ideal) x0) x4 x5 n k := by
  have e1 : ∀ d : Fin 256, lidx_main_v14 (ix2 n k) d = ix2 n d := fun d => funext fun a => by
    match a with | ⟨0, _⟩ => rfl | ⟨1, _⟩ => rfl
  have e2 : ∀ d : Fin 256, ridx_main_v14 (ix2 n k) d = ix2 k d := fun d => funext fun a => by
    match a with | ⟨0, _⟩ => rfl | ⟨1, _⟩ => rfl
  have e3 : ∀ (d : Fin 256) (h : Fin 1024), lidx_main_v13 (ix2 n d) h = ix2 n h := fun d h => funext fun a => by
    match a with | ⟨0, _⟩ => rfl | ⟨1, _⟩ => rfl
  have e4 : ∀ (d : Fin 256) (h : Fin 1024), ridx_main_v13 (ix2 n d) h = ix2 d h := fun d h => funext fun a => by
    match a with | ⟨0, _⟩ => rfl | ⟨1, _⟩ => rfl
  rw [val_main_v14_apply]
  simp only [e1, e2, val_main_v13_apply, e3, e4, tail0L, hid0]

/-- Row `n`'s second-cluster logit at column `k`. -/
private theorem v32_read (n : Fin 4096) (k : Fin 45232) :
    val_main_v32 (F := Ideal) x0 x6 x7 (ix2 n k) = tail1L (val_main_v0 (F := Ideal) x0) x6 x7 n k := by
  have e1 : ∀ d : Fin 64, lidx_main_v32 (ix2 n k) d = ix2 n d := fun d => funext fun a => by
    match a with | ⟨0, _⟩ => rfl | ⟨1, _⟩ => rfl
  have e2 : ∀ d : Fin 64, ridx_main_v32 (ix2 n k) d = ix2 k d := fun d => funext fun a => by
    match a with | ⟨0, _⟩ => rfl | ⟨1, _⟩ => rfl
  have e3 : ∀ (d : Fin 64) (h : Fin 1024), lidx_main_v31 (ix2 n d) h = ix2 n h := fun d h => funext fun a => by
    match a with | ⟨0, _⟩ => rfl | ⟨1, _⟩ => rfl
  have e4 : ∀ (d : Fin 64) (h : Fin 1024), ridx_main_v31 (ix2 n d) h = ix2 d h := fun d h => funext fun a => by
    match a with | ⟨0, _⟩ => rfl | ⟨1, _⟩ => rfl
  rw [val_main_v32_apply]
  simp only [e1, e2, val_main_v31_apply, e3, e4, tail1L, hid1]

/-- The head's log-softmax at `(n, v)`: the row maximum is the fold from −∞, the sum starts at the zero word. -/
private theorem v6_read (n : Fin 4096) (v : Fin 1677) :
    val_main_v6 (F := Ideal) x0 x2 x3 (ix2 n v) = lsm (headL (val_main_v0 (F := Ideal) x0) x2 x3 n) v := by
  have hM : val_main_call0_v0 (F := Ideal) x0 x2 x3 (ix1 n) = vmax (headL (val_main_v0 (F := Ideal) x0) x2 x3 n) := by
    unfold val_main_call0_v0
    refine (rowMax_read (R := 4096) (V := 1677) (val_main_v5 (F := Ideal) x0 x2 x3) (val_main_call0_cst (F := Ideal))
      (fun i => val_main_call0_cst_apply i) reducesTo_S4096x1677_S4096_d1 (by decide) h_S_ n).trans ?_
    exact congrArg vmax (funext fun k => v5_read x0 x2 x3 n k)
  have h2 : val_main_call0_v2 (F := Ideal) x0 x2 x3 (ix1 n) = max ⊥ (vmax (headL (val_main_v0 (F := Ideal) x0) x2 x3 n)) := by
    rw [val_main_call0_v2_apply, val_main_call0_v1_apply, val_main_call0_cst_0_apply, hM]
    rw [Ideal.maximumf_def, Ideal.ofBits_def, ofBits_negInf]
  have h4 : ∀ k : Fin 1677, val_main_call0_v4 (F := Ideal) x0 x2 x3 (ix2 n k) = max ⊥ (vmax (headL (val_main_v0 (F := Ideal) x0) x2 x3 n)) := by
    intro k
    have e : idx_main_call0_v3 (idx_main_call0_v4 (ix2 n k)) = ix1 n := funext fun a => by
      match a with | ⟨0, _⟩ => rfl
    rw [val_main_call0_v4_apply, val_main_call0_v3_apply, e, h2]
  have h5 : ∀ k : Fin 1677, val_main_call0_v5 (F := Ideal) x0 x2 x3 (ix2 n k) = (headL (val_main_v0 (F := Ideal) x0) x2 x3 n) k - max ⊥ (vmax (headL (val_main_v0 (F := Ideal) x0) x2 x3 n)) := by
    intro k
    rw [val_main_call0_v5_apply, v5_read x0 x2 x3 n k, h4 k, Ideal.subf_def]
  have h6 : ∀ k : Fin 1677, val_main_call0_v6 (F := Ideal) x0 x2 x3 (ix2 n k)
      = Ideal.exp ((headL (val_main_v0 (F := Ideal) x0) x2 x3 n) k - max ⊥ (vmax (headL (val_main_v0 (F := Ideal) x0) x2 x3 n))) := by
    intro k
    rw [val_main_call0_v6_apply, h5 k, Ideal.hostUnary_exp_def]
  have h7 : val_main_call0_v7 (F := Ideal) x0 x2 x3 (ix1 n)
      = Ideal.ofBits .f32 0x00000000#32 + ∑ k : Fin 1677, Ideal.exp ((headL (val_main_v0 (F := Ideal) x0) x2 x3 n) k - max ⊥ (vmax (headL (val_main_v0 (F := Ideal) x0) x2 x3 n))) := by
    rw [val_main_call0_v7_apply, val_main_call0_cst_1_apply]
    refine congrArg (_ + ·) (Finset.sum_congr rfl fun k _ => ?_)
    have e : idx_main_call0_v7 (ix1 n) k = ix2 n k := funext fun a => by
      match a with | ⟨0, _⟩ => rfl | ⟨1, _⟩ => rfl
    rw [e, h6 k]
  have h10 : val_main_call0_v10 (F := Ideal) x0 x2 x3 (ix2 n v)
      = Ideal.log (Ideal.ofBits .f32 0x00000000#32 + ∑ k : Fin 1677, Ideal.exp ((headL (val_main_v0 (F := Ideal) x0) x2 x3 n) k - max ⊥ (vmax (headL (val_main_v0 (F := Ideal) x0) x2 x3 n)))) := by
    have e : idx_main_call0_v8 (idx_main_call0_v10 (ix2 n v)) = ix1 n := funext fun a => by
      match a with | ⟨0, _⟩ => rfl
    rw [val_main_call0_v10_apply, val_main_call0_v9_apply, val_main_call0_v8_apply, e, h7, Ideal.hostUnary_log_def]
  rw [val_main_v6_apply, h5 v, h10, Ideal.subf_def]
  exact lsm_of _ v

/-- The first cluster's log-softmax at `(n, v)`. -/
private theorem v15_read (n : Fin 4096) (v : Fin 3350) :
    val_main_v15 (F := Ideal) x0 x4 x5 (ix2 n v) = lsm (tail0L (val_main_v0 (F := Ideal) x0) x4 x5 n) v := by
  have hM : val_main_call3_v0 (F := Ideal) x0 x4 x5 (ix1 n) = vmax (tail0L (val_main_v0 (F := Ideal) x0) x4 x5 n) := by
    unfold val_main_call3_v0
    refine (rowMax_read (R := 4096) (V := 3350) (val_main_v14 (F := Ideal) x0 x4 x5) (val_main_call3_cst (F := Ideal))
      (fun i => val_main_call3_cst_apply i) reducesTo_S4096x3350_S4096_d1 (by decide) h_S_ n).trans ?_
    exact congrArg vmax (funext fun k => v14_read x0 x4 x5 n k)
  have h2 : val_main_call3_v2 (F := Ideal) x0 x4 x5 (ix1 n) = max ⊥ (vmax (tail0L (val_main_v0 (F := Ideal) x0) x4 x5 n)) := by
    rw [val_main_call3_v2_apply, val_main_call3_v1_apply, val_main_call3_cst_0_apply, hM]
    rw [Ideal.maximumf_def, Ideal.ofBits_def, ofBits_negInf]
  have h4 : ∀ k : Fin 3350, val_main_call3_v4 (F := Ideal) x0 x4 x5 (ix2 n k) = max ⊥ (vmax (tail0L (val_main_v0 (F := Ideal) x0) x4 x5 n)) := by
    intro k
    have e : idx_main_call3_v3 (idx_main_call3_v4 (ix2 n k)) = ix1 n := funext fun a => by
      match a with | ⟨0, _⟩ => rfl
    rw [val_main_call3_v4_apply, val_main_call3_v3_apply, e, h2]
  have h5 : ∀ k : Fin 3350, val_main_call3_v5 (F := Ideal) x0 x4 x5 (ix2 n k) = (tail0L (val_main_v0 (F := Ideal) x0) x4 x5 n) k - max ⊥ (vmax (tail0L (val_main_v0 (F := Ideal) x0) x4 x5 n)) := by
    intro k
    rw [val_main_call3_v5_apply, v14_read x0 x4 x5 n k, h4 k, Ideal.subf_def]
  have h6 : ∀ k : Fin 3350, val_main_call3_v6 (F := Ideal) x0 x4 x5 (ix2 n k)
      = Ideal.exp ((tail0L (val_main_v0 (F := Ideal) x0) x4 x5 n) k - max ⊥ (vmax (tail0L (val_main_v0 (F := Ideal) x0) x4 x5 n))) := by
    intro k
    rw [val_main_call3_v6_apply, h5 k, Ideal.hostUnary_exp_def]
  have h7 : val_main_call3_v7 (F := Ideal) x0 x4 x5 (ix1 n)
      = Ideal.ofBits .f32 0x00000000#32 + ∑ k : Fin 3350, Ideal.exp ((tail0L (val_main_v0 (F := Ideal) x0) x4 x5 n) k - max ⊥ (vmax (tail0L (val_main_v0 (F := Ideal) x0) x4 x5 n))) := by
    rw [val_main_call3_v7_apply, val_main_call3_cst_1_apply]
    refine congrArg (_ + ·) (Finset.sum_congr rfl fun k _ => ?_)
    have e : idx_main_call3_v7 (ix1 n) k = ix2 n k := funext fun a => by
      match a with | ⟨0, _⟩ => rfl | ⟨1, _⟩ => rfl
    rw [e, h6 k]
  have h10 : val_main_call3_v10 (F := Ideal) x0 x4 x5 (ix2 n v)
      = Ideal.log (Ideal.ofBits .f32 0x00000000#32 + ∑ k : Fin 3350, Ideal.exp ((tail0L (val_main_v0 (F := Ideal) x0) x4 x5 n) k - max ⊥ (vmax (tail0L (val_main_v0 (F := Ideal) x0) x4 x5 n)))) := by
    have e : idx_main_call3_v8 (idx_main_call3_v10 (ix2 n v)) = ix1 n := funext fun a => by
      match a with | ⟨0, _⟩ => rfl
    rw [val_main_call3_v10_apply, val_main_call3_v9_apply, val_main_call3_v8_apply, e, h7, Ideal.hostUnary_log_def]
  rw [val_main_v15_apply, h5 v, h10, Ideal.subf_def]
  exact lsm_of _ v

/-- The second cluster's log-softmax at `(n, v)`. -/
private theorem v33_read (n : Fin 4096) (v : Fin 45232) :
    val_main_v33 (F := Ideal) x0 x6 x7 (ix2 n v) = lsm (tail1L (val_main_v0 (F := Ideal) x0) x6 x7 n) v := by
  have hM : val_main_call7_v0 (F := Ideal) x0 x6 x7 (ix1 n) = vmax (tail1L (val_main_v0 (F := Ideal) x0) x6 x7 n) := by
    unfold val_main_call7_v0
    refine (rowMax_read (R := 4096) (V := 45232) (val_main_v32 (F := Ideal) x0 x6 x7) (val_main_call7_cst (F := Ideal))
      (fun i => val_main_call7_cst_apply i) reducesTo_S4096x45232_S4096_d1 (by decide) h_S_ n).trans ?_
    exact congrArg vmax (funext fun k => v32_read x0 x6 x7 n k)
  have h2 : val_main_call7_v2 (F := Ideal) x0 x6 x7 (ix1 n) = max ⊥ (vmax (tail1L (val_main_v0 (F := Ideal) x0) x6 x7 n)) := by
    rw [val_main_call7_v2_apply, val_main_call7_v1_apply, val_main_call7_cst_0_apply, hM]
    rw [Ideal.maximumf_def, Ideal.ofBits_def, ofBits_negInf]
  have h4 : ∀ k : Fin 45232, val_main_call7_v4 (F := Ideal) x0 x6 x7 (ix2 n k) = max ⊥ (vmax (tail1L (val_main_v0 (F := Ideal) x0) x6 x7 n)) := by
    intro k
    have e : idx_main_call7_v3 (idx_main_call7_v4 (ix2 n k)) = ix1 n := funext fun a => by
      match a with | ⟨0, _⟩ => rfl
    rw [val_main_call7_v4_apply, val_main_call7_v3_apply, e, h2]
  have h5 : ∀ k : Fin 45232, val_main_call7_v5 (F := Ideal) x0 x6 x7 (ix2 n k) = (tail1L (val_main_v0 (F := Ideal) x0) x6 x7 n) k - max ⊥ (vmax (tail1L (val_main_v0 (F := Ideal) x0) x6 x7 n)) := by
    intro k
    rw [val_main_call7_v5_apply, v32_read x0 x6 x7 n k, h4 k, Ideal.subf_def]
  have h6 : ∀ k : Fin 45232, val_main_call7_v6 (F := Ideal) x0 x6 x7 (ix2 n k)
      = Ideal.exp ((tail1L (val_main_v0 (F := Ideal) x0) x6 x7 n) k - max ⊥ (vmax (tail1L (val_main_v0 (F := Ideal) x0) x6 x7 n))) := by
    intro k
    rw [val_main_call7_v6_apply, h5 k, Ideal.hostUnary_exp_def]
  have h7 : val_main_call7_v7 (F := Ideal) x0 x6 x7 (ix1 n)
      = Ideal.ofBits .f32 0x00000000#32 + ∑ k : Fin 45232, Ideal.exp ((tail1L (val_main_v0 (F := Ideal) x0) x6 x7 n) k - max ⊥ (vmax (tail1L (val_main_v0 (F := Ideal) x0) x6 x7 n))) := by
    rw [val_main_call7_v7_apply, val_main_call7_cst_1_apply]
    refine congrArg (_ + ·) (Finset.sum_congr rfl fun k _ => ?_)
    have e : idx_main_call7_v7 (ix1 n) k = ix2 n k := funext fun a => by
      match a with | ⟨0, _⟩ => rfl | ⟨1, _⟩ => rfl
    rw [e, h6 k]
  have h10 : val_main_call7_v10 (F := Ideal) x0 x6 x7 (ix2 n v)
      = Ideal.log (Ideal.ofBits .f32 0x00000000#32 + ∑ k : Fin 45232, Ideal.exp ((tail1L (val_main_v0 (F := Ideal) x0) x6 x7 n) k - max ⊥ (vmax (tail1L (val_main_v0 (F := Ideal) x0) x6 x7 n)))) := by
    have e : idx_main_call7_v8 (idx_main_call7_v10 (ix2 n v)) = ix1 n := funext fun a => by
      match a with | ⟨0, _⟩ => rfl
    rw [val_main_call7_v10_apply, val_main_call7_v9_apply, val_main_call7_v8_apply, e, h7, Ideal.hostUnary_log_def]
  rw [val_main_v33_apply, h5 v, h10, Ideal.subf_def]
  exact lsm_of _ v

/-! ## The index words of a row -/

/-- Row `m`'s target, in range by the hypothesis on the targets, is below 50257 as a natural number. -/
private theorem target_lt (hy : ∀ i : S8x512.Idx, 0 ≤ (x1 i).toInt ∧ (x1 i).toInt < 50257) (m : Fin 4096) :
    (val_main_v1 (F := Ideal) x1 (ix1 m)).toNat < 50257 := by
  have h := hy (idx_main_v1 (ix1 m))
  rw [← val_main_v1_apply (F := Ideal) x1 (ix1 m)] at h
  obtain ⟨-, he⟩ := nat_of_nonneg _ h.1
  omega

/-- The head's index word at row `m`: the target where it is in the shortlist, else 0. -/
private theorem v9_read (m : Fin 4096) (h31 : (val_main_v1 (F := Ideal) x1 (ix1 m)).toNat < 2 ^ 31) :
    val_main_v9 (F := Ideal) x1 (ix1 m)
      = if (val_main_v1 (F := Ideal) x1 (ix1 m)).toNat < 1675 then val_main_v1 (F := Ideal) x1 (ix1 m) else 0#32 := by
  rw [val_main_v9_apply, val_main_v8_apply, val_main_v7_apply, val_main_c_apply, val_main_call1_v1_apply,
    val_main_call1_v0_apply, val_main_c_0_apply]
  exact head_word _ h31

/-- It is a column of the head. -/
private theorem v9_lt (m : Fin 4096) (h31 : (val_main_v1 (F := Ideal) x1 (ix1 m)).toNat < 2 ^ 31) :
    (val_main_v9 (F := Ideal) x1 (ix1 m)).toNat < 1677 := by
  rw [v9_read x1 m h31]
  split
  · omega
  · decide

/-- The first cluster's index word at row `m`: the target less 1675, clamped into `[0, 3349]`. -/
private theorem v18_toNat (m : Fin 4096) (h31 : (val_main_v1 (F := Ideal) x1 (ix1 m)).toNat < 2 ^ 31) :
    (val_main_v18 (F := Ideal) x1 (ix1 m)).toNat = min 3349 ((val_main_v1 (F := Ideal) x1 (ix1 m)).toNat - 1675) := by
  rw [val_main_v18_apply, val_main_call4_v4_apply, val_main_call4_v3_apply, val_main_c_3_apply, val_main_call4_v2_apply,
    val_main_call4_v1_apply, val_main_call4_v0_apply, val_main_c_2_apply, val_main_v17_apply, val_main_v16_apply,
    val_main_c_1_apply]
  exact clip_word _ 1675 3349 h31 (by decide) (by decide)

/-- The second cluster's index word at row `m`: the target less 5025, clamped into `[0, 45231]`. -/
private theorem v36_toNat (m : Fin 4096) (h31 : (val_main_v1 (F := Ideal) x1 (ix1 m)).toNat < 2 ^ 31) :
    (val_main_v36 (F := Ideal) x1 (ix1 m)).toNat = min 45231 ((val_main_v1 (F := Ideal) x1 (ix1 m)).toNat - 5025) := by
  rw [val_main_v36_apply, val_main_call8_v4_apply, val_main_call8_v3_apply, val_main_c_8_apply, val_main_call8_v2_apply,
    val_main_call8_v1_apply, val_main_call8_v0_apply, val_main_c_7_apply, val_main_v35_apply, val_main_v34_apply,
    val_main_c_6_apply]
  exact clip_word _ 5025 45231 h31 (by decide) (by decide)

/-- The head's pick at row `n`: with the index word a column of the head, the in-range test holds and the gather reads the head's log-softmax at that column. -/
private theorem v12_read (hin : ∀ m : Fin 4096, (val_main_v9 (F := Ideal) x1 (ix1 m)).toNat < 1677) (n : Fin 4096)
    (c : Fin 1677) (hc : (val_main_v9 (F := Ideal) x1 (ix1 n)).toNat = c.val) :
    val_main_v12 (F := Ideal) x0 x1 x2 x3 (ix1 n) = val_main_v6 (F := Ideal) x0 x2 x3 (ix2 n c) := by
  -- the index word is not negative: the shift by the axis size is not taken
  have h5 : ∀ (p : Fin 4096) (q r : Fin 1),
      val_main_call2_v5 (F := Ideal) x1 (ix3 p q r) = val_main_v9 (F := Ideal) x1 (ix1 p) := by
    intro p q r
    have hw := pick_words (val_main_v9 (F := Ideal) x1 (ix1 p)) 1676#32 1677 (by decide) (by decide) (hin p)
    have e : idx_main_v10 (idx_main_call2_v5 (ix3 p q r)) = ix1 p := funext fun a => Fin.ext (by
      match a with
      | ⟨0, _⟩ =>
        have hq : q.val < 1 := q.isLt
        have hr : r.val < 1 := r.isLt
        show ((p.val * 1 + q.val) * 1 + r.val) / 1 = p.val
        omega)
    rw [val_main_call2_v5_apply, val_main_call2_v4_apply, val_main_call2_v1_apply, val_main_v10_apply,
      val_main_call2_v0_apply, val_main_call2_c_apply, e, hw.1]
    exact select_zero _ _
  -- it passes the in-range test, at every row
  have h11 : ∀ (p : Fin 4096) (q r : Fin 1), val_main_call2_v11 (F := Ideal) x1 (ix3 p q r) = 1#1 := by
    intro p q r
    have hw := pick_words (val_main_v9 (F := Ideal) x1 (ix1 p)) 1676#32 1677 (by decide) (by decide) (hin p)
    rw [val_main_call2_v11_apply, val_main_call2_v7_apply, val_main_call2_v10_apply, val_main_call2_v6_apply,
      val_main_call2_c_2_apply, val_main_call2_v9_apply, val_main_call2_v8_apply, val_main_call2_c_1_apply, h5 p q r]
    exact hw.2.1
  have h12 : ∀ j : S4096x1.Idx, val_main_call2_v12 (F := Ideal) x1 j = 1#1 := by
    intro j
    unfold val_main_call2_v12
    refine reduce_andi_one _ _ _ _ _ (fun i => ?_) (fun i => val_main_call2_c_3_apply i)
    obtain ⟨p, q, r, rfl⟩ : ∃ (p : Fin 4096) (q r : Fin 1), i = ix3 p q r := ⟨i 0, i 1, i 2, eq_ix3 i⟩
    exact h11 p q r
  have e12 : idx_main_v12 (ix1 n) = ix2 n (0 : Fin 1) := funext fun a => Fin.ext (by
    match a with
    | ⟨0, _⟩ => show n.val / 1 = n.val; omega
    | ⟨1, _⟩ => rfl)
  rw [val_main_v12_apply, val_main_v11_apply, e12, h12, select_one]
  unfold val_main_call2_v13
  refine (gather_along_apply (R := 4096) (V := 1677) (by decide) _ (val_main_v6 (F := Ideal) x0 x2 x3)
    (val_main_call2_v5 (F := Ideal) x1) (ix2 n (0 : Fin 1))).trans ?_
  have hw := pick_words (val_main_v9 (F := Ideal) x1 (ix1 n)) 1676#32 1677 (by decide) (by decide) (hin n)
  have e5 : alongIdx (ix2 n (0 : Fin 1)) = ix3 n (0 : Fin 1) (0 : Fin 1) := funext fun a => by
    match a with | ⟨0, _⟩ => rfl | ⟨1, _⟩ => rfl | ⟨2, _⟩ => rfl
  refine congrArg (val_main_v6 (F := Ideal) x0 x2 x3) (funext fun a => ?_)
  match a with
  | ⟨0, _⟩ => rfl
  | ⟨1, _⟩ =>
    refine Fin.ext ?_
    show min (val_main_call2_v5 (F := Ideal) x1 (alongIdx (ix2 n (0 : Fin 1)))).toInt.toNat (1677 - 1) = c.val
    rw [e5, h5, hw.2.2, hc]

/-- The first cluster's pick at row `n`. -/
private theorem v23_read (hin : ∀ m : Fin 4096, (val_main_v18 (F := Ideal) x1 (ix1 m)).toNat < 3350) (n : Fin 4096)
    (c : Fin 3350) (hc : (val_main_v18 (F := Ideal) x1 (ix1 n)).toNat = c.val) :
    val_main_v23 (F := Ideal) x0 x1 x4 x5 (ix1 n) = val_main_v15 (F := Ideal) x0 x4 x5 (ix2 n c) := by
  -- the index word is not negative: the shift by the axis size is not taken
  have h5 : ∀ (p : Fin 4096) (q r : Fin 1),
      val_main_call5_v5 (F := Ideal) x1 (ix3 p q r) = val_main_v18 (F := Ideal) x1 (ix1 p) := by
    intro p q r
    have hw := pick_words (val_main_v18 (F := Ideal) x1 (ix1 p)) 3349#32 3350 (by decide) (by decide) (hin p)
    have e : idx_main_v21 (idx_main_call5_v5 (ix3 p q r)) = ix1 p := funext fun a => Fin.ext (by
      match a with
      | ⟨0, _⟩ =>
        have hq : q.val < 1 := q.isLt
        have hr : r.val < 1 := r.isLt
        show ((p.val * 1 + q.val) * 1 + r.val) / 1 = p.val
        omega)
    rw [val_main_call5_v5_apply, val_main_call5_v4_apply, val_main_call5_v1_apply, val_main_v21_apply,
      val_main_call5_v0_apply, val_main_call5_c_apply, e, hw.1]
    exact select_zero _ _
  -- it passes the in-range test, at every row
  have h11 : ∀ (p : Fin 4096) (q r : Fin 1), val_main_call5_v11 (F := Ideal) x1 (ix3 p q r) = 1#1 := by
    intro p q r
    have hw := pick_words (val_main_v18 (F := Ideal) x1 (ix1 p)) 3349#32 3350 (by decide) (by decide) (hin p)
    rw [val_main_call5_v11_apply, val_main_call5_v7_apply, val_main_call5_v10_apply, val_main_call5_v6_apply,
      val_main_call5_c_2_apply, val_main_call5_v9_apply, val_main_call5_v8_apply, val_main_call5_c_1_apply, h5 p q r]
    exact hw.2.1
  have h12 : ∀ j : S4096x1.Idx, val_main_call5_v12 (F := Ideal) x1 j = 1#1 := by
    intro j
    unfold val_main_call5_v12
    refine reduce_andi_one _ _ _ _ _ (fun i => ?_) (fun i => val_main_call5_c_3_apply i)
    obtain ⟨p, q, r, rfl⟩ : ∃ (p : Fin 4096) (q r : Fin 1), i = ix3 p q r := ⟨i 0, i 1, i 2, eq_ix3 i⟩
    exact h11 p q r
  have e12 : idx_main_v23 (ix1 n) = ix2 n (0 : Fin 1) := funext fun a => Fin.ext (by
    match a with
    | ⟨0, _⟩ => show n.val / 1 = n.val; omega
    | ⟨1, _⟩ => rfl)
  rw [val_main_v23_apply, val_main_v22_apply, e12, h12, select_one]
  unfold val_main_call5_v13
  refine (gather_along_apply (R := 4096) (V := 3350) (by decide) _ (val_main_v15 (F := Ideal) x0 x4 x5)
    (val_main_call5_v5 (F := Ideal) x1) (ix2 n (0 : Fin 1))).trans ?_
  have hw := pick_words (val_main_v18 (F := Ideal) x1 (ix1 n)) 3349#32 3350 (by decide) (by decide) (hin n)
  have e5 : alongIdx (ix2 n (0 : Fin 1)) = ix3 n (0 : Fin 1) (0 : Fin 1) := funext fun a => by
    match a with | ⟨0, _⟩ => rfl | ⟨1, _⟩ => rfl | ⟨2, _⟩ => rfl
  refine congrArg (val_main_v15 (F := Ideal) x0 x4 x5) (funext fun a => ?_)
  match a with
  | ⟨0, _⟩ => rfl
  | ⟨1, _⟩ =>
    refine Fin.ext ?_
    show min (val_main_call5_v5 (F := Ideal) x1 (alongIdx (ix2 n (0 : Fin 1)))).toInt.toNat (3350 - 1) = c.val
    rw [e5, h5, hw.2.2, hc]

/-- The second cluster's pick at row `n`. -/
private theorem v41_read (hin : ∀ m : Fin 4096, (val_main_v36 (F := Ideal) x1 (ix1 m)).toNat < 45232) (n : Fin 4096)
    (c : Fin 45232) (hc : (val_main_v36 (F := Ideal) x1 (ix1 n)).toNat = c.val) :
    val_main_v41 (F := Ideal) x0 x1 x6 x7 (ix1 n) = val_main_v33 (F := Ideal) x0 x6 x7 (ix2 n c) := by
  -- the index word is not negative: the shift by the axis size is not taken
  have h5 : ∀ (p : Fin 4096) (q r : Fin 1),
      val_main_call9_v5 (F := Ideal) x1 (ix3 p q r) = val_main_v36 (F := Ideal) x1 (ix1 p) := by
    intro p q r
    have hw := pick_words (val_main_v36 (F := Ideal) x1 (ix1 p)) 45231#32 45232 (by decide) (by decide) (hin p)
    have e : idx_main_v39 (idx_main_call9_v5 (ix3 p q r)) = ix1 p := funext fun a => Fin.ext (by
      match a with
      | ⟨0, _⟩ =>
        have hq : q.val < 1 := q.isLt
        have hr : r.val < 1 := r.isLt
        show ((p.val * 1 + q.val) * 1 + r.val) / 1 = p.val
        omega)
    rw [val_main_call9_v5_apply, val_main_call9_v4_apply, val_main_call9_v1_apply, val_main_v39_apply,
      val_main_call9_v0_apply, val_main_call9_c_apply, e, hw.1]
    exact select_zero _ _
  -- it passes the in-range test, at every row
  have h11 : ∀ (p : Fin 4096) (q r : Fin 1), val_main_call9_v11 (F := Ideal) x1 (ix3 p q r) = 1#1 := by
    intro p q r
    have hw := pick_words (val_main_v36 (F := Ideal) x1 (ix1 p)) 45231#32 45232 (by decide) (by decide) (hin p)
    rw [val_main_call9_v11_apply, val_main_call9_v7_apply, val_main_call9_v10_apply, val_main_call9_v6_apply,
      val_main_call9_c_2_apply, val_main_call9_v9_apply, val_main_call9_v8_apply, val_main_call9_c_1_apply, h5 p q r]
    exact hw.2.1
  have h12 : ∀ j : S4096x1.Idx, val_main_call9_v12 (F := Ideal) x1 j = 1#1 := by
    intro j
    unfold val_main_call9_v12
    refine reduce_andi_one _ _ _ _ _ (fun i => ?_) (fun i => val_main_call9_c_3_apply i)
    obtain ⟨p, q, r, rfl⟩ : ∃ (p : Fin 4096) (q r : Fin 1), i = ix3 p q r := ⟨i 0, i 1, i 2, eq_ix3 i⟩
    exact h11 p q r
  have e12 : idx_main_v41 (ix1 n) = ix2 n (0 : Fin 1) := funext fun a => Fin.ext (by
    match a with
    | ⟨0, _⟩ => show n.val / 1 = n.val; omega
    | ⟨1, _⟩ => rfl)
  rw [val_main_v41_apply, val_main_v40_apply, e12, h12, select_one]
  unfold val_main_call9_v13
  refine (gather_along_apply (R := 4096) (V := 45232) (by decide) _ (val_main_v33 (F := Ideal) x0 x6 x7)
    (val_main_call9_v5 (F := Ideal) x1) (ix2 n (0 : Fin 1))).trans ?_
  have hw := pick_words (val_main_v36 (F := Ideal) x1 (ix1 n)) 45231#32 45232 (by decide) (by decide) (hin n)
  have e5 : alongIdx (ix2 n (0 : Fin 1)) = ix3 n (0 : Fin 1) (0 : Fin 1) := funext fun a => by
    match a with | ⟨0, _⟩ => rfl | ⟨1, _⟩ => rfl | ⟨2, _⟩ => rfl
  refine congrArg (val_main_v33 (F := Ideal) x0 x6 x7) (funext fun a => ?_)
  match a with
  | ⟨0, _⟩ => rfl
  | ⟨1, _⟩ =>
    refine Fin.ext ?_
    show min (val_main_call9_v5 (F := Ideal) x1 (alongIdx (ix2 n (0 : Fin 1)))).toInt.toNat (45232 - 1) = c.val
    rw [e5, h5, hw.2.2, hc]

/-- The head's log-softmax at the first cluster's column, row `n`. -/
private theorem v20_read (n : Fin 4096) :
    val_main_v20 (F := Ideal) x0 x2 x3 (ix1 n) = val_main_v6 (F := Ideal) x0 x2 x3 (ix2 n (⟨1675, by decide⟩ : Fin 1677)) := by
  have e : idx_main_v19 (idx_main_v20 (ix1 n)) = ix2 n (⟨1675, by decide⟩ : Fin 1677) := funext fun a => Fin.ext (by
    match a with
    | ⟨0, _⟩ => show n.val / 1 = n.val; omega
    | ⟨1, _⟩ => rfl)
  rw [val_main_v20_apply, val_main_v19_apply, e]

/-- The head's log-softmax at the second cluster's column, row `n`. -/
private theorem v38_read (n : Fin 4096) :
    val_main_v38 (F := Ideal) x0 x2 x3 (ix1 n) = val_main_v6 (F := Ideal) x0 x2 x3 (ix2 n (⟨1676, by decide⟩ : Fin 1677)) := by
  have e : idx_main_v37 (idx_main_v38 (ix1 n)) = ix2 n (⟨1676, by decide⟩ : Fin 1677) := funext fun a => Fin.ext (by
    match a with
    | ⟨0, _⟩ => show n.val / 1 = n.val; omega
    | ⟨1, _⟩ => rfl)
  rw [val_main_v38_apply, val_main_v37_apply, e]

end Reads

/-! ## The result -/

/-- With every target in `[0, 50257)` the reference's first result is the array of log-probabilities. -/
theorem out_eq (x0 : (⟨S8x512x1024, .f32⟩ : BufTy).Contents (Elt Ideal)) (x1 : (⟨S8x512, .i32⟩ : BufTy).Contents (Elt Ideal))
    (x2 : (⟨S1677x1024, .f32⟩ : BufTy).Contents (Elt Ideal)) (x3 : (⟨S1677, .f32⟩ : BufTy).Contents (Elt Ideal))
    (x4 : (⟨S256x1024, .f32⟩ : BufTy).Contents (Elt Ideal)) (x5 : (⟨S3350x256, .f32⟩ : BufTy).Contents (Elt Ideal))
    (x6 : (⟨S64x1024, .f32⟩ : BufTy).Contents (Elt Ideal)) (x7 : (⟨S45232x64, .f32⟩ : BufTy).Contents (Elt Ideal))
    (hy : ∀ i : S8x512.Idx, 0 ≤ (x1 i).toInt ∧ (x1 i).toInt < 50257) :
    val_main_v48 (F := Ideal) x0 x1 x2 x3 x4 x5 x6 x7
      = outArr (val_main_v0 (F := Ideal) x0) (val_main_v1 (F := Ideal) x1) x2 x3 x4 x5 x6 x7 := by
  funext i
  obtain ⟨n, rfl⟩ : ∃ n : Fin 4096, i = ix1 n := ⟨i 0, eq_ix1 i⟩
  have hlt : ∀ m : Fin 4096, (val_main_v1 (F := Ideal) x1 (ix1 m)).toNat < 50257 := target_lt x1 hy
  have h31 : ∀ m : Fin 4096, (val_main_v1 (F := Ideal) x1 (ix1 m)).toNat < 2 ^ 31 := fun m => by
    have := hlt m; omega
  have hin9 : ∀ m : Fin 4096, (val_main_v9 (F := Ideal) x1 (ix1 m)).toNat < 1677 := fun m => v9_lt x1 m (h31 m)
  have hin18 : ∀ m : Fin 4096, (val_main_v18 (F := Ideal) x1 (ix1 m)).toNat < 3350 := fun m => by
    rw [v18_toNat x1 m (h31 m)]; omega
  have hin36 : ∀ m : Fin 4096, (val_main_v36 (F := Ideal) x1 (ix1 m)).toNat < 45232 := fun m => by
    rw [v36_toNat x1 m (h31 m)]; omega
  have ht : (val_main_v1 (F := Ideal) x1 (ix1 n)).toNat < 50257 := hlt n
  show val_main_v48 (F := Ideal) x0 x1 x2 x3 x4 x5 x6 x7 (ix1 n)
    = pick (headL (val_main_v0 (F := Ideal) x0) x2 x3 n) (tail0L (val_main_v0 (F := Ideal) x0) x4 x5 n)
        (tail1L (val_main_v0 (F := Ideal) x0) x6 x7 n) (val_main_v1 (F := Ideal) x1 (ix1 n)).toNat
  -- the second cluster's mask
  rw [val_main_v48_apply, val_main_v47_apply, val_main_v44_apply, val_main_v46_apply, val_main_v43_apply,
    val_main_v45_apply, val_main_c_9_apply, val_main_c_10_apply, range_mask _ 5025 50257 (h31 n) (by decide) (by decide)]
  unfold pick
  by_cases h1 : 5025 ≤ (val_main_v1 (F := Ideal) x1 (ix1 n)).toNat
  · rw [if_pos (⟨h1, ht⟩ : 5025 ≤ (val_main_v1 (F := Ideal) x1 (ix1 n)).toNat ∧ (val_main_v1 (F := Ideal) x1 (ix1 n)).toNat < 50257), select_one, if_pos h1, val_main_v42_apply, v38_read,
      v41_read x0 x1 x6 x7 hin36 n ⟨min 45231 ((val_main_v1 (F := Ideal) x1 (ix1 n)).toNat - 5025), by omega⟩ (v36_toNat x1 n (h31 n)),
      v6_read, v33_read, Ideal.addf_def]
  · -- the first cluster's mask
    rw [if_neg (fun h : 5025 ≤ (val_main_v1 (F := Ideal) x1 (ix1 n)).toNat ∧ (val_main_v1 (F := Ideal) x1 (ix1 n)).toNat < 50257 => h1 h.1), select_zero, if_neg h1, val_main_v30_apply,
      val_main_v29_apply, val_main_v26_apply, val_main_v28_apply, val_main_v25_apply, val_main_v27_apply,
      val_main_c_4_apply, val_main_c_5_apply, range_mask _ 1675 5025 (h31 n) (by decide) (by decide)]
    by_cases h0 : 1675 ≤ (val_main_v1 (F := Ideal) x1 (ix1 n)).toNat
    · rw [if_pos (⟨h0, by omega⟩ : 1675 ≤ (val_main_v1 (F := Ideal) x1 (ix1 n)).toNat ∧ (val_main_v1 (F := Ideal) x1 (ix1 n)).toNat < 5025), select_one, if_pos h0, val_main_v24_apply, v20_read,
        v23_read x0 x1 x4 x5 hin18 n ⟨min 3349 ((val_main_v1 (F := Ideal) x1 (ix1 n)).toNat - 1675), by omega⟩ (v18_toNat x1 n (h31 n)),
        v6_read, v15_read, Ideal.addf_def]
    · -- the target is in the shortlist: the head's index word is the target
      have hs : (val_main_v1 (F := Ideal) x1 (ix1 n)).toNat < 1675 := by omega
      rw [if_neg (fun h : 1675 ≤ (val_main_v1 (F := Ideal) x1 (ix1 n)).toNat ∧ (val_main_v1 (F := Ideal) x1 (ix1 n)).toNat < 5025 => h0 h.1), select_zero, if_neg h0,
        v12_read x0 x1 x2 x3 hin9 n ⟨(val_main_v1 (F := Ideal) x1 (ix1 n)).toNat % 1677, Nat.mod_lt _ (by decide)⟩
          (by rw [v9_read x1 n (h31 n), if_pos hs]; exact (Nat.mod_eq_of_lt (by omega)).symm),
        v6_read]

end Cert.RefSide

end
-- ==== Proof.PreDecode.lean ====
/-
  What the precondition says of the arguments: every float entry is a real number, and every target lies in
  `[0, 50257)`.

  The precondition is a conjunction of whole-array tests; each float test is `|x| < +∞` at every entry, which on the
  extended reals leaves exactly the real numbers; the two integer tests are the signed comparisons with 0 and 50257.
-/
import proofs.«416293_j15891378995362_3_alg».proof.Proof.Gen.Pre_finite_inputs
import Idealize.ShloMosaic.PureOps.Ideal.Laws
import Idealize.ShloMosaic.Lib.ReduceAll
import Idealize.ShloMosaic.Lib.ValueIdx
import Idealize.ShloMosaic.Lib.StableHlo.Predicate

noncomputable section

namespace Cert.PreDecode

open Cert.Pre_finite_inputs Idealize.ShloMosaic Idealize.ShloMosaic.ValueIdx

/-- The scalar shape has one index. -/
private instance subsingleton_S_Idx : Subsingleton S_.Idx := ⟨fun a b => funext fun d => d.elim0⟩

/-- The pattern `0x7F800000` is `+∞`. -/
private theorem inf_bits : Ideal.ofBits .f32 0x7F800000#32 = (⊤ : EReal) := by
  simp [Ideal.ofBits, Ideal.ieee]

/-- `|x| < +∞` on the extended reals, with `|x| = max x (-x)`, leaves the real numbers: at `⊤` and at `⊥` the maximum is `⊤`. -/
private theorem real_of_abs_lt (x : EReal)
    (h : Ideal.cmp .olt (max x (-x)) (Ideal.ofBits .f32 0x7F800000#32) = 1#1) : ∃ r : ℝ, x = (r : EReal) := by
  rw [inf_bits] at h
  simp only [Ideal.cmp, StableHlo.Predicate.ofBool_eq_one_iff, decide_eq_true_eq] at h
  induction x using EReal.rec with
  | bot => simp at h
  | top => simp at h
  | coe r => exact ⟨r, rfl⟩

/-- One float test, at any shape: `jnp.all(|x| < +∞)` is 1, so every entry of `x` is a real number. -/
private theorem reals_of_test {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ix0 = 1#1) (i : s.Idx) : ∃ r : ℝ, x i = (r : EReal) :=
  real_of_abs_lt (x i) (Host.reduce_andi_all _ _ hr h0 ix0 e i)

/-- The test `jnp.all(y >= 0)`: every word is non-negative as a signed integer. -/
private theorem nonneg_of_test {s : Shape} {axes : List (Fin s.rank)} (y : IVec s 32)
    (hb : S_.BroadcastsInDim s (![] : Fin 0 → Fin s.rank)) (hr : s.ReducesTo axes S_) (h0 : 0 < S_.numel)
    (e : Host.reduce IntOp.andi (cmpi .sge y (broadcastInDim s ![] hb (constantI S_ 32 0#32)))
        (constantI S_ 1 1#1) hr h0 ix0 = 1#1) (i : s.Idx) : 0 ≤ (y i).toInt := by
  have h : IntOp.cmpi .sge (y i) (0#32) = 1#1 := Host.reduce_andi_all _ _ hr h0 ix0 e i
  unfold IntOp.cmpi at h
  rw [StableHlo.Predicate.ofBool_eq_one_iff] at h
  simpa [BitVec.sle] using h

/-- The test `jnp.all(y < 50257)`: every word is below 50257 as a signed integer. -/
private theorem lt_of_test {s : Shape} {axes : List (Fin s.rank)} (y : IVec s 32)
    (hb : S_.BroadcastsInDim s (![] : Fin 0 → Fin s.rank)) (hr : s.ReducesTo axes S_) (h0 : 0 < S_.numel)
    (e : Host.reduce IntOp.andi (cmpi .slt y (broadcastInDim s ![] hb (constantI S_ 32 50257#32)))
        (constantI S_ 1 1#1) hr h0 ix0 = 1#1) (i : s.Idx) : (y i).toInt < 50257 := by
  have h : IntOp.cmpi .slt (y i) (50257#32) = 1#1 := Host.reduce_andi_all _ _ hr h0 ix0 e i
  unfold IntOp.cmpi at h
  rw [StableHlo.Predicate.ofBool_eq_one_iff] at h
  have e' : (50257#32 : BitVec 32).toInt = 50257 := by decide
  simpa [BitVec.slt, e'] using h

/-- The precondition, all ones, gives finiteness of the seven float arguments and the targets' range. -/
theorem of_pre [Cert.Pre_finite_inputs.Facts]
    (x0 : FVec Ideal S8x512x1024 .f32) (x1 : IVec S8x512 32) (x2 : FVec Ideal S1677x1024 .f32) (x3 : FVec Ideal S1677 .f32)
    (x4 : FVec Ideal S256x1024 .f32) (x5 : FVec Ideal S3350x256 .f32) (x6 : FVec Ideal S64x1024 .f32) (x7 : FVec Ideal S45232x64 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, 0 ≤ (x1 i).toInt ∧ (x1 i).toInt < 50257) := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e2⟩, e3⟩, e4⟩, e5⟩, e6⟩, e7⟩, ea⟩, eb⟩ := e
  exact ⟨reals_of_test x0 _ _ _ e0, reals_of_test x2 _ _ _ e2, reals_of_test x3 _ _ _ e3, reals_of_test x4 _ _ _ e4,
    reals_of_test x5 _ _ _ e5, reals_of_test x6 _ _ _ e6, reals_of_test x7 _ _ _ e7,
    fun i => ⟨nonneg_of_test x1 _ _ _ ea i, lt_of_test x1 _ _ _ eb i⟩⟩

end Cert.PreDecode

end
-- ==== Proof.lean ====
/-
  The certificate: the blocked two-level softmax kernel and its plain reference compute the same log-probabilities and
  the same mean loss on the extended reals, for real inputs and targets in the vocabulary's range.

  Both programs terminate without fault and keep their arguments (the three frames). The idealized kernel differs from
  the printed one in one constant, the finite stand-in for −∞ that fills masked columns and starts the running maximum,
  read as −∞ (four sites). On the extended reals the kernel's column of results is, row by row, the target's
  log-probability under the two-level softmax, and so is the reference's first result; the second result is the same
  host expression of the first on both sides.
-/
import proofs.«416293_j15891378995362_3_alg».proof.Defs
import proofs.«416293_j15891378995362_3_alg».proof.Proof.Gen.Kernel
import proofs.«416293_j15891378995362_3_alg».proof.Proof.Gen.Kernel.Skeleton
import proofs.«416293_j15891378995362_3_alg».proof.Proof.Gen.Kernel.Loops
import proofs.«416293_j15891378995362_3_alg».proof.Proof.Gen.Kernel.Launch
import proofs.«416293_j15891378995362_3_alg».proof.Proof.Gen.Kernel.Points
import proofs.«416293_j15891378995362_3_alg».proof.Proof.Gen.Kernel.Frame
import proofs.«416293_j15891378995362_3_alg».proof.Proof.Gen.KernelIdeal
import proofs.«416293_j15891378995362_3_alg».proof.Proof.Gen.KernelIdeal.Frame
import proofs.«416293_j15891378995362_3_alg».proof.Proof.Gen.ReferenceIdeal
import proofs.«416293_j15891378995362_3_alg».proof.Proof.RefRun
import proofs.«416293_j15891378995362_3_alg».proof.Proof.RefReadP
import proofs.«416293_j15891378995362_3_alg».proof.Proof.Gen.Pre_finite_inputs
import proofs.«416293_j15891378995362_3_alg».proof.Proof.KRow
import proofs.«416293_j15891378995362_3_alg».proof.Proof.RefSide
import proofs.«416293_j15891378995362_3_alg».proof.Proof.PreDecode
import Idealize.ShloMosaic.Adequacy
import Idealize.ShloMosaic.Init

noncomputable section

namespace Cert.Proof

open Idealize.ShloMosaic Idealize.ShloMosaic.ValueIdx Idealize.SL.Sem
open Cert.KernelIdeal.Arr

/-- The named stand-in denotes −∞ on the extended reals: the statement of each of the four rewritten sites. -/
theorem neg_big_site : IdealRules.named_const.Statement Cert.KernelIdeal.κ "neg_big" .f32 0xF149F2CA#32 ⊥ :=
  IdealRules.named_const.statement Cert.KernelIdeal.κ "neg_big" .f32 0xF149F2CA#32 ⊥ rfl

theorem claim : Cert.Claim := by
  refine ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => (θ_run Cert.ReferenceIdeal.defs _ _).mono (fun _ h c => (h c).2.2)
      (Cert.ReferenceIdeal.ValueP.run (F := Ideal) m ρ),
    ⟨neg_big_site, neg_big_site, neg_big_site, neg_big_site⟩, ?_⟩
  intro m ρ m' ρ' hpre hagree
  -- the precondition, decoded on every core: real entries, targets in range
  have hraw := fun c => @Cert.PreDecode.of_pre Cert.Pre_finite_inputs.Gen.facts _ _ _ _ _ _ _ _ (hpre c)
  have hg : Good m := fun c => by
    obtain ⟨f0, f2, f3, f4, f5, f6, f7, hy⟩ := hraw c
    exact ⟨fun i => f0 _, f2, f3, f4, f5, f6, f7, fun i => hy _⟩
  refine ⟨fun c => out1 (G m c), fun c => loss (G m c), Cert.KernelIdeal.Arr.run m ρ hg, ?_⟩
  refine (θ_run Cert.ReferenceIdeal.defs _ _).mono (fun _ h c => ?_) (Cert.ReferenceIdeal.ValueP.run (F := Ideal) m' ρ')
  obtain ⟨a0, a1, a2, a3, a4, a5, a6, a7⟩ := hagree c
  -- the reference's first result, as a function of the kernel's arguments, is the column read as a vector
  have core : Cert.ReferenceIdeal.ReadP.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = out1 (G m c) := by
    rw [Cert.RefSide.out_eq _ _ _ _ _ _ _ _ (hraw c).2.2.2.2.2.2.2]
    funext i
    obtain ⟨n, rfl⟩ : ∃ n : Fin 4096, i = ix1 n := ⟨i 0, eq_ix1 i⟩
    rw [out1_apply]
    rfl
  refine ⟨(h c).1.trans ?_, (h c).2.1.trans ?_, (h c).2.2⟩
  · rw [Cert.ReferenceIdeal.ReadP.val_main_v48_eq, a0, a1, a2, a3, a4, a5, a6, a7]
    exact core
  · rw [Cert.ReferenceIdeal.ReadP.val_main_v51_eq, a0, a1, a2, a3, a4, a5, a6, a7]
    show Host.negf (F := Ideal) (Host.divf (F := Ideal) (Host.reduceAdd (F := Ideal) (Cert.ReferenceIdeal.ReadP.val_main_v48 (F := Ideal) _ _ _ _ _ _ _ _) _ _ _) _) = _
    rw [core]
    rfl

end Cert.Proof

end
